-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v32)) (v2 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v32) = v1 c
          ∧ r.2.mem ((c.tc : Thread Cert.KernelIdeal.nD Cert.KernelIdeal.τ).loc Cert.KernelIdeal.main_v23) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x32000 : Shape := ⟨3, ![4, 2048, 32000]⟩
abbrev S4x2048 : Shape := ⟨2, ![4, 2048]⟩
abbrev S4 : Shape := ⟨1, ![4]⟩
abbrev S_ : Shape := ⟨0, ![]⟩

class Facts : Prop where
  bcast_S_S4x2048x32000 : S_.BroadcastsInDim S4x2048x32000 (![] : Fin 0 → Fin S4x2048x32000.rank)
  reducesTo_S4x2048x32000_S_d0_1_2 : S4x2048x32000.ReducesTo [0, 1, 2] S_
  h_S_ : 0 < S_.numel
  bcast_S_S4x2048 : S_.BroadcastsInDim S4x2048 (![] : Fin 0 → Fin S4x2048.rank)
  reducesTo_S4x2048_S_d0_1 : S4x2048.ReducesTo [0, 1] S_

variable [Facts]

def fn {F : FTy → Type} [FloatOps F] (main_arg0 : FVec F S4x2048x32000 .f32) (main_arg1 : IVec S4x2048 32) (main_arg2 : IVec S4x2048 1) (main_arg3 : IVec S4 32) : IVec S_ 1 :=
  let main_v0 : FVec F S4x2048x32000 .f32 := Host.absf main_arg0
  let main_cst : FVec F S_ .f32 := constant S_ .f32 0x7F800000#32
  let main_v1 : FVec F S4x2048x32000 .f32 := broadcastInDim S4x2048x32000 ![] bcast_S_S4x2048x32000 main_cst
  let main_v2 : IVec S4x2048x32000 1 := cmpf .olt main_v0 main_v1
  let main_c : IVec S_ 1 := constantI S_ 1 1#1
  let main_v3 : IVec S_ 1 := (fun x v => Host.reduce IntOp.andi x v reducesTo_S4x2048x32000_S_d0_1_2 h_S_) main_v2 main_c
  let main_c_0 : IVec S_ 32 := constantI S_ 32 0#32
  let main_v4 : IVec S4x2048 32 := broadcastInDim S4x2048 ![] bcast_S_S4x2048 main_c_0
  let main_v5 : IVec S4x2048 1 := cmpi .sge main_arg1 main_v4
  let main_c_1 : IVec S_ 1 := constantI S_ 1 1#1
  let main_v6 : IVec S_ 1 := (fun x v => Host.reduce IntOp.andi x v reducesTo_S4x2048_S_d0_1 h_S_) main_v5 main_c_1
  let main_v7 : IVec S_ 1 := andi main_v3 main_v6
  let main_c_2 : IVec S_ 32 := constantI S_ 32 32000#32
  let main_v8 : IVec S4x2048 32 := broadcastInDim S4x2048 ![] bcast_S_S4x2048 main_c_2
  let main_v9 : IVec S4x2048 1 := cmpi .slt main_arg1 main_v8
  let main_c_3 : IVec S_ 1 := constantI S_ 1 1#1
  let main_v10 : IVec S_ 1 := (fun x v => Host.reduce IntOp.andi x v reducesTo_S4x2048_S_d0_1 h_S_) main_v9 main_c_3
  let main_v11 : IVec S_ 1 := andi main_v7 main_v10
  main_v11
-- ==== Kernel.lean ====
abbrev S4x2048x32000 : Shape := ⟨3, ![4, 2048, 32000]⟩
abbrev S4x2048 : Shape := ⟨2, ![4, 2048]⟩
abbrev S4 : Shape := ⟨1, ![4]⟩
abbrev S8192x32000 : Shape := ⟨2, ![8192, 32000]⟩
abbrev S8192x1 : Shape := ⟨2, ![8192, 1]⟩
abbrev S1024x6400 : Shape := ⟨2, ![1024, 6400]⟩
abbrev S1024x1 : Shape := ⟨2, ![1024, 1]⟩
abbrev S1024 : Shape := ⟨1, ![1024]⟩
abbrev S8192 : Shape := ⟨1, ![8192]⟩
abbrev S_ : Shape := ⟨0, ![]⟩
abbrev S8 : Shape := ⟨1, ![8]⟩
abbrev S4x1 : Shape := ⟨2, ![4, 1]⟩

abbrev nBuf : Space → Nat
  | .hbm => 54
  | .vmem => 9
  | .smem => 0
  | _ => 0

abbrev bufTy : (tb : Table) → Fin (tcTables nBuf tb) → BufTy
  | .hbm, ⟨0, _⟩ => ⟨S4x2048x32000, .f32⟩
  | .hbm, ⟨1, _⟩ => ⟨S4x2048, .i32⟩
  | .hbm, ⟨2, _⟩ => ⟨S4x2048, .i1⟩
  | .hbm, ⟨3, _⟩ => ⟨S4, .i32⟩
  | .hbm, ⟨4, _⟩ => ⟨S8192x32000, .f32⟩
  | .hbm, ⟨5, _⟩ => ⟨S8192x1, .i32⟩
  | .hbm, ⟨6, _⟩ => ⟨S8192x1, .f32⟩
  | .hbm, ⟨7, _⟩ => ⟨S8192, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4, .f32⟩
  | .hbm, ⟨18, _⟩ => ⟨S_, .f32⟩
  | .hbm, ⟨19, _⟩ => ⟨S8, .f32⟩
  | .hbm, ⟨20, _⟩ => ⟨S4x1, .i32⟩
  | .hbm, ⟨21, _⟩ => ⟨S8, .f32⟩
  | .hbm, ⟨22, _⟩ => ⟨S_, .i32⟩
  | .hbm, ⟨23, _⟩ => ⟨S8, .i32⟩
  | .hbm, ⟨24, _⟩ => ⟨S_, .i32⟩
  | .hbm, ⟨25, _⟩ => ⟨S_, .i32⟩
  | .hbm, ⟨26, _⟩ => ⟨S4, .i32⟩
  | .hbm, ⟨27, _⟩ => ⟨S4, .i32⟩
  | .hbm, ⟨28, _⟩ => ⟨S_, .i32⟩
  | .hbm, ⟨29, _⟩ => ⟨S4, .i32⟩
  | .hbm, ⟨30, _⟩ => ⟨S4, .i1⟩
  | .hbm, ⟨31, _⟩ => ⟨S_, .i32⟩
  | .hbm, ⟨32, _⟩ => ⟨S4, .i32⟩
  | .hbm, ⟨33, _⟩ => ⟨S4, .i32⟩
  | .hbm, ⟨34, _⟩ => ⟨S4, .i32⟩
  | .hbm, ⟨35, _⟩ => ⟨S4x1, .i32⟩
  | .hbm, ⟨36, _⟩ => ⟨S_, .i32⟩
  | .hbm, ⟨37, _⟩ => ⟨S4, .i32⟩
  | .hbm, ⟨38, _⟩ => ⟨S8, .i32⟩
  | .hbm, ⟨39, _⟩ => ⟨S_, .i32⟩
  | .hbm, ⟨40, _⟩ => ⟨S8, .i32⟩
  | .hbm, ⟨41, _⟩ => ⟨S8, .i32⟩
  | .hbm, ⟨42, _⟩ => ⟨S8, .f32⟩
  | .hbm, ⟨43, _⟩ => ⟨S_, .f32⟩
  | .hbm, ⟨44, _⟩ => ⟨S8, .f32⟩
  | .hbm, ⟨45, _⟩ => ⟨S8, .i1⟩
  | .hbm, ⟨46, _⟩ => ⟨S_, .f32⟩
  | .hbm, ⟨47, _⟩ => ⟨S8, .f32⟩
  | .hbm, ⟨48, _⟩ => ⟨S8, .f32⟩
  | .hbm, ⟨49, _⟩ => ⟨S8, .f32⟩
  | .hbm, ⟨50, _⟩ => ⟨S_, .f32⟩
  | .hbm, ⟨51, _⟩ => ⟨S_, .f32⟩
  | .hbm, ⟨52, _⟩ => ⟨S8, .f32⟩
  | .hbm, ⟨53, _⟩ => ⟨S8, .f32⟩
  | .local _ .vmem, ⟨0, _⟩ => ⟨S1024x6400, .f32⟩
  | .local _ .vmem, ⟨1, _⟩ => ⟨S1024x6400, .f32⟩
  | .local _ .vmem, ⟨2, _⟩ => ⟨S1024x1, .i32⟩
  | .local _ .vmem, ⟨3, _⟩ => ⟨S1024x1, .i32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | _, _ => ⟨S4x2048x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_c_3 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_c_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_6 : Ref sig .tc := ⟨.hbm, 36, rfl⟩
abbrev main_v22 : Ref sig .tc := ⟨.hbm, 37, rfl⟩
abbrev main_v23 : Ref sig .tc := ⟨.hbm, 38, rfl⟩
abbrev main_c_7 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_8 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_call1_v0 : Ref sig .tc := ⟨.hbm, 51, rfl⟩
abbrev main_call1_v1 : Ref sig .tc := ⟨.hbm, 52, rfl⟩
abbrev main_v32 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 5], ![false, false]⟩

def k0_cond2 (i : grid0.Coords) : BitVec 1 :=
  let arg1 : BitVec 32 := BitVec.ofNat 32 (i 1).val
  let c4_i32 : BitVec 32 := 4#32
  let v43 : BitVec 1 := Scalar.cmpi .eq arg1 c4_i32
  let v44 : BitVec 32 := Scalar.extui v43
  let c0_i32_21 : BitVec 32 := 0#32
  let v45 : BitVec 1 := Scalar.cmpi .ne v44 c0_i32_21
  v45

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x6400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S4x2048x32000_S8192x32000 : S4x2048x32000.ShapeCasts S8192x32000
  shapeCasts_S4x2048_S8192x1 : S4x2048.ShapeCasts S8192x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x6400_S1024x6400_0_0 : ∀ a, (![0, 0] : Fin 2 → Nat) a + S1024x6400.size a ≤ S1024x6400.size a
  h_S1024x6400 : 0 < S1024x6400.numel
  shapeCasts_S1024x6400_S1024x6400 : S1024x6400.ShapeCasts S1024x6400
  reduces_S1024x6400_S1024 : S1024x6400.Reduces [1] S1024
  shapeCasts_S1024_S1024x1 : S1024.ShapeCasts S1024x1
  broadcasts_S1024x1_S1024x6400 : S1024x1.Broadcasts S1024x6400
  iota_S1024x6400_d1_w32 : S1024x6400.Iotas .tc 32 [1]
  shapeCasts_S8192x1_S8192 : S8192x1.ShapeCasts S8192
  shapeCasts_S8192_S4x2048 : S8192.ShapeCasts S4x2048
  reducesTo_S4x2048_S_d0_1 : S4x2048.ReducesTo [0, 1] S_
  h_S_ : 0 < S_.numel
  reducesTo_S4x2048_S4_d1 : S4x2048.ReducesTo [1] S4
  bcast_S_S8 : S_.BroadcastsInDim S8 (![] : Fin 0 → Fin S8.rank)
  bcast_S4_S4x1_0 : S4.BroadcastsInDim S4x1 (![0] : Fin 1 → Fin S4x1.rank)
  bcast_S_S4 : S_.BroadcastsInDim S4 (![] : Fin 0 → Fin S4.rank)
  scatter_S8_S4x1_S4_n_0_0_1_wf : ScatterDims.WF S8 S4x1 S4 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x6400.size a ≤ S8192x32000.size a
  hwx0_0 : ∀ i : grid0.Coords, EltTy.bits .f32 = 32 ∨ (Rect.block (s := S8192x32000) S1024x6400.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .i32 = 32 ∨ (Rect.block (s := S8192x1) S1024x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)

variable [Facts₀]

def scatter_S8_S4x1_S4_n_0_0_1 : ScatterDims S8 S4x1 S4 where
  updateWindowDims := []
  insertedWindowDims := [0]
  scatterDimsToOperandDims := [0]
  indexVectorDim := 1
  wf := scatter_S8_S4x1_S4_n_0_0_1_wf

abbrev win0_0 : Pipeline.Window sig grid0 :=
  Pipeline.Window.ofSpec (Memref.whole main_v0) S1024x6400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x2048x32000 : Shape := ⟨3, ![4, 2048, 32000]⟩
abbrev S4x2048 : Shape := ⟨2, ![4, 2048]⟩
abbrev S4 : Shape := ⟨1, ![4]⟩
abbrev S_ : Shape := ⟨0, ![]⟩
abbrev S4x2048x1 : Shape := ⟨3, ![4, 2048, 1]⟩
abbrev S4x2048x1x1 : Shape := ⟨4, ![4, 2048, 1, 1]⟩
abbrev S1 : Shape := ⟨1, ![1]⟩
abbrev S1x1x1x1 : Shape := ⟨4, ![1, 1, 1, 1]⟩
abbrev S8 : Shape := ⟨1, ![8]⟩
abbrev S4x1 : Shape := ⟨2, ![4, 1]⟩

abbrev nBuf : Space → Nat
  | .hbm => 89
  | .vmem => 0
  | .smem => 0
  | _ => 0

abbrev bufTy : (tb : Table) → Fin (tcTables nBuf tb) → BufTy
  | .hbm, ⟨0, _⟩ => ⟨S4x2048x32000, .f32⟩
  | .hbm, ⟨1, _⟩ => ⟨S4x2048, .i32⟩
  | .hbm, ⟨2, _⟩ => ⟨S4x2048, .i1⟩
  | .hbm, ⟨3, _⟩ => ⟨S4, .i32⟩
  | .hbm, ⟨4, _⟩ => ⟨S_, .f32⟩
  | .hbm, ⟨5, _⟩ => ⟨S4x2048, .f32⟩
  | .hbm, ⟨6, _⟩ => ⟨S_, .f32⟩
  | .hbm, ⟨7, _⟩ => ⟨S4x2048, .f32⟩
  | .hbm, ⟨8, _⟩ => ⟨S4x2048, .f32⟩
  | .hbm, ⟨9, _⟩ => ⟨S4x2048x1, .f32⟩
  | .hbm, ⟨10, _⟩ => ⟨S4x2048x32000, .f32⟩
  | .hbm, ⟨11, _⟩ => ⟨S4x2048x32000, .f32⟩
  | .hbm, ⟨12, _⟩ => ⟨S4x2048x32000, .f32⟩
  | .hbm, ⟨13, _⟩ => ⟨S_, .f32⟩
  | .hbm, ⟨14, _⟩ => ⟨S4x2048, .f32⟩
  | .hbm, ⟨15, _⟩ => ⟨S4x2048x1, .f32⟩
  | .hbm, ⟨16, _⟩ => ⟨S4x2048x1, .f32⟩
  | .hbm, ⟨17, _⟩ => ⟨S4x2048x32000, .f32⟩
  | .hbm, ⟨18, _⟩ => ⟨S4x2048x32000, .f32⟩
  | .hbm, ⟨19, _⟩ => ⟨S4x2048x1, .i32⟩
  | .hbm, ⟨20, _⟩ => ⟨S_, .i32⟩
  | .hbm, ⟨21, _⟩ => ⟨S4x2048x1, .i32⟩
  | .hbm, ⟨22, _⟩ => ⟨S4x2048x1, .i1⟩
  | .hbm, ⟨23, _⟩ => ⟨S_, .i32⟩
  | .hbm, ⟨24, _⟩ => ⟨S4x2048x1, .i32⟩
  | .hbm, ⟨25, _⟩ => ⟨S4x2048x1, .i32⟩
  | .hbm, ⟨26, _⟩ => ⟨S4x2048x1, .i32⟩
  | .hbm, ⟨27, _⟩ => ⟨S4x2048x1x1, .i32⟩
  | .hbm, ⟨28, _⟩ => ⟨S1, .i32⟩
  | .hbm, ⟨29, _⟩ => ⟨S_, .i32⟩
  | .hbm, ⟨30, _⟩ => ⟨S4x2048x1x1, .i32⟩
  | .hbm, ⟨31, _⟩ => ⟨S4x2048x1x1, .i1⟩
  | .hbm, ⟨32, _⟩ => ⟨S1x1x1x1, .i32⟩
  | .hbm, ⟨33, _⟩ => ⟨S4x2048x1x1, .i32⟩
  | .hbm, ⟨34, _⟩ => ⟨S4x2048x1x1, .i1⟩
  | .hbm, ⟨35, _⟩ => ⟨S4x2048x1x1, .i1⟩
  | .hbm, ⟨36, _⟩ => ⟨S_, .i1⟩
  | .hbm, ⟨37, _⟩ => ⟨S4x2048x1, .i1⟩
  | .hbm, ⟨38, _⟩ => ⟨S4x2048x1, .f32⟩
  | .hbm, ⟨39, _⟩ => ⟨S_, .f32⟩
  | .hbm, ⟨40, _⟩ => ⟨S4x2048x1, .f32⟩
  | .hbm, ⟨41, _⟩ => ⟨S4x2048x1, .f32⟩
  | .hbm, ⟨42, _⟩ => ⟨S4x2048, .f32⟩
  | .hbm, ⟨43, _⟩ => ⟨S4x2048, .f32⟩
  | .hbm, ⟨44, _⟩ => ⟨S4x2048, .f32⟩
  | .hbm, ⟨45, _⟩ => ⟨S4x2048, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S4, .f32⟩
  | .hbm, ⟨53, _⟩ => ⟨S_, .f32⟩
  | .hbm, ⟨54, _⟩ => ⟨S8, .f32⟩
  | .hbm, ⟨55, _⟩ => ⟨S4x1, .i32⟩
  | .hbm, ⟨56, _⟩ => ⟨S8, .f32⟩
  | .hbm, ⟨57, _⟩ => ⟨S_, .i32⟩
  | .hbm, ⟨58, _⟩ => ⟨S8, .i32⟩
  | .hbm, ⟨59, _⟩ => ⟨S_, .i32⟩
  | .hbm, ⟨60, _⟩ => ⟨S_, .i32⟩
  | .hbm, ⟨61, _⟩ => ⟨S4, .i32⟩
  | .hbm, ⟨62, _⟩ => ⟨S4, .i32⟩
  | .hbm, ⟨63, _⟩ => ⟨S_, .i32⟩
  | .hbm, ⟨64, _⟩ => ⟨S4, .i32⟩
  | .hbm, ⟨65, _⟩ => ⟨S4, .i1⟩
  | .hbm, ⟨66, _⟩ => ⟨S_, .i32⟩
  | .hbm, ⟨67, _⟩ => ⟨S4, .i32⟩
  | .hbm, ⟨68, _⟩ => ⟨S4, .i32⟩
  | .hbm, ⟨69, _⟩ => ⟨S4, .i32⟩
  | .hbm, ⟨70, _⟩ => ⟨S4x1, .i32⟩
  | .hbm, ⟨71, _⟩ => ⟨S_, .i32⟩
  | .hbm, ⟨72, _⟩ => ⟨S4, .i32⟩
  | .hbm, ⟨73, _⟩ => ⟨S8, .i32⟩
  | .hbm, ⟨74, _⟩ => ⟨S_, .i32⟩
  | .hbm, ⟨75, _⟩ => ⟨S8, .i32⟩
  | .hbm, ⟨76, _⟩ => ⟨S8, .i32⟩
  | .hbm, ⟨77, _⟩ => ⟨S8, .f32⟩
  | .hbm, ⟨78, _⟩ => ⟨S_, .f32⟩
  | .hbm, ⟨79, _⟩ => ⟨S8, .f32⟩
  | .hbm, ⟨80, _⟩ => ⟨S8, .i1⟩
  | .hbm, ⟨81, _⟩ => ⟨S_, .f32⟩
  | .hbm, ⟨82, _⟩ => ⟨S8, .f32⟩
  | .hbm, ⟨83, _⟩ => ⟨S8, .f32⟩
  | .hbm, ⟨84, _⟩ => ⟨S8, .f32⟩
  | .hbm, ⟨85, _⟩ => ⟨S_, .f32⟩
  | .hbm, ⟨86, _⟩ => ⟨S_, .f32⟩
  | .hbm, ⟨87, _⟩ => ⟨S8, .f32⟩
  | .hbm, ⟨88, _⟩ => ⟨S8, .f32⟩
  | _, _ => ⟨S4x2048x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v0 : Ref sig .tc := ⟨.hbm, 18, rfl⟩
abbrev main_v1 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_cst : Ref sig .tc := ⟨.hbm, 39, rfl⟩
abbrev main_call1_v14 : Ref sig .tc := ⟨.hbm, 40, rfl⟩
abbrev main_v2 : Ref sig .tc := ⟨.hbm, 41, rfl⟩
abbrev main_v3 : Ref sig .tc := ⟨.hbm, 42, rfl⟩
abbrev main_v4 : Ref sig .tc := ⟨.hbm, 43, rfl⟩
abbrev main_v5 : Ref sig .tc := ⟨.hbm, 44, rfl⟩
abbrev main_v6 : Ref sig .tc := ⟨.hbm, 45, rfl⟩
abbrev main_cst : Ref sig .tc := ⟨.hbm, 46, rfl⟩
abbrev main_v7 : Ref sig .tc := ⟨.hbm, 47, rfl⟩
abbrev main_cst_0 : Ref sig .tc := ⟨.hbm, 48, rfl⟩
abbrev main_v8 : Ref sig .tc := ⟨.hbm, 49, rfl⟩
abbrev main_v9 : Ref sig .tc := ⟨.hbm, 50, rfl⟩
abbrev main_cst_1 : Ref sig .tc := ⟨.hbm, 51, rfl⟩
abbrev main_v10 : Ref sig .tc := ⟨.hbm, 52, rfl⟩
abbrev main_cst_2 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_c : Ref sig .tc := ⟨.hbm, 57, rfl⟩
abbrev main_v14 : Ref sig .tc := ⟨.hbm, 58, rfl⟩
abbrev main_c_3 : Ref sig .tc := ⟨.hbm, 59, rfl⟩
abbrev main_call2_v0 : Ref sig .tc := ⟨.hbm, 60, rfl⟩
abbrev main_call2_v1 : Ref sig .tc := ⟨.hbm, 61, rfl⟩
abbrev main_v15 : Ref sig .tc := ⟨.hbm, 62, rfl⟩
abbrev main_c_4 : Ref sig .tc := ⟨.hbm, 63, rfl⟩
abbrev main_v16 : Ref sig .tc := ⟨.hbm, 64, rfl⟩
abbrev main_v17 : Ref sig .tc := ⟨.hbm, 65, rfl⟩
abbrev main_c_5 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_c_6 : Ref sig .tc := ⟨.hbm, 71, rfl⟩
abbrev main_v22 : Ref sig .tc := ⟨.hbm, 72, rfl⟩
abbrev main_v23 : Ref sig .tc := ⟨.hbm, 73, rfl⟩
abbrev main_c_7 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_cst_8 : Ref sig .tc := ⟨.hbm, 78, rfl⟩
abbrev main_v27 : Ref sig .tc := ⟨.hbm, 79, rfl⟩
abbrev main_v28 : Ref sig .tc := ⟨.hbm, 80, rfl⟩
abbrev main_cst_9 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_cst_10 : Ref sig .tc := ⟨.hbm, 85, rfl⟩
abbrev main_call3_v0 : Ref sig .tc := ⟨.hbm, 86, rfl⟩
abbrev main_call3_v1 : Ref sig .tc := ⟨.hbm, 87, rfl⟩
abbrev main_v32 : Ref sig .tc := ⟨.hbm, 88, rfl⟩

abbrev nD : Nat := 1
abbrev τ : Topo := Topo.v7x

variable {F : FTy → Type} [FloatOps F]

class Facts₀ : Prop where
  reducesTo_S4x2048x32000_S4x2048_d2 : S4x2048x32000.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x32000_0_1_2 : S4x2048x1.BroadcastsInDim S4x2048x32000 (![0, 1, 2] : Fin 3 → Fin S4x2048x32000.rank)
  bcast_S_S4x2048x1 : S_.BroadcastsInDim S4x2048x1 (![] : Fin 0 → Fin S4x2048x1.rank)
  shapeCasts_S4x2048x1_S4x2048x1x1 : S4x2048x1.ShapeCasts S4x2048x1x1
  bcast_S_S4x2048x1x1 : S_.BroadcastsInDim S4x2048x1x1 (![] : Fin 0 → Fin S4x2048x1x1.rank)
  bcast_S1_S1x1x1x1_3 : S1.BroadcastsInDim S1x1x1x1 (![3] : Fin 1 → Fin S1x1x1x1.rank)
  bcast_S1x1x1x1_S4x2048x1x1_0_1_2_3 : S1x1x1x1.BroadcastsInDim S4x2048x1x1 (![0, 1, 2, 3] : Fin 4 → Fin S4x2048x1x1.rank)
  reducesTo_S4x2048x1x1_S4x2048x1_d3 : S4x2048x1x1.ReducesTo [3] S4x2048x1
  shapeCasts_S4x2048x1_S4x2048 : S4x2048x1.ShapeCasts S4x2048
  reducesTo_S4x2048_S_d0_1 : S4x2048.ReducesTo [0, 1] S_
  reducesTo_S4x2048_S4_d1 : S4x2048.ReducesTo [1] S4
  bcast_S_S8 : S_.BroadcastsInDim S8 (![] : Fin 0 → Fin S8.rank)
  bcast_S4_S4x1_0 : S4.BroadcastsInDim S4x1 (![0] : Fin 1 → Fin S4x1.rank)
  bcast_S_S4 : S_.BroadcastsInDim S4 (![] : Fin 0 → Fin S4.rank)
  gather_S4x2048x32000_S4x2048x1x1_S4x2048x1_n_2_01_01_2_3_111_wf : GatherDims.WF S4x2048x32000 S4x2048x1x1 S4x2048x1 [] [2] [0, 1] [2] [0, 1] 3 ![1, 1, 1]
  scatter_S8_S4x1_S4_n_0_0_1_wf : ScatterDims.WF S8 S4x1 S4 [] [0] [0] 1

variable [Facts₀]

def gather_S4x2048x32000_S4x2048x1x1_S4x2048x1_n_2_01_01_2_3_111 : GatherDims S4x2048x32000 S4x2048x1x1 S4x2048x1 where
  offsetDims := []
  collapsedSliceDims := [2]
  operandBatchingDims := [0, 1]
  startIndicesBatchingDims := [0, 1]
  startIndexMap := [2]
  indexVectorDim := 3
  sliceSizes := ![1, 1, 1]
  wf := gather_S4x2048x32000_S4x2048x1x1_S4x2048x1_n_2_01_01_2_3_111_wf
def scatter_S8_S4x1_S4_n_0_0_1 : ScatterDims S8 S4x1 S4 where
  updateWindowDims := []
  insertedWindowDims := [0]
  scatterDimsToOperandDims := [0]
  indexVectorDim := 1
  wf := scatter_S8_S4x1_S4_n_0_0_1_wf

class Facts : Prop extends Facts₀ where

variable [Facts]
-- ==== Proof.PreDecode.lean ====
/-
  Reading the precondition. The printed predicate is the conjunction of three tests, each an "and" over a whole array:
  |x| < +∞ at every logit, label ≥ 0 and label < 32000 at every label (the labels compared as signed words). When it
  is 1, every logit is a real number (an extended real whose absolute value is below +∞ is neither infinity), and every
  label, a signed word in [0, 32000), is below 32000 as a natural number.
-/
import proofs.«419041_j51728586113630_3_alg».proof.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreDecode

open Idealize.ShloMosaic

/-- A shape of rank 0 has one index. -/
instance : Subsingleton Cert.Pre_finite_inputs.S_.Idx := ⟨fun a b => funext fun d => d.elim0⟩

/-- The f32 pattern with exponent all ones and fraction zero is +∞. -/
theorem inf_bits : Ideal.ofBits .f32 0x7F800000#32 = ⊤ := by simp [Ideal.ofBits, Ideal.ieee]

/-- An extended real with max x (-x) < +∞ is a real number: +∞ fails the test itself, -∞ fails it through its negation. -/
theorem real_of_abs_lt (x : EReal)
    (h : Ideal.cmp .olt (max x (-x)) (Ideal.ofBits .f32 0x7F800000#32) = 1#1) : ∃ r : ℝ, x = (r : EReal) := by
  rw [inf_bits] at h
  have h' : BitVec.ofBool (decide (max x (-x) < ⊤)) = 1#1 := h
  rw [StableHlo.Predicate.ofBool_eq_one_iff, decide_eq_true_eq, max_lt_iff] at h'
  induction x using EReal.rec with
  | bot => exact absurd h'.2 (by simp)
  | coe r => exact ⟨r, rfl⟩
  | top => exact absurd h'.1 (by simp)

/-- A word that is ≥ 0 signed has its top bit clear: its value is below 2³¹. -/
theorem toNat_lt_of_sge_zero (w : BitVec 32) (h0 : IntOp.cmpi .sge w 0#32 = 1#1) : w.toNat < 2 ^ 31 := by
  have h : BitVec.ofBool ((0#32 : BitVec 32).sle w) = 1#1 := h0
  rw [StableHlo.Predicate.ofBool_eq_one_iff] at h
  have hle : (0#32 : BitVec 32).toInt ≤ w.toInt := by simpa [BitVec.sle] using h
  have hz : (0#32 : BitVec 32).toInt = 0 := by decide
  rw [hz, BitVec.toInt_eq_toNat_cond] at hle
  have hw := w.isLt
  split at hle <;> omega

/-- A signed word in [0, n), n below 2³¹, is below n as a natural number. -/
theorem toNat_lt_of_signed_range (w : BitVec 32) (n : ℕ) (hn : n < 2 ^ 31) (h0 : IntOp.cmpi .sge w 0#32 = 1#1)
    (h1 : IntOp.cmpi .slt w (BitVec.ofNat 32 n) = 1#1) : w.toNat < n := by
  have hw := toNat_lt_of_sge_zero w h0
  have hb : (BitVec.ofNat 32 n).toNat = n := by rw [BitVec.toNat_ofNat]; exact Nat.mod_eq_of_lt (by omega)
  have := (StableHlo.Predicate.slt_iff_toNat hw (by rw [hb]; exact hn)).1 h1
  rwa [hb] at this

/-- THE PRECONDITION READ: every logit is a real number and every label is a column number. -/
theorem of_pre [Cert.Pre_finite_inputs.Facts]
    (a0 : FVec Ideal Cert.Pre_finite_inputs.S4x2048x32000 .f32) (a1 : IVec Cert.Pre_finite_inputs.S4x2048 32)
    (a2 : IVec Cert.Pre_finite_inputs.S4x2048 1) (a3 : IVec Cert.Pre_finite_inputs.S4 32)
    (h : Cert.Pre_finite_inputs.fn (F := Ideal) a0 a1 a2 a3 = fun _ => 1#1) :
    (∀ i, ∃ r : ℝ, a0 i = (r : EReal)) ∧ (∀ i, (a1 i).toNat < 32000) := by
  have e := congrFun h ValueIdx.ix0
  dsimp only [Cert.Pre_finite_inputs.fn, andi] at e
  rw [IntOp.andi_eq_one, IntOp.andi_eq_one] at e
  obtain ⟨⟨e0, e1⟩, e2⟩ := e
  refine ⟨fun i => ?_, fun i => ?_⟩
  · have p := Host.reduce_andi_all _ _ _ _ _ e0 i
    exact real_of_abs_lt (a0 i) p
  · have p1 := Host.reduce_andi_all _ _ _ _ _ e1 i
    have p2 := Host.reduce_andi_all _ _ _ _ _ e2 i
    exact toNat_lt_of_signed_range (a1 i) 32000 (by norm_num) p1 p2

end Cert.PreDecode

end
-- ==== Proof.LseReal.lean ====
/-
  Log-sum-exp over the reals, computed tile by tile.

  For real numbers x₀, x₁, … the quantity  a + log (∑ⱼ exp (xⱼ - a))  does not depend on the shift a: it is
  log (∑ⱼ exp xⱼ).  A running sum kept relative to a running shift is moved to a new shift by one factor
  exp (a - b), and grows by the next tile's terms; a sum that picks the one column equal to a label grows the
  same way and ends at that column's entry.  So the loss of a row, log-sum-exp minus the entry at the label, is
  reached both by the running form (any shifts, any tiling) and by the form that subtracts one shift first.
-/
import Mathlib.Analysis.SpecialFunctions.Log.Basic
import Mathlib.Algebra.BigOperators.Intervals
import Mathlib.Algebra.BigOperators.Fin
import Mathlib.Algebra.Order.BigOperators.Ring.Finset

open scoped BigOperators

namespace Cert.LseReal

/-- The loss of a row of `N` real entries at the label `L`: log-sum-exp of the row minus the entry at the label. -/
noncomputable def loss (x : ℕ → ℝ) (L N : ℕ) : ℝ := Real.log (∑ j ∈ Finset.range N, Real.exp (x j)) - x L

section Shift

variable {ι : Type*}

/-- A sum of exponentials relative to the shift `a`, times exp (a - b), is the sum relative to the shift `b`. -/
theorem rescale (s : Finset ι) (x : ι → ℝ) (a b : ℝ) :
    Real.exp (a - b) * ∑ j ∈ s, Real.exp (x j - a) = ∑ j ∈ s, Real.exp (x j - b) := by
  rw [Finset.mul_sum]
  refine Finset.sum_congr rfl fun j _ => ?_
  rw [← Real.exp_add]
  congr 1
  ring

/-- A non-empty sum of exponentials is positive. -/
theorem sum_exp_pos (s : Finset ι) (hs : s.Nonempty) (x : ι → ℝ) (a : ℝ) : 0 < ∑ j ∈ s, Real.exp (x j - a) :=
  Finset.sum_pos (fun j _ => Real.exp_pos _) hs

/-- Log-sum-exp does not depend on the shift. -/
theorem lse_shift (s : Finset ι) (hs : s.Nonempty) (x : ι → ℝ) (a : ℝ) :
    a + Real.log (∑ j ∈ s, Real.exp (x j - a)) = Real.log (∑ j ∈ s, Real.exp (x j)) := by
  have hpos := sum_exp_pos s hs x a
  have h : ∑ j ∈ s, Real.exp (x j) = Real.exp a * ∑ j ∈ s, Real.exp (x j - a) := by
    rw [Finset.mul_sum]
    refine Finset.sum_congr rfl fun j _ => ?_
    rw [← Real.exp_add]
    congr 1
    ring
  rw [h, Real.log_mul (Real.exp_pos a).ne' hpos.ne', Real.log_exp]

end Shift

/-- One tile more: the running sum over the first `N` columns at shift `a`, moved to shift `b`, plus the next `T`
    columns' terms at shift `b`, is the running sum over the first `N + T` columns at shift `b`. -/
theorem step_sum (x : ℕ → ℝ) (N T : ℕ) (a b : ℝ) :
    Real.exp (a - b) * ∑ j ∈ Finset.range N, Real.exp (x j - a) + ∑ k : Fin T, Real.exp (x (N + k.val) - b)
      = ∑ j ∈ Finset.range (N + T), Real.exp (x j - b) := by
  rw [rescale, Finset.sum_range_add (fun j => Real.exp (x j - b)) N T,
    Fin.sum_univ_eq_sum_range (fun k => Real.exp (x (N + k) - b)) T]

/-- The same for the sum that keeps only the column equal to the label. -/
theorem step_pick (x : ℕ → ℝ) (L N T : ℕ) :
    ∑ j ∈ Finset.range N, (if j = L then x j else 0) + ∑ k : Fin T, (if N + k.val = L then x (N + k.val) else 0)
      = ∑ j ∈ Finset.range (N + T), (if j = L then x j else 0) := by
  rw [Finset.sum_range_add (fun j => if j = L then x j else 0) N T,
    Fin.sum_univ_eq_sum_range (fun k => if N + k = L then x (N + k) else 0) T]

/-- Over all the columns the picking sum is the entry at the label. -/
theorem pick_total (x : ℕ → ℝ) (L N : ℕ) (h : L < N) : ∑ j ∈ Finset.range N, (if j = L then x j else 0) = x L := by
  rw [Finset.sum_ite_eq' (Finset.range N) L x, if_pos (Finset.mem_range.2 h)]

/-- The running form's result: shift plus log of the running sum, minus the picked entry, is the loss. -/
theorem running_eq_loss (x : ℕ → ℝ) (L N : ℕ) (hN : 0 < N) (hL : L < N) (a : ℝ) :
    a + Real.log (∑ j ∈ Finset.range N, Real.exp (x j - a)) - ∑ j ∈ Finset.range N, (if j = L then x j else 0)
      = loss x L N := by
  rw [lse_shift _ (Finset.nonempty_range_iff.2 hN.ne') x a, pick_total x L N hL]
  rfl

/-- The shifted form's result: minus (the shifted entry at the label minus log of the shifted sum) is the loss. -/
theorem shifted_eq_loss (x : ℕ → ℝ) (L N : ℕ) (hN : 0 < N) (a : ℝ) :
    -((x L - a) - Real.log (∑ j ∈ Finset.range N, Real.exp (x j - a))) = loss x L N := by
  have h := lse_shift _ (Finset.nonempty_range_iff.2 hN.ne') x a
  unfold loss
  linarith

end Cert.LseReal
-- ==== Proof.Spec.lean ====
/-
  What both programs compute, stated once over the argument arrays.

  The logits are an array x[b, s, k] of 4 × 2048 tokens by 32000 columns, the labels an array L[b, s] of words. Token
  (b, s) is row R = 2048 b + s of the flattened 8192 × 32000 matrix. Its loss is log (∑ₖ exp x[R, k]) - x[R, L[R]],
  a real number when every entry of the row is real and the label is a column. `RowState` is what a row's three
  running quantities hold after its first N columns: a real shift a, the sum of exp (xⱼ - a) over those columns, and
  the entry at the label if the label is among them (else 0).
-/
import Idealize.ShloMosaic.PureOps.Ideal
import Idealize.ShloMosaic.Lib.ValueIdx
import proofs.«419041_j51728586113630_3_alg».proof.Proof.LseReal

open scoped BigOperators

noncomputable section

namespace Cert.Spec

open Idealize.ShloMosaic Idealize.ShloMosaic.ValueIdx

/-- Row `R` of the flattened logits, as reals indexed by the column's number (0 outside the matrix). -/
def rowOf (a0 : (⟨3, ![4, 2048, 32000]⟩ : Shape).Idx → EReal) (R : ℕ) : ℕ → ℝ := fun k =>
  if h : R < 8192 ∧ k < 32000 then
    (a0 (ix3 ⟨R / 2048, by omega⟩ ⟨R % 2048, Nat.mod_lt _ (by decide)⟩ ⟨k, h.2⟩)).toReal
  else 0

/-- Row `R`'s label, as a natural number (0 outside the matrix). -/
def labelOf (a1 : (⟨2, ![4, 2048]⟩ : Shape).Idx → BitVec 32) (R : ℕ) : ℕ :=
  if h : R < 8192 then (a1 (ix2 ⟨R / 2048, by omega⟩ ⟨R % 2048, Nat.mod_lt _ (by decide)⟩)).toNat else 0

/-- The per-token loss: at token (b, s) the loss of row 2048 b + s at its label, over all 32000 columns. -/
def Loss (a0 : (⟨3, ![4, 2048, 32000]⟩ : Shape).Idx → EReal) (a1 : (⟨2, ![4, 2048]⟩ : Shape).Idx → BitVec 32) :
    (⟨2, ![4, 2048]⟩ : Shape).Idx → EReal := fun i =>
  ((Cert.LseReal.loss (rowOf a0 ((i 0).val * 2048 + (i 1).val)) (labelOf a1 ((i 0).val * 2048 + (i 1).val)) 32000 : ℝ) : EReal)

/-- Every logit is a real number. -/
def Finite (a0 : (⟨3, ![4, 2048, 32000]⟩ : Shape).Idx → EReal) : Prop := ∀ i, ∃ r : ℝ, a0 i = (r : EReal)

/-- Every label is a column of the matrix. -/
def InRange (a1 : (⟨2, ![4, 2048]⟩ : Shape).Idx → BitVec 32) : Prop := ∀ i, (a1 i).toNat < 32000

/-- A finite entry is its row's real entry. -/
theorem entry_eq (a0 : (⟨3, ![4, 2048, 32000]⟩ : Shape).Idx → EReal) (h0 : Finite a0) (b : Fin 4) (s : Fin 2048) (k : Fin 32000) :
    a0 (ix3 b s k) = ((rowOf a0 (b.val * 2048 + s.val) k.val : ℝ) : EReal) := by
  have hb := b.isLt
  have hs := s.isLt
  have hR : b.val * 2048 + s.val < 8192 := by omega
  obtain ⟨r, hr⟩ := h0 (ix3 b s k)
  unfold rowOf
  rw [dif_pos ⟨hR, k.isLt⟩]
  have e1 : (⟨(b.val * 2048 + s.val) / 2048, by omega⟩ : Fin 4) = b := Fin.ext (by show (b.val * 2048 + s.val) / 2048 = b.val; omega)
  have e2 : (⟨(b.val * 2048 + s.val) % 2048, Nat.mod_lt _ (by decide)⟩ : Fin 2048) = s :=
    Fin.ext (by show (b.val * 2048 + s.val) % 2048 = s.val; omega)
  rw [e1, e2, hr, EReal.toReal_coe]

/-- A label is its row's label. -/
theorem label_eq (a1 : (⟨2, ![4, 2048]⟩ : Shape).Idx → BitVec 32) (b : Fin 4) (s : Fin 2048) :
    (a1 (ix2 b s)).toNat = labelOf a1 (b.val * 2048 + s.val) := by
  have hb := b.isLt
  have hs := s.isLt
  have hR : b.val * 2048 + s.val < 8192 := by omega
  unfold labelOf
  rw [dif_pos hR]
  have e1 : (⟨(b.val * 2048 + s.val) / 2048, by omega⟩ : Fin 4) = b := Fin.ext (by show (b.val * 2048 + s.val) / 2048 = b.val; omega)
  have e2 : (⟨(b.val * 2048 + s.val) % 2048, Nat.mod_lt _ (by decide)⟩ : Fin 2048) = s :=
    Fin.ext (by show (b.val * 2048 + s.val) % 2048 = s.val; omega)
  rw [e1, e2]

/-- In-range labels give in-range row labels. -/
theorem labelOf_lt (a1 : (⟨2, ![4, 2048]⟩ : Shape).Idx → BitVec 32) (h1 : InRange a1) (R : ℕ) : labelOf a1 R < 32000 := by
  unfold labelOf
  split
  · exact h1 _
  · decide

/-- What a row's running shift `m`, running sum `l` and picked entry `p` hold after the row's first `N` columns. -/
def RowState (x : ℕ → ℝ) (L N : ℕ) (m l p : EReal) : Prop :=
  ∃ a : ℝ, m = (a : EReal)
    ∧ l = ((∑ j ∈ Finset.range N, Real.exp (x j - a) : ℝ) : EReal)
    ∧ p = ((∑ j ∈ Finset.range N, (if j = L then x j else 0) : ℝ) : EReal)

end Cert.Spec

end
-- ==== Proof.KernelPieces.lean ====
/-
  What one grid point leaves behind, in terms of the body's arithmetic.

  A grid point (row tile, column tile) runs the body once on the tile's block of logits x and block of labels, over
  three carried [1024, 1] vectors: the running shift m, the running sum l and the picked entry p. At the first column
  tile the three are first reset (to a finite stand-in for minus infinity, 0 and 0); at every tile they are updated:
      m' = max m (row maxima of x),   l' = exp (m - m') · l + ∑ₖ exp (x[·, k] - m'),   p' = p + ∑ₖ [column k is the label] · x[·, k];
  at the last column tile the output block is written: (m' + log l') - p'. Each lemma below says that what a case of the
  body leaves in one of these four buffers is that formula of the point's input blocks and of what the three vectors
  held before the point: the buffer's final contents are the last store's value, every load of a buffer reading what
  the latest store before it (or the previous point) left there.
-/
import proofs.«419041_j51728586113630_3_alg».proof.Proof.Gen.KernelIdeal.Frame
import Idealize.ShloMosaic.Lib.Pipeline.Value
import Idealize.ShloMosaic.Lib.Tactic

noncomputable section
open Idealize.ShloMosaic Idealize.ShloMosaic.TcCoe Idealize.SL.Sem
namespace Cert.KernelIdeal.Pieces
open Cert.KernelIdeal Cert.KernelIdeal.Gen
variable {F : FTy → Type} [FloatOps F]

/-- The zero offsets of a whole-buffer rectangle. -/
theorem hz : (![0, 0] : Fin 2 → Nat) = fun _ => 0 := funext fun a => by fin_cases a <;> rfl

/-- A middle column tile: the shift becomes the maximum of the old shift and the tile's row maxima. -/
theorem sB0 (c : Dev nD) (i : grid0.Coords) (a2 : Memref sig .tc .vmem S1024x6400 .f32) (h2 : a2.IsWhole) (a3 : Memref sig .tc .vmem S1024x1 .i32) (h3 : a3.IsWhole) (a4 : Memref sig .tc .vmem S1024x1 .f32) (h4 : a4.IsWhole) (a5 : Memref sig .tc .vmem S1024x1 .f32) (h5 : a5.IsWhole) (a6 : Memref sig .tc .vmem S1024x1 .f32) (h6 : a6.IsWhole) (a7 : Memref sig .tc .vmem S1024x1 .f32) (h7 : a7.IsWhole) (hc0 : ¬cond0_0 i) (hc1 : ¬cond0_1 i) (x0 : Vec F S1024x6400 .f32) (x1 : Vec F S1024x1 .i32) (s0 s1 s2 : Vec F S1024x1 .f32) :
    sout0_B_0 c i a2 h2 a3 h3 a4 h4 a5 h5 a6 h6 a7 h7 hc0 hc1 x0 x1 s0 s1 s2 = k0_pay9 x0 s0 := by
  unfold sout0_B_0
  rw [View.read_writes_eq_canon _ _ _ (scover0_B_0 c i a2 h2 a3 h3 a4 h4 a5 h5 a6 h6 a7 h7 hc0 hc1 x0 x1 s0 s1 s2)]
  unfold kernelRun0_B
  dsimp only
  sl_unfold_words
  rw [View.canon_unit_zero hz]
  simp only [View.readAt_eq_ld, h2.read_unread, h3.read_unread, h4.read_unread, h5.read_unread, h6.read_unread, h7.read_unread, View.ld_unit_zero (S := S1024x1) hz, View.ld_unit_zero (S := S1024x6400) hz]

/-- A middle column tile: the sum is rescaled from the old shift to the new one and grows by the tile's terms. -/
theorem sB1 (c : Dev nD) (i : grid0.Coords) (a2 : Memref sig .tc .vmem S1024x6400 .f32) (h2 : a2.IsWhole) (a3 : Memref sig .tc .vmem S1024x1 .i32) (h3 : a3.IsWhole) (a4 : Memref sig .tc .vmem S1024x1 .f32) (h4 : a4.IsWhole) (a5 : Memref sig .tc .vmem S1024x1 .f32) (h5 : a5.IsWhole) (a6 : Memref sig .tc .vmem S1024x1 .f32) (h6 : a6.IsWhole) (a7 : Memref sig .tc .vmem S1024x1 .f32) (h7 : a7.IsWhole) (hc0 : ¬cond0_0 i) (hc1 : ¬cond0_1 i) (x0 : Vec F S1024x6400 .f32) (x1 : Vec F S1024x1 .i32) (s0 s1 s2 : Vec F S1024x1 .f32) :
    sout0_B_1 c i a2 h2 a3 h3 a4 h4 a5 h5 a6 h6 a7 h7 hc0 hc1 x0 x1 s0 s1 s2 = k0_pay8 x0 s0 s0 s1 := by
  unfold sout0_B_1
  rw [View.read_writes_eq_canon _ _ _ (scover0_B_1 c i a2 h2 a3 h3 a4 h4 a5 h5 a6 h6 a7 h7 hc0 hc1 x0 x1 s0 s1 s2)]
  unfold kernelRun0_B
  dsimp only
  sl_unfold_words
  rw [View.canon_unit_zero hz]
  simp only [View.readAt_eq_ld, h2.read_unread, h3.read_unread, h4.read_unread, h5.read_unread, h6.read_unread, h7.read_unread, View.ld_unit_zero (S := S1024x1) hz, View.ld_unit_zero (S := S1024x6400) hz]

/-- A middle column tile: the picked entry grows by the tile's entries at the label's column, if it is in the tile. -/
theorem sB2 (c : Dev nD) (i : grid0.Coords) (a2 : Memref sig .tc .vmem S1024x6400 .f32) (h2 : a2.IsWhole) (a3 : Memref sig .tc .vmem S1024x1 .i32) (h3 : a3.IsWhole) (a4 : Memref sig .tc .vmem S1024x1 .f32) (h4 : a4.IsWhole) (a5 : Memref sig .tc .vmem S1024x1 .f32) (h5 : a5.IsWhole) (a6 : Memref sig .tc .vmem S1024x1 .f32) (h6 : a6.IsWhole) (a7 : Memref sig .tc .vmem S1024x1 .f32) (h7 : a7.IsWhole) (hc0 : ¬cond0_0 i) (hc1 : ¬cond0_1 i) (x0 : Vec F S1024x6400 .f32) (x1 : Vec F S1024x1 .i32) (s0 s1 s2 : Vec F S1024x1 .f32) :
    sout0_B_2 c i a2 h2 a3 h3 a4 h4 a5 h5 a6 h6 a7 h7 hc0 hc1 x0 x1 s0 s1 s2 = k0_pay1 (k0_pay6 x0) (k0_pay10 i x1) (k0_pay11 (F := F)) s2 := by
  unfold sout0_B_2
  rw [View.read_writes_eq_canon _ _ _ (scover0_B_2 c i a2 h2 a3 h3 a4 h4 a5 h5 a6 h6 a7 h7 hc0 hc1 x0 x1 s0 s1 s2)]
  unfold kernelRun0_B
  dsimp only
  sl_unfold_words
  rw [View.canon_unit_zero hz]
  simp only [View.readAt_eq_ld, h2.read_unread, h3.read_unread, h4.read_unread, h5.read_unread, h6.read_unread, h7.read_unread, View.ld_unit_zero (S := S1024x1) hz, View.ld_unit_zero (S := S1024x6400) hz]

/-- The last column tile updates the shift as a middle tile does. -/
theorem sC0 (c : Dev nD) (i : grid0.Coords) (a2 : Memref sig .tc .vmem S1024x6400 .f32) (h2 : a2.IsWhole) (a3 : Memref sig .tc .vmem S1024x1 .i32) (h3 : a3.IsWhole) (a4 : Memref sig .tc .vmem S1024x1 .f32) (h4 : a4.IsWhole) (a5 : Memref sig .tc .vmem S1024x1 .f32) (h5 : a5.IsWhole) (a6 : Memref sig .tc .vmem S1024x1 .f32) (h6 : a6.IsWhole) (a7 : Memref sig .tc .vmem S1024x1 .f32) (h7 : a7.IsWhole) (hc0 : ¬cond0_0 i) (hc1 : cond0_1 i) (x0 : Vec F S1024x6400 .f32) (x1 : Vec F S1024x1 .i32) (s0 s1 s2 : Vec F S1024x1 .f32) :
    sout0_C_0 c i a2 h2 a3 h3 a4 h4 a5 h5 a6 h6 a7 h7 hc0 hc1 x0 x1 s0 s1 s2 = k0_pay9 x0 s0 := by
  unfold sout0_C_0
  rw [View.read_writes_eq_canon _ _ _ (scover0_C_0 c i a2 h2 a3 h3 a4 h4 a5 h5 a6 h6 a7 h7 hc0 hc1 x0 x1 s0 s1 s2)]
  unfold kernelRun0_C
  dsimp only
  sl_unfold_words
  rw [View.canon_unit_zero hz]
  simp only [View.readAt_eq_ld, h2.read_unread, h3.read_unread, h4.read_unread, h5.read_unread, h6.read_unread, h7.read_unread, View.ld_unit_zero (S := S1024x1) hz, View.ld_unit_zero (S := S1024x6400) hz]

/-- The last column tile updates the sum as a middle tile does. -/
theorem sC1 (c : Dev nD) (i : grid0.Coords) (a2 : Memref sig .tc .vmem S1024x6400 .f32) (h2 : a2.IsWhole) (a3 : Memref sig .tc .vmem S1024x1 .i32) (h3 : a3.IsWhole) (a4 : Memref sig .tc .vmem S1024x1 .f32) (h4 : a4.IsWhole) (a5 : Memref sig .tc .vmem S1024x1 .f32) (h5 : a5.IsWhole) (a6 : Memref sig .tc .vmem S1024x1 .f32) (h6 : a6.IsWhole) (a7 : Memref sig .tc .vmem S1024x1 .f32) (h7 : a7.IsWhole) (hc0 : ¬cond0_0 i) (hc1 : cond0_1 i) (x0 : Vec F S1024x6400 .f32) (x1 : Vec F S1024x1 .i32) (s0 s1 s2 : Vec F S1024x1 .f32) :
    sout0_C_1 c i a2 h2 a3 h3 a4 h4 a5 h5 a6 h6 a7 h7 hc0 hc1 x0 x1 s0 s1 s2 = k0_pay8 x0 s0 s0 s1 := by
  unfold sout0_C_1
  rw [View.read_writes_eq_canon _ _ _ (scover0_C_1 c i a2 h2 a3 h3 a4 h4 a5 h5 a6 h6 a7 h7 hc0 hc1 x0 x1 s0 s1 s2)]
  unfold kernelRun0_C
  dsimp only
  sl_unfold_words
  rw [View.canon_unit_zero hz]
  simp only [View.readAt_eq_ld, h2.read_unread, h3.read_unread, h4.read_unread, h5.read_unread, h6.read_unread, h7.read_unread, View.ld_unit_zero (S := S1024x1) hz, View.ld_unit_zero (S := S1024x6400) hz]

/-- The last column tile updates the picked entry as a middle tile does. -/
theorem sC2 (c : Dev nD) (i : grid0.Coords) (a2 : Memref sig .tc .vmem S1024x6400 .f32) (h2 : a2.IsWhole) (a3 : Memref sig .tc .vmem S1024x1 .i32) (h3 : a3.IsWhole) (a4 : Memref sig .tc .vmem S1024x1 .f32) (h4 : a4.IsWhole) (a5 : Memref sig .tc .vmem S1024x1 .f32) (h5 : a5.IsWhole) (a6 : Memref sig .tc .vmem S1024x1 .f32) (h6 : a6.IsWhole) (a7 : Memref sig .tc .vmem S1024x1 .f32) (h7 : a7.IsWhole) (hc0 : ¬cond0_0 i) (hc1 : cond0_1 i) (x0 : Vec F S1024x6400 .f32) (x1 : Vec F S1024x1 .i32) (s0 s1 s2 : Vec F S1024x1 .f32) :
    sout0_C_2 c i a2 h2 a3 h3 a4 h4 a5 h5 a6 h6 a7 h7 hc0 hc1 x0 x1 s0 s1 s2 = k0_pay1 (k0_pay6 x0) (k0_pay10 i x1) (k0_pay11 (F := F)) s2 := by
  unfold sout0_C_2
  rw [View.read_writes_eq_canon _ _ _ (scover0_C_2 c i a2 h2 a3 h3 a4 h4 a5 h5 a6 h6 a7 h7 hc0 hc1 x0 x1 s0 s1 s2)]
  unfold kernelRun0_C
  dsimp only
  sl_unfold_words
  rw [View.canon_unit_zero hz]
  simp only [View.readAt_eq_ld, h2.read_unread, h3.read_unread, h4.read_unread, h5.read_unread, h6.read_unread, h7.read_unread, View.ld_unit_zero (S := S1024x1) hz, View.ld_unit_zero (S := S1024x6400) hz]

/-- The last column tile writes the output block from the three vectors as it has just updated them: shift plus log of the sum, minus the picked entry. -/
theorem oC2 (c : Dev nD) (i : grid0.Coords) (a2 : Memref sig .tc .vmem S1024x6400 .f32) (h2 : a2.IsWhole) (a3 : Memref sig .tc .vmem S1024x1 .i32) (h3 : a3.IsWhole) (a4 : Memref sig .tc .vmem S1024x1 .f32) (h4 : a4.IsWhole) (a5 : Memref sig .tc .vmem S1024x1 .f32) (h5 : a5.IsWhole) (a6 : Memref sig .tc .vmem S1024x1 .f32) (h6 : a6.IsWhole) (a7 : Memref sig .tc .vmem S1024x1 .f32) (h7 : a7.IsWhole) (hc0 : ¬cond0_0 i) (hc1 : cond0_1 i) (x0 : Vec F S1024x6400 .f32) (x1 : Vec F S1024x1 .i32) (s0 s1 s2 : Vec F S1024x1 .f32) :
    out0_C_2 c i a2 h2 a3 h3 a4 h4 a5 h5 a6 h6 a7 h7 hc0 hc1 x0 x1 s0 s1 s2 = k0_pay2 (k0_pay9 x0 s0) (k0_pay8 x0 s0 s0 s1) (k0_pay1 (k0_pay6 x0) (k0_pay10 i x1) (k0_pay11 (F := F)) s2) := by
  unfold out0_C_2
  rw [View.read_writes_eq_canon _ _ _ (cover0_C_2 c i a2 h2 a3 h3 a4 h4 a5 h5 a6 h6 a7 h7 hc0 hc1 x0 x1 s0 s1 s2)]
  unfold kernelRun0_C
  dsimp only
  sl_unfold_words
  rw [View.canon_unit_zero hz]
  simp only [View.readCov_unit_zero (S := S1024x1) _ hz, View.readAt_eq_ld, h2.read_unread, h3.read_unread, h4.read_unread, h5.read_unread, h6.read_unread, h7.read_unread, View.ld_unit_zero (S := S1024x1) hz, View.ld_unit_zero (S := S1024x6400) hz]

/-- The first column tile: the update of the shift starts from the reset value. -/
theorem sA0 (c : Dev nD) (i : grid0.Coords) (a2 : Memref sig .tc .vmem S1024x6400 .f32) (h2 : a2.IsWhole) (a3 : Memref sig .tc .vmem S1024x1 .i32) (h3 : a3.IsWhole) (a4 : Memref sig .tc .vmem S1024x1 .f32) (h4 : a4.IsWhole) (a5 : Memref sig .tc .vmem S1024x1 .f32) (h5 : a5.IsWhole) (a6 : Memref sig .tc .vmem S1024x1 .f32) (h6 : a6.IsWhole) (a7 : Memref sig .tc .vmem S1024x1 .f32) (h7 : a7.IsWhole) (hc0 : cond0_0 i) (hc1 : ¬cond0_1 i) (x0 : Vec F S1024x6400 .f32) (x1 : Vec F S1024x1 .i32) :
    sout0_A_0 c i a2 h2 a3 h3 a4 h4 a5 h5 a6 h6 a7 h7 hc0 hc1 x0 x1 = k0_pay9 x0 (k0_pay3 (F := F)) := by
  unfold sout0_A_0
  rw [View.read_writes_eq_canon _ _ _ (scover0_A_0 c i a2 h2 a3 h3 a4 h4 a5 h5 a6 h6 a7 h7 hc0 hc1 x0 x1)]
  unfold kernelRun0_A
  dsimp only
  sl_unfold_words
  rw [View.canon_cons_unit_zero (S := S1024x1) hz]
  simp only [View.readCov_unit_zero (S := S1024x1) _ hz, View.readAt_eq_ld, h2.read_unread, h3.read_unread, h4.read_unread, h5.read_unread, h6.read_unread, h7.read_unread, View.ld_unit_zero (S := S1024x1) hz, View.ld_unit_zero (S := S1024x6400) hz]

/-- The first column tile: the update of the sum starts from the reset values of the shift and of the sum. -/
theorem sA1 (c : Dev nD) (i : grid0.Coords) (a2 : Memref sig .tc .vmem S1024x6400 .f32) (h2 : a2.IsWhole) (a3 : Memref sig .tc .vmem S1024x1 .i32) (h3 : a3.IsWhole) (a4 : Memref sig .tc .vmem S1024x1 .f32) (h4 : a4.IsWhole) (a5 : Memref sig .tc .vmem S1024x1 .f32) (h5 : a5.IsWhole) (a6 : Memref sig .tc .vmem S1024x1 .f32) (h6 : a6.IsWhole) (a7 : Memref sig .tc .vmem S1024x1 .f32) (h7 : a7.IsWhole) (hc0 : cond0_0 i) (hc1 : ¬cond0_1 i) (x0 : Vec F S1024x6400 .f32) (x1 : Vec F S1024x1 .i32) :
    sout0_A_1 c i a2 h2 a3 h3 a4 h4 a5 h5 a6 h6 a7 h7 hc0 hc1 x0 x1 = k0_pay8 x0 (k0_pay3 (F := F)) (k0_pay3 (F := F)) (k0_pay4 (F := F)) := by
  unfold sout0_A_1
  rw [View.read_writes_eq_canon _ _ _ (scover0_A_1 c i a2 h2 a3 h3 a4 h4 a5 h5 a6 h6 a7 h7 hc0 hc1 x0 x1)]
  unfold kernelRun0_A
  dsimp only
  sl_unfold_words
  rw [View.canon_cons_unit_zero (S := S1024x1) hz]
  simp only [View.readCov_unit_zero (S := S1024x1) _ hz, View.readAt_eq_ld, h2.read_unread, h3.read_unread, h4.read_unread, h5.read_unread, h6.read_unread, h7.read_unread, View.ld_unit_zero (S := S1024x1) hz, View.ld_unit_zero (S := S1024x6400) hz]

/-- The first column tile: the update of the picked entry starts from the reset value. -/
theorem sA2 (c : Dev nD) (i : grid0.Coords) (a2 : Memref sig .tc .vmem S1024x6400 .f32) (h2 : a2.IsWhole) (a3 : Memref sig .tc .vmem S1024x1 .i32) (h3 : a3.IsWhole) (a4 : Memref sig .tc .vmem S1024x1 .f32) (h4 : a4.IsWhole) (a5 : Memref sig .tc .vmem S1024x1 .f32) (h5 : a5.IsWhole) (a6 : Memref sig .tc .vmem S1024x1 .f32) (h6 : a6.IsWhole) (a7 : Memref sig .tc .vmem S1024x1 .f32) (h7 : a7.IsWhole) (hc0 : cond0_0 i) (hc1 : ¬cond0_1 i) (x0 : Vec F S1024x6400 .f32) (x1 : Vec F S1024x1 .i32) :
    sout0_A_2 c i a2 h2 a3 h3 a4 h4 a5 h5 a6 h6 a7 h7 hc0 hc1 x0 x1 = k0_pay1 (k0_pay6 x0) (k0_pay10 i x1) (k0_pay11 (F := F)) (k0_pay5 (F := F)) := by
  unfold sout0_A_2
  rw [View.read_writes_eq_canon _ _ _ (scover0_A_2 c i a2 h2 a3 h3 a4 h4 a5 h5 a6 h6 a7 h7 hc0 hc1 x0 x1)]
  unfold kernelRun0_A
  dsimp only
  sl_unfold_words
  rw [View.canon_cons_unit_zero (S := S1024x1) hz]
  simp only [View.readCov_unit_zero (S := S1024x1) _ hz, View.readAt_eq_ld, h2.read_unread, h3.read_unread, h4.read_unread, h5.read_unread, h6.read_unread, h7.read_unread, View.ld_unit_zero (S := S1024x1) hz, View.ld_unit_zero (S := S1024x6400) hz]

end Cert.KernelIdeal.Pieces
end
-- ==== Proof.LibSums.lean ====
/-
  Sums regrouped.

  A sum over a range cut into equal blocks is the double sum over blocks and places inside a block; a sum over a range
  whose tail terms vanish is the sum over the head; a sum over the indices of a rank-1, rank-2 or rank-3 array is the
  iterated sum over the coordinates. All of it holds in any additive commutative monoid, so also for the extended reals,
  whose addition is commutative and associative even at the infinities. The last part is about the extended reals alone:
  negation passes through a sum of non-negative terms, the embedding of the reals passes through a sum, and a few facts
  on the sign and the finiteness of sums and squares.
-/
import Mathlib.Algebra.BigOperators.Fin
import Mathlib.Algebra.BigOperators.Group.Finset.Basic
import Mathlib.Algebra.Order.BigOperators.Group.Finset
import Mathlib.Logic.Equiv.Fin.Basic
import Mathlib.Data.EReal.Operations
import Idealize.ShloMosaic.PureOps.Ideal
import Idealize.ShloMosaic.Lib.ValueIdx

open scoped BigOperators

namespace Cert.LibSums

open Idealize.ShloMosaic

section Monoid

variable {M : Type*} [AddCommMonoid M]

/-! ## Blocks and tails -/

/-- `B` blocks of `R` consecutive places: the double sum over (block, place in the block) is the sum over all `B * R` places. -/
theorem sum_blocks (B R : ℕ) (f : ℕ → M) :
    ∑ t : Fin B, ∑ r : Fin R, f (t.val * R + r.val) = ∑ i : Fin (B * R), f i.val := by
  rw [← Equiv.sum_comp (finProdFinEquiv (m := B) (n := R)) (fun i => f i.val), Fintype.sum_prod_type]
  refine Finset.sum_congr rfl fun t _ => Finset.sum_congr rfl fun r _ => ?_
  show f (t.val * R + r.val) = f (r.val + R * t.val)
  rw [Nat.mul_comm, Nat.add_comm]

/-- Five blocks of 3000. -/
theorem sum_blocks_5_3000 (f : ℕ → M) :
    ∑ t : Fin 5, ∑ r : Fin 3000, f (t.val * 3000 + r.val) = ∑ i : Fin 15000, f i.val := sum_blocks 5 3000 f

/-- Twenty-five blocks of 4000. -/
theorem sum_blocks_25_4000 (f : ℕ → M) :
    ∑ t : Fin 25, ∑ r : Fin 4000, f (t.val * 4000 + r.val) = ∑ i : Fin 100000, f i.val := sum_blocks 25 4000 f

/-- A hundred and fifty-eight blocks of 64. -/
theorem sum_blocks_158_64 (f : ℕ → M) :
    ∑ t : Fin 158, ∑ r : Fin 64, f (t.val * 64 + r.val) = ∑ i : Fin 10112, f i.val := sum_blocks 158 64 f

/-- A sum over the first `N` naturals whose terms from `n` on vanish is the sum over the first `n`. -/
theorem sum_fin_le (n N : ℕ) (h : n ≤ N) (f : ℕ → M) (hf : ∀ i, n ≤ i → i < N → f i = 0) :
    ∑ i : Fin N, f i.val = ∑ i : Fin n, f i.val := by
  rw [Fin.sum_univ_eq_sum_range f N, Fin.sum_univ_eq_sum_range f n]
  refine (Finset.sum_subset (Finset.range_subset_range.2 h) fun i hi hni => ?_).symm
  exact hf i (Nat.le_of_not_lt fun hlt => hni (Finset.mem_range.2 hlt)) (Finset.mem_range.1 hi)

/-- Two indices at once: rows in `B` blocks of `R`, columns up to `C`, the function vanishing as soon as the row
    reaches `n` or the column reaches `m`: the triple sum is the double sum over `n` rows and `m` columns. -/
theorem sum_blocks_tail2 (B R C n m : ℕ) (hn : n ≤ B * R) (hm : m ≤ C) (f : ℕ → ℕ → M)
    (hf : ∀ r c, n ≤ r ∨ m ≤ c → f r c = 0) :
    ∑ t : Fin B, ∑ r : Fin R, ∑ c : Fin C, f (t.val * R + r.val) c.val = ∑ r : Fin n, ∑ c : Fin m, f r.val c.val := by
  rw [sum_blocks B R (fun i => ∑ c : Fin C, f i c.val)]
  rw [sum_fin_le n (B * R) hn (fun i => ∑ c : Fin C, f i c.val)
    (fun i hi _ => Finset.sum_eq_zero fun c _ => hf i c.val (Or.inl hi))]
  refine Finset.sum_congr rfl fun r _ => ?_
  exact sum_fin_le m C hm (f r.val) (fun c hc _ => hf r.val c (Or.inr hc))

/-- Rows in 158 blocks of 64 against 10112 columns, of which the first 10000 rows and columns count. -/
theorem sum_158_64_10112 (f : ℕ → ℕ → M) (hf : ∀ r c, 10000 ≤ r ∨ 10000 ≤ c → f r c = 0) :
    ∑ t : Fin 158, ∑ r : Fin 64, ∑ c : Fin 10112, f (t.val * 64 + r.val) c.val
      = ∑ r : Fin 10000, ∑ c : Fin 10000, f r.val c.val :=
  sum_blocks_tail2 158 64 10112 10000 10000 (by decide) (by decide) f hf

end Monoid

section Idx

variable {M : Type*} [AddCommMonoid M]

open Idealize.ShloMosaic.ValueIdx

/-! ## Sums over an array's indices, by coordinates (rank 2 is the library's `ValueIdx.sum_idx2`) -/

/-- A rank-1 index set is its one coordinate's range. -/
def idxEquiv1 {n : ℕ} : (⟨1, ![n]⟩ : Shape).Idx ≃ Fin n where
  toFun i := i 0
  invFun a := ix1 a
  left_inv i := (eq_ix1 i).symm
  right_inv _ := rfl

/-- A sum over the indices of a rank-1 array is the sum over its one coordinate. -/
theorem sum_idx1 {n : ℕ} (g : (⟨1, ![n]⟩ : Shape).Idx → M) : ∑ j, g j = ∑ p : Fin n, g (ix1 p) := by
  rw [← Equiv.sum_comp (idxEquiv1 (n := n)).symm g]
  rfl

/-- A rank-3 index set is the product of its three coordinate ranges. -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over the indices of a rank-3 array is the triple sum over the coordinates. -/
theorem sum_idx3 {n0 n1 n2 : ℕ} (g : (⟨3, ![n0, n1, n2]⟩ : Shape).Idx → M) :
    ∑ j, g j = ∑ p : Fin n0, ∑ q : Fin n1, ∑ r : Fin n2, g (ix3 p q r) := by
  rw [← Equiv.sum_comp (idxEquiv3 (n0 := n0) (n1 := n1) (n2 := n2)).symm g, Fintype.sum_prod_type]
  refine Finset.sum_congr rfl fun p _ => ?_
  rw [Fintype.sum_prod_type]
  rfl

/-- A sum over the indices of a rank-2 array is the double sum over the coordinates (the library's `sum_idx2`, restated
    with the index type written out). -/
theorem sum_idx2' {a b : ℕ} (g : (⟨2, ![a, b]⟩ : Shape).Idx → M) :
    ∑ j : (⟨2, ![a, b]⟩ : Shape).Idx, g j = ∑ p : Fin a, ∑ q : Fin b, g (ix2 p q) := sum_idx2 g

end Idx

/-! ## The extended reals -/

section EReal

variable {ι : Type*}

/-- The embedding of the reals passes through a finite sum. -/
theorem sum_coe (s : Finset ι) (f : ι → ℝ) : ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

/-- A sum none of whose terms is `⊥` is not `⊥`. -/
theorem sum_ne_bot (s : Finset ι) (a : ι → EReal) (h : ∀ i ∈ s, a i ≠ ⊥) : ∑ i ∈ s, a i ≠ ⊥ := by
  classical
  induction s using Finset.induction_on with
  | empty => simp
  | insert i s hi ih =>
    rw [Finset.sum_insert hi]
    exact EReal.add_ne_bot_iff.2 ⟨h i (Finset.mem_insert_self i s), ih fun j hj => h j (Finset.mem_insert_of_mem hj)⟩

/-- A sum none of whose terms is `⊤` is not `⊤` (whatever the other terms: `⊤ + ⊥ = ⊥`). -/
theorem sum_ne_top (s : Finset ι) (a : ι → EReal) (h : ∀ i ∈ s, a i ≠ ⊤) : ∑ i ∈ s, a i ≠ ⊤ := by
  classical
  induction s using Finset.induction_on with
  | empty => simp
  | insert i s hi ih =>
    rw [Finset.sum_insert hi]
    exact EReal.add_ne_top (h i (Finset.mem_insert_self i s)) (ih fun j hj => h j (Finset.mem_insert_of_mem hj))

/-- A sum of reals is not `⊥`. -/
theorem sum_coe_ne_bot (s : Finset ι) (f : ι → ℝ) : ∑ i ∈ s, ((f i : ℝ) : EReal) ≠ ⊥ :=
  sum_ne_bot s _ fun i _ => EReal.coe_ne_bot (f i)

/-- A sum of reals is not `⊤`. -/
theorem sum_coe_ne_top (s : Finset ι) (f : ι → ℝ) : ∑ i ∈ s, ((f i : ℝ) : EReal) ≠ ⊤ :=
  sum_ne_top s _ fun i _ => EReal.coe_ne_top (f i)

/-- A sum of non-negative terms is non-negative. -/
theorem sum_nonneg (s : Finset ι) (a : ι → EReal) (h : ∀ i ∈ s, 0 ≤ a i) : 0 ≤ ∑ i ∈ s, a i :=
  Finset.sum_nonneg h

/-- Each term of a sum of non-negative terms is at most the sum. -/
theorem le_sum_of_nonneg (s : Finset ι) (a : ι → EReal) (h : ∀ i ∈ s, 0 ≤ a i) {i : ι} (hi : i ∈ s) :
    a i ≤ ∑ j ∈ s, a j :=
  Finset.single_le_sum h hi

/-- A sum of non-negative terms one of which is positive is positive. -/
theorem sum_pos (s : Finset ι) (a : ι → EReal) (h : ∀ i ∈ s, 0 ≤ a i) {i : ι} (hi : i ∈ s) (hpos : 0 < a i) :
    0 < ∑ j ∈ s, a j :=
  lt_of_lt_of_le hpos (le_sum_of_nonneg s a h hi)

/-- If a sum of non-negative terms is below `⊤`, so is every term. -/
theorem lt_top_of_sum_lt_top (s : Finset ι) (a : ι → EReal) (h : ∀ i ∈ s, 0 ≤ a i) (hs : ∑ i ∈ s, a i < ⊤) :
    ∀ i ∈ s, a i < ⊤ :=
  fun _ hi => lt_of_le_of_lt (le_sum_of_nonneg s a h hi) hs

/-- Negation passes through a sum of non-negative terms: no partial sum is `⊥`, so no `⊤ + ⊥` is met. -/
theorem neg_sum_of_nonneg (s : Finset ι) (a : ι → EReal) (h : ∀ i ∈ s, 0 ≤ a i) :
    ∑ i ∈ s, -(a i) = -(∑ i ∈ s, a i) := by
  classical
  induction s using Finset.induction_on with
  | empty => simp
  | insert i s hi ih =>
    have hs : ∀ j ∈ s, 0 ≤ a j := fun j hj => h j (Finset.mem_insert_of_mem hj)
    have h1 : a i ≠ ⊥ := ne_of_gt (lt_of_lt_of_le EReal.bot_lt_zero (h i (Finset.mem_insert_self i s)))
    have h2 : ∑ j ∈ s, a j ≠ ⊥ := ne_of_gt (lt_of_lt_of_le EReal.bot_lt_zero (sum_nonneg s a hs))
    rw [Finset.sum_insert hi, Finset.sum_insert hi, ih hs, EReal.neg_add (Or.inl h1) (Or.inr h2), sub_eq_add_neg]

/-- A square is non-negative, also at the infinities (`⊥ * ⊥ = ⊤`). -/
theorem ereal_mul_self_nonneg (x : EReal) : 0 ≤ x * x := by
  induction x with
  | bot => rw [EReal.bot_mul_bot]; exact le_top
  | coe r => rw [← EReal.coe_mul]; exact EReal.coe_nonneg.2 (_root_.mul_self_nonneg r)
  | top => rw [EReal.top_mul_top]; exact le_top

/-- The square of a non-zero extended real is positive. -/
theorem ereal_mul_self_pos (x : EReal) (hx : x ≠ 0) : 0 < x * x := by
  induction x with
  | bot => rw [EReal.bot_mul_bot]; exact EReal.zero_lt_top
  | coe r =>
    rw [← EReal.coe_mul]
    exact EReal.coe_pos.2 (_root_.mul_self_pos.2 fun hr => hx (by rw [hr, EReal.coe_zero]))
  | top => rw [EReal.top_mul_top]; exact EReal.zero_lt_top

/-- A square below `⊤` is the square of a real. -/
theorem ereal_of_mul_self_lt_top (x : EReal) (h : x * x < ⊤) : x ≠ ⊥ ∧ x ≠ ⊤ := by
  refine ⟨fun hx => ?_, fun hx => ?_⟩
  · rw [hx, EReal.bot_mul_bot] at h; exact lt_irrefl _ h
  · rw [hx, EReal.top_mul_top] at h; exact lt_irrefl _ h

end EReal

end Cert.LibSums
-- ==== Proof.KernelPayload.lean ====
/-
  The loss kernel's arithmetic on one row of a tile.

  A row of 32000 logits is read in five tiles of 6400 columns, and three quantities are carried per row: a shift m, the
  sum l of exp (xⱼ - m) over the columns read so far, and the entry p at the label's column if that column has been read.
  A tile replaces m by the larger m' of m and the tile's row maximum, replaces l by exp (m - m') * l plus the sum of
  exp (xₖ - m') over the tile's columns, and adds to p the one entry of the tile whose column number in the whole row,
  the tile's number times 6400 plus the column inside the tile, is the label. After the last tile the row's result is
  m + log l - p.

  Below, each vector operation of those steps is first read at one row (a column vector's entry, a row's sum, a row's
  fold of max, the comparison of words), then the three steps are stated on real numbers: the starting values are a
  row state over no columns; a tile takes a row state over N columns to one over N + 6400; and the result computed from
  a row state over all the columns is the row's loss. The shift stays a real number because a fold of max from minus
  infinity over real entries is minus infinity or real, and the old shift is real; everything else is then arithmetic
  of embedded reals, which the lemmas on shifted sums of exponentials finish.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.StableHlo.Predicate
import proofs.«419041_j51728586113630_3_alg».proof.Proof.Spec
import proofs.«419041_j51728586113630_3_alg».proof.Proof.LibSums
import proofs.«419041_j51728586113630_3_alg».proof.Proof.Gen.KernelIdeal.Skeleton

open scoped BigOperators

noncomputable section

namespace Cert.KernelPayload

open Cert.KernelIdeal Cert.KernelIdeal.Gen Idealize.ShloMosaic Idealize.ShloMosaic.ValueIdx

/-! ## Reading the layout operations at a row -/

section Layout
variable {α : Type}

/-- A column vector made from a vector of 1024 entries holds entry `r` in row `r`. -/
theorem col_cast (v : S1024.Idx → α) (r : Fin 1024) :
    shapeCast S1024x1 v shapeCasts_S1024_S1024x1 (ix2 r 0) = v (ix1 r) := by
  refine shapeCast_apply v _ (ix2 r 0) (ix1 r) ?_
  rw [Shape.rowMajor_val_one, Shape.rowMajor_val_two]
  show r.val = r.val * 1 + 0
  omega

/-- A column vector repeated along the rows holds, everywhere in row `r`, the column's entry of row `r`. -/
theorem row_bcast (v : S1024x1.Idx → α) (r : Fin 1024) (k : Fin 6400) :
    broadcastTo S1024x6400 v broadcasts_S1024x1_S1024x6400 (ix2 r k) = v (ix2 r 0) := by
  refine broadcastTo_apply v _ (ix2 r k) (ix2 r 0) fun a => ?_
  match a with
  | ⟨0, _⟩ => rfl
  | ⟨1, _⟩ => rfl

/-- The index of the tile over row `r` with column `k` put in. -/
theorem lift_row (r : Fin 1024) (k : Fin 6400) :
    reduces_S1024x6400_S1024.lift (ix1 r) k = ix2 r k := by
  funext a
  apply Fin.ext
  match a with
  | ⟨0, _⟩ => rfl
  | ⟨1, _⟩ => rfl

end Layout

/-- The sum along the rows of a tile is, at row `r`, the sum of that row's 6400 entries. -/
theorem row_sum (src : FVec Ideal S1024x6400 .f32) (r : Fin 1024) :
    multiReduction (F := Ideal) .add [1] S1024 src 0x00000000#32 reduces_S1024x6400_S1024 (.inl rfl) rfl (ix1 r)
      = ∑ k : Fin 6400, src (ix2 r k) := by
  refine (Ideal.multiReduction_add_single src 0x00000000#32 reduces_S1024x6400_S1024 (.inl rfl) rfl (ix1 r)).trans ?_
  exact Finset.sum_congr rfl fun k _ => congrArg src (lift_row r k)

/-- The maximum along the rows of a tile is, at row `r`, the fold of `max` over that row's 6400 entries, begun at the
    value of the word `0xFF800000`. -/
theorem row_max (src : FVec Ideal S1024x6400 .f32) (r : Fin 1024) :
    multiReduction (F := Ideal) .maximumf [1] S1024 src 0xFF800000#32 reduces_S1024x6400_S1024 (.inl rfl) rfl (ix1 r)
      = (Finset.univ : Finset (Fin 6400)).fold max (Ideal.ofBits .f32 0xFF800000#32) (fun k => src (ix2 r k)) := by
  refine (Ideal.multiReduction_maximumf_single src 0xFF800000#32 reduces_S1024x6400_S1024 (.inl rfl) rfl (ix1 r)).trans ?_
  congr 1
  funext k
  exact congrArg src (lift_row r k)

/-! ## The constants -/

/-- The word `0xFF800000` is minus infinity. -/
theorem neg_inf_word : Ideal.ofBits .f32 0xFF800000#32 = ⊥ := by
  simp [Ideal.ofBits, Ideal.ieee]

/-- The word `0xFF333332` has an exponent field that is not all ones, so it is a real number. -/
theorem init_word_real : ∃ a : ℝ, Ideal.ofBits .f32 0xFF333332#32 = (a : EReal) := by
  show ∃ a : ℝ, Ideal.ieee 8 23 (0xFF333332#32 : BitVec 32) = (a : EReal)
  unfold Ideal.ieee
  dsimp only
  split_ifs with h1 h2
  all_goals first | exact ⟨_, rfl⟩ | exact absurd h1 (by decide)

/-! ## Folds of `max` over real entries -/

/-- A fold of `max` from minus infinity over real entries is minus infinity or a real number. -/
theorem fold_max_real {ι : Type*} (s : Finset ι) (f : ι → EReal) (hf : ∀ i ∈ s, ∃ a : ℝ, f i = (a : EReal)) :
    s.fold max ⊥ f = ⊥ ∨ ∃ b : ℝ, s.fold max ⊥ f = (b : EReal) := by
  classical
  induction s using Finset.induction_on with
  | empty => exact Or.inl (Finset.fold_empty)
  | insert i s hi ih =>
    obtain ⟨a, ha⟩ := hf i (Finset.mem_insert_self i s)
    rw [Finset.fold_insert hi, ha]
    rcases ih fun j hj => hf j (Finset.mem_insert_of_mem hj) with h | ⟨b, h⟩
    · rw [h]; exact Or.inr ⟨a, max_eq_left bot_le⟩
    · rw [h]; exact Or.inr ⟨max a b, (EReal.coe_strictMono.monotone.map_max).symm⟩

/-- The larger of a real number and such a fold is a real number. -/
theorem max_real (a : ℝ) (y : EReal) (hy : y = ⊥ ∨ ∃ b : ℝ, y = (b : EReal)) : ∃ c : ℝ, max (a : EReal) y = (c : EReal) := by
  rcases hy with h | ⟨b, h⟩
  · rw [h]; exact ⟨a, max_eq_left bot_le⟩
  · rw [h]; exact ⟨max a b, (EReal.coe_strictMono.monotone.map_max).symm⟩

/-! ## The payloads at a row -/

/-- The tile, shape-cast to itself, is the tile. -/
theorem pay6_eq (xb : Vec Ideal S1024x6400 .f32) : k0_pay6 xb = xb := shapeCast_self xb _

/-- The new running maximum of row `r`: the larger of the old one and the fold of `max` over the row's entries. -/
theorem pay7_at (xb : Vec Ideal S1024x6400 .f32) (m : Vec Ideal S1024x1 .f32) (r : Fin 1024) :
    k0_pay7 xb m (ix2 r 0)
      = max (m (ix2 r 0)) ((Finset.univ : Finset (Fin 6400)).fold max ⊥ (fun k => xb (ix2 r k))) := by
  unfold k0_pay7
  refine (maximumf_apply _ _ _).trans ?_
  rw [col_cast, row_max, neg_inf_word, pay6_eq]

/-- The stored running maximum is the new running maximum. -/
theorem pay9_eq (xb : Vec Ideal S1024x6400 .f32) (m : Vec Ideal S1024x1 .f32) : k0_pay9 xb m = k0_pay7 xb m :=
  shapeCast_self _ _

/-- The new running sum of row `r`: the old one rescaled to the new maximum, plus the row's exponentials. -/
theorem pay8_at (xb : Vec Ideal S1024x6400 .f32) (m m' l : Vec Ideal S1024x1 .f32) (r : Fin 1024) :
    k0_pay8 xb m m' l (ix2 r 0)
      = Ideal.exp (m' (ix2 r 0) - k0_pay7 xb m (ix2 r 0)) * l (ix2 r 0)
        + ∑ k : Fin 6400, Ideal.exp (xb (ix2 r k) - k0_pay7 xb m (ix2 r 0)) := by
  unfold k0_pay8
  rw [shapeCast_self]
  refine (addf_apply _ _ _).trans ?_
  refine congrArg₂ (· + ·) rfl ?_
  refine (col_cast _ r).trans ?_
  refine (row_sum _ r).trans ?_
  refine Finset.sum_congr rfl fun k _ => ?_
  show Ideal.exp (k0_pay6 xb (ix2 r k) - broadcastTo S1024x6400 (k0_pay7 xb m) broadcasts_S1024x1_S1024x6400 (ix2 r k)) = _
  rw [row_bcast, pay6_eq]

/-- The mask at row `r`, column `k`: whether the column's number in the whole row is the row's label. -/
theorem pay10_at (i : grid0.Coords) (lb : Vec Ideal S1024x1 .i32) (r : Fin 1024) (k : Fin 6400) :
    k0_pay10 (F := Ideal) i lb (ix2 r k)
      = IntOp.cmpi .eq (BitVec.ofNat 32 (i 1).val * 6400#32 + BitVec.ofNat 32 k.val) (lb (ix2 r 0)) := by
  unfold k0_pay10
  rw [shapeCast_self]
  show IntOp.cmpi .eq (IntOp.addi (Scalar.muli (BitVec.ofNat 32 (i 1).val) 6400#32)
      (iota .tc S1024x6400 32 [1] iota_S1024x6400_d1_w32 (ix2 r k)))
      (broadcastTo S1024x6400 lb broadcasts_S1024x1_S1024x6400 (ix2 r k)) = _
  rw [row_bcast, iota_single_apply]
  rfl

/-- The zero tile is zero everywhere. -/
theorem pay11_at (j : S1024x6400.Idx) : k0_pay11 (F := Ideal) j = 0 := Ideal.ofBits_zero_f32

/-- The new picked entry of row `r`: the old one plus the sum over the row of the entries the mask keeps. -/
theorem pay1_at (v4 : FVec Ideal S1024x6400 .f32) (c : IVec S1024x6400 1) (z : FVec Ideal S1024x6400 .f32)
    (p : Vec Ideal S1024x1 .f32) (r : Fin 1024) :
    k0_pay1 v4 c z p (ix2 r 0) = p (ix2 r 0) + ∑ k : Fin 6400, Scalar.select (c (ix2 r k)) (v4 (ix2 r k)) (z (ix2 r k)) := by
  unfold k0_pay1
  rw [shapeCast_self]
  refine (addf_apply _ _ _).trans ?_
  refine congrArg₂ (· + ·) rfl ?_
  refine (col_cast _ r).trans ?_
  exact row_sum _ r

/-- The result of row `r`: maximum plus logarithm of the sum, minus the picked entry. -/
theorem pay2_at (m l p : Vec Ideal S1024x1 .f32) (j : S1024x1.Idx) :
    k0_pay2 m l p j = m j + Ideal.log (l j) - p j := rfl

/-! ## Words: the column's number against the label -/

/-- For a tile number below 5 and a column below 6400 the word `v * 6400 + k` does not wrap, so it equals a word exactly
    when the number `v * 6400 + k` is that word's value. -/
theorem word_eq_iff (v : ℕ) (hv : v < 5) (k : Fin 6400) (w : BitVec 32) :
    BitVec.ofNat 32 v * 6400#32 + BitVec.ofNat 32 k.val = w ↔ v * 6400 + k.val = w.toNat := by
  have hk := k.isLt
  rw [← BitVec.toNat_inj]
  simp only [BitVec.toNat_add, BitVec.toNat_mul, BitVec.toNat_ofNat]
  omega

/-! ## The three facts about a row -/

/-- Before the first tile: a real shift, an empty sum of exponentials, nothing picked. -/
theorem init_state (x : ℕ → ℝ) (L : ℕ) (r : Fin 1024) :
    Cert.Spec.RowState x L 0 (k0_pay3 (F := Ideal) (ix2 r 0)) (k0_pay4 (F := Ideal) (ix2 r 0)) (k0_pay5 (F := Ideal) (ix2 r 0)) := by
  obtain ⟨a, ha⟩ := init_word_real
  refine ⟨a, ?_, ?_, ?_⟩
  · unfold k0_pay3
    rw [shapeCast_self]
    exact ha
  · unfold k0_pay4
    rw [shapeCast_self, Finset.range_zero, Finset.sum_empty, EReal.coe_zero]
    exact Ideal.ofBits_zero_f32
  · unfold k0_pay5
    rw [shapeCast_self, Finset.range_zero, Finset.sum_empty, EReal.coe_zero]
    exact Ideal.ofBits_zero_f32

/-- One tile more: from the state after the row's first `N` columns to the state after its first `N + 6400`. The new shift is
    the larger of the old shift and the tile's row maximum, a real number because the old shift and the entries are; the
    sum is rescaled to it and grows by the tile's exponentials; the picked entry grows by the entry at the label, if the
    label is a column of this tile. -/
theorem step_state (x : ℕ → ℝ) (L N : ℕ) (i : grid0.Coords) (hN : N = (i 1).val * 6400) (hL : L < 32000)
    (xb : Vec Ideal S1024x6400 .f32) (lb : Vec Ideal S1024x1 .i32) (m l p : Vec Ideal S1024x1 .f32) (r : Fin 1024)
    (hx : ∀ k : Fin 6400, xb (ix2 r k) = ((x (N + k.val) : ℝ) : EReal))
    (hl : (lb (ix2 r 0)).toNat = L)
    (hs : Cert.Spec.RowState x L N (m (ix2 r 0)) (l (ix2 r 0)) (p (ix2 r 0))) :
    Cert.Spec.RowState x L (N + 6400)
      (k0_pay9 xb m (ix2 r 0)) (k0_pay8 xb m m l (ix2 r 0))
      (k0_pay1 (k0_pay6 xb) (k0_pay10 i lb) (k0_pay11 (F := Ideal)) p (ix2 r 0)) := by
  obtain ⟨a, hm, hsum, hp⟩ := hs
  have h5 : (i 1).val < 5 := (i 1).isLt
  obtain ⟨b, hb⟩ : ∃ b : ℝ, k0_pay7 xb m (ix2 r 0) = (b : EReal) := by
    rw [pay7_at, hm]
    exact max_real a _ (fold_max_real _ _ fun k _ => ⟨_, hx k⟩)
  refine ⟨b, ?_, ?_, ?_⟩
  · rw [pay9_eq]
    exact hb
  · rw [pay8_at, hb, hm, hsum, ← EReal.coe_sub, Ideal.exp_coe, ← EReal.coe_mul]
    have hk : ∀ k : Fin 6400, Ideal.exp (xb (ix2 r k) - (b : EReal)) = ((Real.exp (x (N + k.val) - b) : ℝ) : EReal) := by
      intro k
      rw [hx k, ← EReal.coe_sub, Ideal.exp_coe]
    rw [Finset.sum_congr rfl fun k _ => hk k, Cert.LibSums.sum_coe, ← EReal.coe_add, Cert.LseReal.step_sum]
  · rw [pay1_at, hp, pay6_eq]
    have hk : ∀ k : Fin 6400,
        Scalar.select (k0_pay10 (F := Ideal) i lb (ix2 r k)) (xb (ix2 r k)) (k0_pay11 (F := Ideal) (ix2 r k))
          = (((if N + k.val = L then x (N + k.val) else 0) : ℝ) : EReal) := by
      intro k
      have hw := word_eq_iff (i 1).val h5 k (lb (ix2 r 0))
      rw [hl, ← hN] at hw
      rw [pay10_at, pay11_at, hx k]
      by_cases h : N + k.val = L
      · rw [if_pos h, StableHlo.Predicate.cmpi_eq_iff.2 (hw.2 h)]
        exact select_one _ _
      · rw [if_neg h, eq_zero_of_ne_one fun hc => h (hw.1 (StableHlo.Predicate.cmpi_eq_iff.1 hc))]
        exact (select_zero _ _).trans EReal.coe_zero.symm
    rw [Finset.sum_congr rfl fun k _ => hk k, Cert.LibSums.sum_coe, ← EReal.coe_add, Cert.LseReal.step_pick]

/-- After the last tile: shift plus logarithm of the sum, minus the picked entry, is the row's loss. -/
theorem out_value (x : ℕ → ℝ) (L N : ℕ) (hN : 0 < N) (hL : L < N) (m l p : Vec Ideal S1024x1 .f32) (r : Fin 1024)
    (hs : Cert.Spec.RowState x L N (m (ix2 r 0)) (l (ix2 r 0)) (p (ix2 r 0))) :
    k0_pay2 m l p (ix2 r 0) = ((Cert.LseReal.loss x L N : ℝ) : EReal) := by
  obtain ⟨a, hm, hsum, hp⟩ := hs
  have hpos := Cert.LseReal.sum_exp_pos (Finset.range N) (Finset.nonempty_range_iff.2 hN.ne') x a
  rw [pay2_at, hm, hsum, hp, Ideal.log_coe, if_neg (not_le.2 hpos), ← EReal.coe_add, ← EReal.coe_sub,
    Cert.LseReal.running_eq_loss x L N hN hL a]

end Cert.KernelPayload

end
-- ==== Proof.KernelBlocks.lean ====
/-
  What the kernel's two input blocks hold at a grid point.

  The region reads the logits through the flattened 8192 × 32000 matrix and the labels through the flattened 8192 × 1
  column: row R of either is token (R / 2048, R % 2048) of the argument arrays, since both are row-major reshapes. The
  grid has 8 × 5 points; point t = 5 ri + vi reads the 1024 × 6400 block of logits at block index (ri, vi) and the
  1024 × 1 block of labels at block index (ri, 0). So entry (r, k) of the logits' block at point t is entry
  (1024 (t / 5) + r, 6400 (t % 5) + k) of the matrix, and entry r of the labels' block is the label of row 1024 (t / 5) + r.
-/
import proofs.«419041_j51728586113630_3_alg».proof.Proof.Gen.KernelIdeal.Frame
import proofs.«419041_j51728586113630_3_alg».proof.Proof.Spec
import Idealize.ShloMosaic.Lib.Pipeline.Value
import Idealize.ShloMosaic.Lib.StableHlo.Run
import Idealize.ShloMosaic.Lib.Tactic

noncomputable section

namespace Cert.KernelIdeal.Blocks

open Cert.KernelIdeal Cert.KernelIdeal.Gen Idealize.ShloMosaic Idealize.ShloMosaic.TcCoe Idealize.ShloMosaic.ValueIdx Idealize.SL.Sem

/-! ## The two reshapes read at an index -/

/-- The flattened logits at (R, K) are the logits at token (R / 2048, R % 2048), column K: row R's entry K. -/
theorem reshape_logits (a0 : S4x2048x32000.Idx → EReal) (h0 : Cert.Spec.Finite a0) (hc : S4x2048x32000.ShapeCasts S8192x32000)
    (R : Fin 8192) (K : Fin 32000) :
    shapeCast S8192x32000 a0 hc (ix2 R K) = ((Cert.Spec.rowOf a0 R.val K.val : ℝ) : EReal) := by
  have hR := R.isLt
  have hdm : R.val / 2048 * 2048 + R.val % 2048 = R.val := by omega
  have h3 : (S4x2048x32000.rowMajor (ix3 (⟨R.val / 2048, by omega⟩ : Fin 4) (⟨R.val % 2048, Nat.mod_lt _ (by decide)⟩ : Fin 2048) K)).val
      = (R.val / 2048 * 2048 + R.val % 2048) * 32000 + K.val := Shape.rowMajor_val_three _
  have h2 : (S8192x32000.rowMajor (ix2 R K)).val = R.val * 32000 + K.val := Shape.rowMajor_val_two _
  rw [shapeCast_apply a0 hc (ix2 R K) _ (by rw [h3, h2, hdm])]
  refine (Cert.Spec.entry_eq a0 h0 _ _ _).trans ?_
  show ((Cert.Spec.rowOf a0 (R.val / 2048 * 2048 + R.val % 2048) K.val : ℝ) : EReal) = _
  rw [hdm]

/-- The flattened labels at (R, 0) are the label of token (R / 2048, R % 2048): row R's label. -/
theorem reshape_labels (a1 : S4x2048.Idx → BitVec 32) (hc : S4x2048.ShapeCasts S8192x1) (R : Fin 8192) :
    (shapeCast S8192x1 a1 hc (ix2 R (0 : Fin 1))).toNat = Cert.Spec.labelOf a1 R.val := by
  have hR := R.isLt
  have hdm : R.val / 2048 * 2048 + R.val % 2048 = R.val := by omega
  have h2 : (S4x2048.rowMajor (ix2 (⟨R.val / 2048, by omega⟩ : Fin 4) (⟨R.val % 2048, Nat.mod_lt _ (by decide)⟩ : Fin 2048))).val
      = R.val / 2048 * 2048 + R.val % 2048 := Shape.rowMajor_val_two _
  have h2' : (S8192x1.rowMajor (ix2 R (0 : Fin 1))).val = R.val * 1 + 0 := Shape.rowMajor_val_two _
  rw [shapeCast_apply a1 hc (ix2 R (0 : Fin 1)) _ (by rw [h2, h2', hdm]; omega)]
  refine (Cert.Spec.label_eq a1 _ _).trans ?_
  show Cert.Spec.labelOf a1 (R.val / 2048 * 2048 + R.val % 2048) = _
  rw [hdm]

/-! ## The arrays the region finds, and the blocks read off them -/

variable (m : (ℓ : Loc nD τ sig) → Buf (Elt Ideal) ℓ)

/-- The block of logits and the block of labels at point t, at their literal types. -/
abbrev xblk (c : Dev nD) (t : Fin cfg0.N) : Vec Ideal S1024x6400 .f32 := iblk m c 0 t
abbrev lblk (c : Dev nD) (t : Fin cfg0.N) : Vec Ideal S1024x1 .i32 := iblk m c 1 t

/-- The region finds the flattened logits: the reshape of the logits argument. -/
theorem logits_found (c : Dev nD) :
    (V m c main_v0 : S8192x32000.Idx → EReal)
      = shapeCast S8192x32000 (m ((c : Thread nD τ).loc main_arg0)) Facts₀.shapeCasts_S4x2048x32000_S8192x32000 := by
  show StableHlo.after hostOps0 (fun b => m (c, b)) (Proc.devRef .tc main_v0) = _
  after_results
  rfl

/-- The region finds the flattened labels: the reshape of the labels argument. -/
theorem labels_found (c : Dev nD) :
    (V m c main_v1 : S8192x1.Idx → BitVec 32)
      = shapeCast S8192x1 (m ((c : Thread nD τ).loc main_arg1)) Facts₀.shapeCasts_S4x2048_S8192x1 := by
  show StableHlo.after hostOps0 (fun b => m (c, b)) (Proc.devRef .tc main_v1) = _
  after_results
  rfl

/-- The block indices of the two input windows at point t, decided over the grid: (t / 5, t % 5) and (t / 5, 0). -/
theorem index_logits : ∀ t : Fin cfg0.N, win0_0.index t 0 = t.val / 5 ∧ win0_0.index t 1 = t.val % 5 :=
  (by decide +kernel : ∀ t : Fin grid0.N, win0_0.index t 0 = t.val / 5 ∧ win0_0.index t 1 = t.val % 5)
theorem index_labels : ∀ t : Fin cfg0.N, win0_1.index t 0 = t.val / 5 ∧ win0_1.index t 1 = 0 :=
  (by decide +kernel : ∀ t : Fin grid0.N, win0_1.index t 0 = t.val / 5 ∧ win0_1.index t 1 = 0)

theorem point_lt (t : Fin cfg0.N) : t.val < 40 := lt_of_lt_of_eq t.isLt N_0

/-- Entry (r, k) of the logits' block at point t is the flattened logits at (1024 (t / 5) + r, 6400 (t % 5) + k). -/
theorem xblk_read (c : Dev nD) (t : Fin cfg0.N) (r : Fin 1024) (k : Fin 6400) :
    xblk m c t (ix2 r k)
      = V m c main_v0 (ix2 (⟨t.val / 5 * 1024 + r.val, by have := point_lt t; omega⟩ : Fin 8192)
          (⟨t.val % 5 * 6400 + k.val, by have := point_lt t; omega⟩ : Fin 32000)) := by
  have hi := index_logits t
  show iblk m c 0 t (ix2 r k) = _
  unfold iblk
  rw [View.read_apply]
  show V m c main_v0 (((cfg0.win 0).blk t).view.emb (ix2 r k)) = _
  refine congrArg (V m c main_v0) (funext fun a => Fin.ext ?_)
  match a with
  | ⟨0, _⟩ => show win0_0.index t 0 * 1024 + 1 * r.val = t.val / 5 * 1024 + r.val; rw [hi.1]; omega
  | ⟨1, _⟩ => show win0_0.index t 1 * 6400 + 1 * k.val = t.val % 5 * 6400 + k.val; rw [hi.2]; omega

/-- Entry r of the labels' block at point t is the flattened labels at (1024 (t / 5) + r, 0). -/
theorem lblk_read (c : Dev nD) (t : Fin cfg0.N) (r : Fin 1024) :
    lblk m c t (ix2 r (0 : Fin 1))
      = V m c main_v1 (ix2 (⟨t.val / 5 * 1024 + r.val, by have := point_lt t; omega⟩ : Fin 8192) (0 : Fin 1)) := by
  have hi := index_labels t
  show iblk m c 1 t (ix2 r (0 : Fin 1)) = _
  unfold iblk
  rw [View.read_apply]
  show V m c main_v1 (((cfg0.win 1).blk t).view.emb (ix2 r (0 : Fin 1))) = _
  refine congrArg (V m c main_v1) (funext fun a => Fin.ext ?_)
  match a with
  | ⟨0, _⟩ => show win0_1.index t 0 * 1024 + 1 * r.val = t.val / 5 * 1024 + r.val; rw [hi.1]; omega
  | ⟨1, _⟩ => show win0_1.index t 1 * 1 + 1 * 0 = 0; rw [hi.2]

/-- THE LOGITS' BLOCK: entry (r, k) at point t is entry 6400 (t % 5) + k of row 1024 (t / 5) + r. -/
theorem xblk_apply (c : Dev nD) (h0 : Cert.Spec.Finite (m ((c : Thread nD τ).loc main_arg0))) (t : Fin cfg0.N) (r : Fin 1024) (k : Fin 6400) :
    xblk m c t (ix2 r k)
      = ((Cert.Spec.rowOf (m ((c : Thread nD τ).loc main_arg0)) (t.val / 5 * 1024 + r.val) (t.val % 5 * 6400 + k.val) : ℝ) : EReal) := by
  rw [xblk_read, logits_found]
  exact reshape_logits _ h0 _ _ _

/-- THE LABELS' BLOCK: entry r at point t is the label of row 1024 (t / 5) + r. -/
theorem lblk_apply (c : Dev nD) (t : Fin cfg0.N) (r : Fin 1024) :
    (lblk m c t (ix2 r 0)).toNat = Cert.Spec.labelOf (m ((c : Thread nD τ).loc main_arg1)) (t.val / 5 * 1024 + r.val) := by
  rw [lblk_read, labels_found]
  exact reshape_labels _ _ _

end Cert.KernelIdeal.Blocks

end
-- ==== Proof.KernelInv.lean ====
/-
  The carried row state, point by point over the grid.

  The grid's 40 points are visited in order; point n works on row tile n / 5 (rows 1024 (n / 5) + r) and column tile
  n % 5 (columns 6400 (n % 5) + k). At the first column tile of a row tile the three carried vectors are reset and then
  updated, at the others they are updated from what the point before left, and at the last column tile the output block
  is written from the updated vectors. By induction over the points, after point n the three vectors hold, in row r, the
  row state of row 1024 (n / 5) + r over its first 6400 (n % 5 + 1) columns; so at the last column tile, where that count
  is all 32000 columns, the output block holds the row's loss.
-/
import proofs.«419041_j51728586113630_3_alg».proof.Proof.Gen.KernelIdeal.Frame
import proofs.«419041_j51728586113630_3_alg».proof.Proof.Spec
import proofs.«419041_j51728586113630_3_alg».proof.Proof.KernelPieces
import proofs.«419041_j51728586113630_3_alg».proof.Proof.KernelPayload
import proofs.«419041_j51728586113630_3_alg».proof.Proof.KernelBlocks

noncomputable section

namespace Cert.KernelIdeal.Inv

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- A point's second grid coordinate is its column tile, the point's number modulo 5: decided over the grid. -/
theorem coord_col : ∀ t : Fin cfg0.N, ((grid0.coords t) 1).val = t.val % 5 :=
  (by decide +kernel : ∀ t : Fin grid0.N, ((grid0.coords t) 1).val = t.val % 5)

/-- A grid point's number is below 40. -/
theorem point_lt (t : Fin cfg0.N) : t.val < 40 := lt_of_lt_of_eq t.isLt N_0

/-- ONE POINT'S UPDATE. If three vectors hold, in row `r`, the state of row 1024 (t / 5) + r over the columns before column
    tile t % 5, the body's update of them from the point's blocks holds the state over the columns through that tile. -/
theorem tile_step (c : Dev nD) (h0 : Cert.Spec.Finite (m ((c : Thread nD τ).loc main_arg0)))
    (h1 : Cert.Spec.InRange (m ((c : Thread nD τ).loc main_arg1))) (t : Fin cfg0.N) (r : Fin 1024)
    (s0 s1 s2 : Vec Ideal S1024x1 .f32)
    (hs : Cert.Spec.RowState (Cert.Spec.rowOf (m ((c : Thread nD τ).loc main_arg0)) (t.val / 5 * 1024 + r.val)) (Cert.Spec.labelOf (m ((c : Thread nD τ).loc main_arg1)) (t.val / 5 * 1024 + r.val))
      (t.val % 5 * 6400) (s0 (ix2 r 0)) (s1 (ix2 r 0)) (s2 (ix2 r 0))) :
    Cert.Spec.RowState (Cert.Spec.rowOf (m ((c : Thread nD τ).loc main_arg0)) (t.val / 5 * 1024 + r.val)) (Cert.Spec.labelOf (m ((c : Thread nD τ).loc main_arg1)) (t.val / 5 * 1024 + r.val))
      ((t.val % 5 + 1) * 6400)
      (k0_pay9 (Blocks.xblk m c t) s0 (ix2 r 0)) (k0_pay8 (Blocks.xblk m c t) s0 s0 s1 (ix2 r 0))
      (k0_pay1 (k0_pay6 (Blocks.xblk m c t)) (k0_pay10 (grid0.coords t) (Blocks.lblk m c t)) (k0_pay11 (F := Ideal)) s2 (ix2 r 0)) := by
  have e : (t.val % 5 + 1) * 6400 = t.val % 5 * 6400 + 6400 := by omega
  rw [e]
  exact Cert.KernelPayload.step_state _ _ (t.val % 5 * 6400) (grid0.coords t) (by rw [coord_col t])
    (Cert.Spec.labelOf_lt _ h1 _) (Blocks.xblk m c t) (Blocks.lblk m c t) s0 s1 s2 r
    (fun k => Blocks.xblk_apply m c h0 t r k) (Blocks.lblk_apply m c t r) hs

/-- THE INVARIANT. After point `n` the carried vectors hold, in row `r`, the state of row 1024 (n / 5) + r over its first
    6400 (n % 5 + 1) columns. -/
theorem scratch_state (c : Dev nD) (h0 : Cert.Spec.Finite (m ((c : Thread nD τ).loc main_arg0)))
    (h1 : Cert.Spec.InRange (m ((c : Thread nD τ).loc main_arg1))) :
    ∀ (n : ℕ) (hn : n < cfg0.N) (r : Fin 1024),
      Cert.Spec.RowState (Cert.Spec.rowOf (m ((c : Thread nD τ).loc main_arg0)) (n / 5 * 1024 + r.val)) (Cert.Spec.labelOf (m ((c : Thread nD τ).loc main_arg1)) (n / 5 * 1024 + r.val)) ((n % 5 + 1) * 6400)
        ((outsAt0 m c n hn).2.1 (ix2 r 0)) ((outsAt0 m c n hn).2.2.1 (ix2 r 0)) ((outsAt0 m c n hn).2.2.2 (ix2 r 0)) := by
  intro n
  induction n using Nat.strong_induction_on with
  | _ n ih =>
    intro hn r
    obtain ⟨t, rfl⟩ : ∃ t : Fin cfg0.N, t.val = n := ⟨⟨n, hn⟩, rfl⟩
    have h40 := point_lt t
    by_cases hA : t.val % 5 = 0
    · -- the first column tile of a row tile: reset, then update
      have hC : ¬t.val % 5 = 4 := by omega
      rw [outsAt0_A m c t hA hC]
      dsimp only
      rw [Pieces.sA0 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr hA) (fun h => hC ((hcond0_1 t).mp h)) (iblk m c 0 t) (iblk m c 1 t),
        Pieces.sA1 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr hA) (fun h => hC ((hcond0_1 t).mp h)) (iblk m c 0 t) (iblk m c 1 t),
        Pieces.sA2 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr hA) (fun h => hC ((hcond0_1 t).mp h)) (iblk m c 0 t) (iblk m c 1 t)]
      refine tile_step m c h0 h1 t r (k0_pay3 (F := Ideal)) (k0_pay4 (F := Ideal)) (k0_pay5 (F := Ideal)) ?_
      rw [hA, Nat.zero_mul]
      exact Cert.KernelPayload.init_state _ _ r
    · -- a later column tile: update what the point before left
      have hp : t.val - 1 < cfg0.N := Nat.lt_of_le_of_lt (Nat.sub_le _ _) t.isLt
      have hprev := ih (t.val - 1) (by omega) hp r
      have e1 : (t.val - 1) / 5 = t.val / 5 := by omega
      have e2 : (t.val - 1) % 5 + 1 = t.val % 5 := by omega
      rw [e1, e2] at hprev
      by_cases hC : t.val % 5 = 4
      · rw [outsAt0_C m c t hA hC]
        dsimp only
        rw [Pieces.sC0 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => hA ((hcond0_0 t).mp h)) ((hcond0_1 t).mpr hC) (iblk m c 0 t) (iblk m c 1 t) (outsAt0 m c (t.val - 1) hp).2.1 (outsAt0 m c (t.val - 1) hp).2.2.1 (outsAt0 m c (t.val - 1) hp).2.2.2,
          Pieces.sC1 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => hA ((hcond0_0 t).mp h)) ((hcond0_1 t).mpr hC) (iblk m c 0 t) (iblk m c 1 t) (outsAt0 m c (t.val - 1) hp).2.1 (outsAt0 m c (t.val - 1) hp).2.2.1 (outsAt0 m c (t.val - 1) hp).2.2.2,
          Pieces.sC2 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => hA ((hcond0_0 t).mp h)) ((hcond0_1 t).mpr hC) (iblk m c 0 t) (iblk m c 1 t) (outsAt0 m c (t.val - 1) hp).2.1 (outsAt0 m c (t.val - 1) hp).2.2.1 (outsAt0 m c (t.val - 1) hp).2.2.2]
        exact tile_step m c h0 h1 t r _ _ _ hprev
      · rw [outsAt0_B m c t hA hC]
        dsimp only
        rw [Pieces.sB0 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => hA ((hcond0_0 t).mp h)) (fun h => hC ((hcond0_1 t).mp h)) (iblk m c 0 t) (iblk m c 1 t) (outsAt0 m c (t.val - 1) hp).2.1 (outsAt0 m c (t.val - 1) hp).2.2.1 (outsAt0 m c (t.val - 1) hp).2.2.2,
          Pieces.sB1 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => hA ((hcond0_0 t).mp h)) (fun h => hC ((hcond0_1 t).mp h)) (iblk m c 0 t) (iblk m c 1 t) (outsAt0 m c (t.val - 1) hp).2.1 (outsAt0 m c (t.val - 1) hp).2.2.1 (outsAt0 m c (t.val - 1) hp).2.2.2,
          Pieces.sB2 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => hA ((hcond0_0 t).mp h)) (fun h => hC ((hcond0_1 t).mp h)) (iblk m c 0 t) (iblk m c 1 t) (outsAt0 m c (t.val - 1) hp).2.1 (outsAt0 m c (t.val - 1) hp).2.2.1 (outsAt0 m c (t.val - 1) hp).2.2.2]
        exact tile_step m c h0 h1 t r _ _ _ hprev

/-- THE OUTPUT BLOCK. At a last column tile the output block holds, in row `r`, the loss of row 1024 (t / 5) + r. -/
theorem out_block (c : Dev nD) (h0 : Cert.Spec.Finite (m ((c : Thread nD τ).loc main_arg0)))
    (h1 : Cert.Spec.InRange (m ((c : Thread nD τ).loc main_arg1)))
    (t : Fin cfg0.N) (ht : t.val % 5 = 4) (r : Fin 1024) :
    (outsAt0 m c t.val t.isLt).1 (ix2 r 0)
      = ((Cert.LseReal.loss (Cert.Spec.rowOf (m ((c : Thread nD τ).loc main_arg0)) (t.val / 5 * 1024 + r.val)) (Cert.Spec.labelOf (m ((c : Thread nD τ).loc main_arg1)) (t.val / 5 * 1024 + r.val)) 32000 : ℝ) : EReal) := by
  have h40 := point_lt t
  have hA : ¬t.val % 5 = 0 := by omega
  have hC := ht
  have hp : t.val - 1 < cfg0.N := Nat.lt_of_le_of_lt (Nat.sub_le _ _) t.isLt
  have hprev := scratch_state m c h0 h1 (t.val - 1) hp r
  have e1 : (t.val - 1) / 5 = t.val / 5 := by omega
  have e2 : (t.val - 1) % 5 + 1 = t.val % 5 := by omega
  rw [e1, e2] at hprev
  have hnew := tile_step m c h0 h1 t r _ _ _ hprev
  have e3 : (t.val % 5 + 1) * 6400 = 32000 := by omega
  rw [e3] at hnew
  rw [outsAt0_C m c t hA hC]
  dsimp only
  refine (congrFun (Pieces.oC2 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => hA ((hcond0_0 t).mp h)) ((hcond0_1 t).mpr hC) (iblk m c 0 t) (iblk m c 1 t) (outsAt0 m c (t.val - 1) hp).2.1 (outsAt0 m c (t.val - 1) hp).2.2.1 (outsAt0 m c (t.val - 1) hp).2.2.2) (ix2 r 0)).trans ?_
  exact Cert.KernelPayload.out_value _ _ 32000 (by decide) (Cert.Spec.labelOf_lt _ h1 _) _ _ _ r hnew

end Cert.KernelIdeal.Inv

end
-- ==== Proof.KernelArray.lean ====
/-
  From the output's blocks to the whole output array, and the array's two reshapes.

  The output is the 8192 × 1 column of per-row losses. Its 1024 × 1 block at block index (t / 5, 0) is written back at the
  points t with t % 5 = 4, and there holds the losses of rows 1024 (t / 5) .. 1024 (t / 5) + 1023. Row R lies in the block
  written back at the point 5 (R / 1024) + 4, so the eight written blocks cover the column, and the column ends holding the
  loss of every row. Flattening the column to 8192 entries and folding those to 4 × 2048 sends entry (b, s) to row
  2048 b + s: the per-token loss.
-/
import proofs.«419041_j51728586113630_3_alg».proof.Proof.Gen.KernelIdeal.Frame
import proofs.«419041_j51728586113630_3_alg».proof.Proof.Spec
import proofs.«419041_j51728586113630_3_alg».proof.Proof.KernelInv
import Idealize.ShloMosaic.Lib.Pipeline.Value
import Idealize.ShloMosaic.Lib.Tactic

noncomputable section

namespace Cert.KernelIdeal.Arr

open Cert.KernelIdeal Cert.KernelIdeal.Gen Idealize.ShloMosaic Idealize.ShloMosaic.TcCoe Idealize.ShloMosaic.ValueIdx Idealize.SL.Sem

/-- The column of per-row losses: row R of the flattened matrix at its label. -/
def lossCol (a0 : (⟨3, ![4, 2048, 32000]⟩ : Shape).Idx → EReal) (a1 : (⟨2, ![4, 2048]⟩ : Shape).Idx → BitVec 32) : Vec Ideal S8192x1 .f32 :=
  fun j => ((Cert.LseReal.loss (Cert.Spec.rowOf a0 (j 0).val) (Cert.Spec.labelOf a1 (j 0).val) 32000 : ℝ) : EReal)

/-! ## The two reshapes of the column -/

/-- Flattened to 8192 entries and folded to 4 × 2048, the column at (b, s) is the loss of row 2048 b + s. -/
theorem reshaped_eq (a0 : (⟨3, ![4, 2048, 32000]⟩ : Shape).Idx → EReal) (a1 : (⟨2, ![4, 2048]⟩ : Shape).Idx → BitVec 32) :
    shapeCast S4x2048 (shapeCast S8192 (lossCol a0 a1) Facts₀.shapeCasts_S8192x1_S8192) Facts₀.shapeCasts_S8192_S4x2048 = Cert.Spec.Loss a0 a1 := by
  funext i
  have hb : (i 0).val < 4 := (i 0).isLt
  have hs : (i 1).val < 2048 := (i 1).isLt
  have e2 : (S4x2048.rowMajor i).val = (i 0).val * 2048 + (i 1).val := Shape.rowMajor_val_two _
  have e1 : (S8192.rowMajor (ix1 (⟨(i 0).val * 2048 + (i 1).val, by omega⟩ : Fin 8192))).val = (i 0).val * 2048 + (i 1).val :=
    Shape.rowMajor_val_one _
  have e2' : (S8192x1.rowMajor (ix2 (⟨(i 0).val * 2048 + (i 1).val, by omega⟩ : Fin 8192) (0 : Fin 1))).val
      = ((i 0).val * 2048 + (i 1).val) * 1 + 0 := Shape.rowMajor_val_two _
  rw [shapeCast_apply _ Facts₀.shapeCasts_S8192_S4x2048 i (ix1 (⟨(i 0).val * 2048 + (i 1).val, by omega⟩ : Fin 8192)) (by rw [e1, e2]),
    shapeCast_apply _ Facts₀.shapeCasts_S8192x1_S8192 _ (ix2 (⟨(i 0).val * 2048 + (i 1).val, by omega⟩ : Fin 8192) (0 : Fin 1)) (by rw [e1, e2']; omega)]
  rfl

/-! ## The output array after the run -/

variable (m : (ℓ : Loc nD τ sig) → Buf (Elt Ideal) ℓ)

/-- The output window's block index at point t, decided over the grid: (t / 5, 0). -/
theorem index_out : ∀ t : Fin cfg0.N, win0_2.index t 0 = t.val / 5 ∧ win0_2.index t 1 = 0 :=
  (by decide +kernel : ∀ t : Fin grid0.N, win0_2.index t 0 = t.val / 5 ∧ win0_2.index t 1 = 0)

/-- What a write-back point leaves in the output's block, at any index of the block: the loss of the block's row. -/
theorem out_block_at (c : Dev nD) (h0 : Cert.Spec.Finite (m ((c : Thread nD τ).loc main_arg0)))
    (h1 : Cert.Spec.InRange (m ((c : Thread nD τ).loc main_arg1))) (t : Fin cfg0.N) (ht : t.val % 5 = 4) (y : S1024x1.Idx) :
    (outsAt0 m c t.val t.isLt).1 y
      = ((Cert.LseReal.loss (Cert.Spec.rowOf (m ((c : Thread nD τ).loc main_arg0)) (t.val / 5 * 1024 + (y 0).val))
          (Cert.Spec.labelOf (m ((c : Thread nD τ).loc main_arg1)) (t.val / 5 * 1024 + (y 0).val)) 32000 : ℝ) : EReal) := by
  obtain ⟨r, q, rfl⟩ : ∃ (r : Fin 1024) (q : Fin 1), y = ix2 r q := ⟨y 0, y 1, eq_ix2 y⟩
  obtain rfl : q = 0 := Subsingleton.elim _ _
  exact Cert.KernelIdeal.Inv.out_block m c h0 h1 t ht r

/-- A block of the column read through the output window at point t: entry y is the column at row 1024 (t / 5) + y. -/
theorem read_block (G : S8192x1.Idx → EReal) (t : Fin cfg0.N) (y : S1024x1.Idx) :
    ((cfg0.win 2).blk t).view.read (Elt Ideal) G y
      = G (ix2 (⟨t.val / 5 * 1024 + (y 0).val, by
          have h40 : t.val < 40 := lt_of_lt_of_eq t.isLt N_0
          have hy : (y 0).val < 1024 := (y 0).isLt
          omega⟩ : Fin 8192) (0 : Fin 1)) := by
  have hi := index_out t
  rw [View.read_apply]
  refine congrArg G (funext fun a => Fin.ext ?_)
  match a with
  | ⟨0, _⟩ => show win0_2.index t 0 * 1024 + 1 * (y 0).val = t.val / 5 * 1024 + (y 0).val; rw [hi.1]; omega
  | ⟨1, _⟩ =>
    have hy : (y 1).val < 1 := (y 1).isLt
    show win0_2.index t 1 * 1 + 1 * (y 1).val = 0; rw [hi.2]; omega

/-- WHAT A WRITE-BACK POINT WRITES is its block of the column of losses. -/
theorem flushed_eq (c : Dev nD) (h0 : Cert.Spec.Finite (m ((c : Thread nD τ).loc main_arg0)))
    (h1 : Cert.Spec.InRange (m ((c : Thread nD τ).loc main_arg1))) (t : Fin cfg0.N) (hf : (cfg0.win 2).flush t = true) :
    (dats m 0 c).flushed 2 t
      = ((cfg0.win 2).blk t).view.read (Elt Ideal) (lossCol (m ((c : Thread nD τ).loc main_arg0)) (m ((c : Thread nD τ).loc main_arg1))) := by
  have ht : t.val % 5 = 4 := (flush0_2 t).mp hf
  show (cfg0.win 2).cut (grid0.coords t) ((dats m 0 c).after 2 t) = _
  rw [after0_2]
  refine funext fun (y : S1024x1.Idx) => ?_
  exact (out_block_at m c h0 h1 t ht y).trans
    (read_block (lossCol (m ((c : Thread nD τ).loc main_arg0)) (m ((c : Thread nD τ).loc main_arg1))) t y).symm

/-- THE OUTPUT ARRAY after the run: the column of losses (row R is written back at the point 5 (R / 1024) + 4). -/
theorem final_out (c : Dev nD) (h0 : Cert.Spec.Finite (m ((c : Thread nD τ).loc main_arg0)))
    (h1 : Cert.Spec.InRange (m ((c : Thread nD τ).loc main_arg1))) :
    (dats m 0 c).arrAt 2 cfg0.N = lossCol (m ((c : Thread nD τ).loc main_arg0)) (m ((c : Thread nD τ).loc main_arg1)) :=
  (dats m 0 c).arrAt_eq_of_cover 2 (lossCol (m ((c : Thread nD τ).loc main_arg0)) (m ((c : Thread nD τ).loc main_arg1)))
    (flushed_eq m c h0 h1) fun i => by
      have hi0 : (i 0 : Nat) < 8192 := (i 0).isLt
      have hi1 : (i 1 : Nat) < 1 := (i 1).isLt
      obtain ⟨t, ht⟩ : ∃ t : Fin cfg0.N, t.val = (i 0 : Nat) / 1024 * 5 + 4 :=
        ⟨⟨(i 0 : Nat) / 1024 * 5 + 4, by rw [show cfg0.N = 40 from N_0]; omega⟩, rfl⟩
      have hx := index_out t
      refine ⟨t, (flush0_2 t).mpr (by omega), ?_⟩
      show i ∈ ((View.whole main_v2).slice (win0_2.rect t)).set
      rw [View.set_slice_whole, Rect.mem_set_unit]
      intro a
      match a with
      | ⟨0, _⟩ =>
        show win0_2.index t 0 * 1024 ≤ (i 0 : Nat) ∧ (i 0 : Nat) < win0_2.index t 0 * 1024 + 1024
        rw [hx.1]; omega
      | ⟨1, _⟩ =>
        show win0_2.index t 1 * 1 ≤ (i 1 : Nat) ∧ (i 1 : Nat) < win0_2.index t 1 * 1 + 1
        rw [hx.2]; omega

end Cert.KernelIdeal.Arr

end
-- ==== Proof.KernelTail.lean ====
/-
  The three results as functions of the per-token loss.

  After the per-token losses v[b, s] both programs go on in the same way: the masked mean
  (∑ v · mask) / (∑ mask), the per-domain sums of the per-sample losses ∑ₛ v[b, s] scattered by domain and divided
  by the domain's token count (0 where a domain has no sample), and the per-domain sample counts, which do not
  depend on v at all. `ce` and `norm` are those two functions of v, written over the reference's own stages for every
  part that does not depend on v, so that the reference's results are `ce` and `norm` of its per-token losses by
  unfolding. The kernel's program reaches the same two functions of ITS per-token losses — the output array of the
  launch, reshaped [8192, 1] → [8192] → [4, 2048] — by running the operations that follow the launch from the
  contents the launch leaves.
-/
import proofs.«419041_j51728586113630_3_alg».proof.Proof.Gen.KernelIdeal.Frame
import proofs.«419041_j51728586113630_3_alg».proof.Proof.RefRead
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.StableHlo

namespace Cert.Tail

variable {F : FTy → Type} [FloatOps F]

section Functions

open Cert.ReferenceIdeal Cert.ReferenceIdeal.Read Cert.ReferenceIdeal.Facts₀ Cert.ReferenceIdeal.Facts

/-- The masked mean of the per-token losses `v`. -/
def ce (v : (⟨S4x2048, .f32⟩ : BufTy).Contents (Elt F)) (x2 : (⟨S4x2048, .i1⟩ : BufTy).Contents (Elt F)) :
    (⟨S_, .f32⟩ : BufTy).Contents (Elt F) :=
  Host.divf (Host.reduceAdd (mulf v (val_main_v5 (F := F) x2)) (val_main_cst (F := F)) reducesTo_S4x2048_S_d0_1 h_S_)
    (val_main_v8 (F := F) x2)

/-- The per-domain normalized losses of the per-token losses `v`. -/
def norm (v : (⟨S4x2048, .f32⟩ : BufTy).Contents (Elt F)) (x3 : (⟨S4, .i32⟩ : BufTy).Contents (Elt F)) :
    (⟨S8, .f32⟩ : BufTy).Contents (Elt F) :=
  select (val_main_v28 (F := F) x3)
    (Host.divf
      (Host.scatterAdd scatter_S8_S4x1_S4_n_0_0_1 (val_main_v11 (F := F)) (val_main_v12 (F := F) x3)
        (Host.reduceAdd v (val_main_cst_1 (F := F)) reducesTo_S4x2048_S4_d1 h_S_))
      (val_main_v30 (F := F) x3))
    (val_main_call3_v1 (F := F))

/-- The reference's first result is the masked mean of its per-token losses. -/
theorem ref_ce (x0 : (⟨S4x2048x32000, .f32⟩ : BufTy).Contents (Elt F)) (x1 : (⟨S4x2048, .i32⟩ : BufTy).Contents (Elt F))
    (x2 : (⟨S4x2048, .i1⟩ : BufTy).Contents (Elt F)) :
    val_main_v9 (F := F) x0 x1 x2 = ce (val_main_v4 (F := F) x0 x1) x2 := rfl

/-- The reference's second result is the normalized losses of its per-token losses. -/
theorem ref_norm (x0 : (⟨S4x2048x32000, .f32⟩ : BufTy).Contents (Elt F)) (x1 : (⟨S4x2048, .i32⟩ : BufTy).Contents (Elt F))
    (x3 : (⟨S4, .i32⟩ : BufTy).Contents (Elt F)) :
    val_main_v32 (F := F) x0 x1 x3 = norm (val_main_v4 (F := F) x0 x1) x3 := rfl

end Functions

section Kernel

open Cert.KernelIdeal Cert.KernelIdeal.Gen

variable (m : (ℓ : Loc nD τ sig) → Buf (Elt F) ℓ) (ρ : Dev nD → PrngReg)

/-- The kernel's per-token losses: the launch's output array, reshaped twice. -/
def kv (c : Dev nD) : (⟨S4x2048, .f32⟩ : BufTy).Contents (Elt F) :=
  shapeCast S4x2048 (shapeCast S8192 ((dats m 0 c).arrAt 2 cfg0.N : S8192x1.Idx → Elt F .f32) Facts₀.shapeCasts_S8192x1_S8192)
    Facts₀.shapeCasts_S8192_S4x2048

/-- The contents the operations after the launch start from. -/
abbrev exitContents (c : Dev nD) : Valuation τ sig (Elt F) :=
  Pipeline.withArrays (cfgs 0).spec c (V0 m c) (fun w => (dats m 0 c).arrAt w (cfgs 0).N)

/-- The launch leaves its output array at what the proof data computes. -/
theorem exit_out (c : Dev nD) : exitContents m c (Proc.devRef .tc main_v2) = (dats m 0 c).arrAt 2 cfg0.N :=
  Pipeline.withArrays_arr spec0 launch0.win.arr_inj c (V0 m c) (fun w => (dats m 0 c).arrAt w cfg0.N) 2

/-- The mask argument is as launched. -/
theorem exit_arg2 (c : Dev nD) : exitContents m c (Proc.devRef .tc main_arg2) = m ((c : Thread nD τ).loc main_arg2) :=
  (Pipeline.withArrays_of_ne spec0 c (V0 m c) _ main_arg2 (by exact (by decide : ∀ w, Pipeline.arrRef spec0 w ≠ main_arg2))).trans
    (V_main_arg2 m c)

/-- The domain argument is as launched. -/
theorem exit_arg3 (c : Dev nD) : exitContents m c (Proc.devRef .tc main_arg3) = m ((c : Thread nD τ).loc main_arg3) :=
  (Pipeline.withArrays_of_ne spec0 c (V0 m c) _ main_arg3 (by exact (by decide : ∀ w, Pipeline.arrRef spec0 w ≠ main_arg3))).trans
    (V_main_arg3 m c)

set_option maxHeartbeats 4000000 in
/-- The operations after the launch leave, in the first result, the masked mean of the kernel's per-token losses. -/
theorem tail_ce (c : Dev nD) :
    Pipeline.afterTail₀ cfgs (dats m) 0 (V0 m) [hostOps1, hostOps1_1, hostOps1_2, hostOps1_3] c main_v9 = ce (kv m c) (m ((c : Thread nD τ).loc main_arg2)) := by
  unfold Pipeline.afterTail₀
  have e2 : Pipeline.withArrays (cfgs 0).spec c (V0 m c) (fun w => (dats m 0 c).arrAt w (cfgs 0).N) (Proc.devRef .tc main_v2) = (dats m 0 c).arrAt 2 cfg0.N := exit_out m c
  have ea2 : Pipeline.withArrays (cfgs 0).spec c (V0 m c) (fun w => (dats m 0 c).arrAt w (cfgs 0).N) (Proc.devRef .tc main_arg2) = m ((c : Thread nD τ).loc main_arg2) := exit_arg2 m c
  have ea3 : Pipeline.withArrays (cfgs 0).spec c (V0 m c) (fun w => (dats m 0 c).arrAt w (cfgs 0).N) (Proc.devRef .tc main_arg3) = m ((c : Thread nD τ).loc main_arg3) := exit_arg3 m c
  generalize Pipeline.withArrays (cfgs 0).spec c (V0 m c) (fun w => (dats m 0 c).arrAt w (cfgs 0).N) = W at e2 ea2 ea3 ⊢
  simp only [hostOps1, hostOps1_1, hostOps1_2, hostOps1_3, List.flatten_cons, List.flatten_nil, List.append_nil, List.cons_append, List.nil_append]
  after_results_simp
  try simp only [TRef.ofBuf, TRef.toBuf, cast_eq]
  rw [e2, ea2]
  rfl

set_option maxHeartbeats 4000000 in
/-- They leave, in the second result, the normalized per-domain losses of the kernel's per-token losses. -/
theorem tail_norm (c : Dev nD) :
    Pipeline.afterTail₀ cfgs (dats m) 0 (V0 m) [hostOps1, hostOps1_1, hostOps1_2, hostOps1_3] c main_v32 = norm (kv m c) (m ((c : Thread nD τ).loc main_arg3)) := by
  unfold Pipeline.afterTail₀
  have e2 : Pipeline.withArrays (cfgs 0).spec c (V0 m c) (fun w => (dats m 0 c).arrAt w (cfgs 0).N) (Proc.devRef .tc main_v2) = (dats m 0 c).arrAt 2 cfg0.N := exit_out m c
  have ea2 : Pipeline.withArrays (cfgs 0).spec c (V0 m c) (fun w => (dats m 0 c).arrAt w (cfgs 0).N) (Proc.devRef .tc main_arg2) = m ((c : Thread nD τ).loc main_arg2) := exit_arg2 m c
  have ea3 : Pipeline.withArrays (cfgs 0).spec c (V0 m c) (fun w => (dats m 0 c).arrAt w (cfgs 0).N) (Proc.devRef .tc main_arg3) = m ((c : Thread nD τ).loc main_arg3) := exit_arg3 m c
  generalize Pipeline.withArrays (cfgs 0).spec c (V0 m c) (fun w => (dats m 0 c).arrAt w (cfgs 0).N) = W at e2 ea2 ea3 ⊢
  simp only [hostOps1, hostOps1_1, hostOps1_2, hostOps1_3, List.flatten_cons, List.flatten_nil, List.append_nil, List.cons_append, List.nil_append]
  after_results_simp
  try simp only [TRef.ofBuf, TRef.toBuf, cast_eq]
  rw [e2, ea3]
  rfl

set_option maxHeartbeats 4000000 in
/-- They leave, in the third result, the per-domain sample counts: the reference's own function of the domain argument. -/
theorem tail_count (c : Dev nD) :
    Pipeline.afterTail₀ cfgs (dats m) 0 (V0 m) [hostOps1, hostOps1_1, hostOps1_2, hostOps1_3] c main_v23 = Cert.ReferenceIdeal.Read.val_main_v23 (F := F) (m ((c : Thread nD τ).loc main_arg3)) := by
  unfold Pipeline.afterTail₀
  have e2 : Pipeline.withArrays (cfgs 0).spec c (V0 m c) (fun w => (dats m 0 c).arrAt w (cfgs 0).N) (Proc.devRef .tc main_v2) = (dats m 0 c).arrAt 2 cfg0.N := exit_out m c
  have ea2 : Pipeline.withArrays (cfgs 0).spec c (V0 m c) (fun w => (dats m 0 c).arrAt w (cfgs 0).N) (Proc.devRef .tc main_arg2) = m ((c : Thread nD τ).loc main_arg2) := exit_arg2 m c
  have ea3 : Pipeline.withArrays (cfgs 0).spec c (V0 m c) (fun w => (dats m 0 c).arrAt w (cfgs 0).N) (Proc.devRef .tc main_arg3) = m ((c : Thread nD τ).loc main_arg3) := exit_arg3 m c
  generalize Pipeline.withArrays (cfgs 0).spec c (V0 m c) (fun w => (dats m 0 c).arrAt w (cfgs 0).N) = W at e2 ea2 ea3 ⊢
  simp only [hostOps1, hostOps1_1, hostOps1_2, hostOps1_3, List.flatten_cons, List.flatten_nil, List.append_nil, List.cons_append, List.nil_append]
  after_results_simp
  try simp only [TRef.ofBuf, TRef.toBuf, cast_eq]
  rw [ea3]
  rfl

/-- The kernel's program, run: the three results at the two functions of its per-token losses and at the sample counts,
    the arguments unchanged. -/
theorem run : θ_run defs (onTc (τ := τ) (main (F := F))) ⟨m, fun _ => 0, ρ⟩ fun r => ∀ c : Dev nD,
      r.2.mem ((c.tc : Thread nD τ).loc main_v9) = ce (kv m c) (m ((c.tc : Thread nD τ).loc main_arg2))
      ∧ r.2.mem ((c.tc : Thread nD τ).loc main_v32) = norm (kv m c) (m ((c.tc : Thread nD τ).loc main_arg3))
      ∧ r.2.mem ((c.tc : Thread nD τ).loc main_v23) = Cert.ReferenceIdeal.Read.val_main_v23 (F := F) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v9 (Pipeline.mem_restRefs_of main_v9 (by decide) (by decide))).trans (tail_ce m c),
      ((h c).2 main_v32 (Pipeline.mem_restRefs_of main_v32 (by decide) (by decide))).trans (tail_norm m c),
      ((h c).2 main_v23 (Pipeline.mem_restRefs_of main_v23 (by decide) (by decide))).trans (tail_count m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Kernel

end Cert.Tail

end
-- ==== Proof.RefValue.lean ====
/-
  The reference computes the per-token loss.

  At token (b, s) the reference takes the row's entries x k, subtracts a shift (the maximum of the row, folded from -∞),
  exponentiates, sums over the 32000 columns, takes the logarithm and subtracts again: the log-softmax entry at column k
  is (x k - a) - log (∑ₖ' exp (x k' - a)). It then picks the entry at the label (a gather whose start index is the label,
  moved by 32000 when negative and clamped into the row), masks the pick by "the start index is inside the row", and
  negates. When every entry is a real number the shift a is a real number, whichever it is; when the label is a column
  number the start index is the label itself, the mask is 1 and the pick is the label's entry. The negated pick is then
  log (∑ₖ exp (x k)) - x L, the loss of the row at its label.
-/
import proofs.«419041_j51728586113630_3_alg».proof.Proof.Spec
import proofs.«419041_j51728586113630_3_alg».proof.Proof.LibSums
import proofs.«419041_j51728586113630_3_alg».proof.Proof.RefRead
import Idealize.ShloMosaic.Lib.ValueIdx
import Idealize.ShloMosaic.Lib.StableHlo.Predicate
import Idealize.ShloMosaic.PureOps.Ideal.Laws

open scoped BigOperators

noncomputable section

namespace Cert.RefValue

open Cert.ReferenceIdeal Cert.ReferenceIdeal.Gen Cert.ReferenceIdeal.Read Idealize.ShloMosaic Idealize.ShloMosaic.ValueIdx
  Idealize.ShloMosaic.StableHlo

/-! ## General facts -/

/-- The maximum of finitely many real numbers, folded from -∞ over a non-empty family, is a real number: it is below +∞
    because every member is, and above -∞ because some member is. -/
theorem fold_max_real {ι : Type} (s : Finset ι) (hs : s.Nonempty) (f : ι → EReal)
    (hf : ∀ i ∈ s, ∃ r : ℝ, f i = (r : EReal)) : ∃ a : ℝ, s.fold max ⊥ f = (a : EReal) := by
  have hne_top : s.fold max ⊥ f ≠ ⊤ := by
    refine ne_of_lt ?_
    rw [Finset.fold_max_lt]
    refine ⟨bot_lt_top, fun i hi => ?_⟩
    obtain ⟨r, hr⟩ := hf i hi
    rw [hr]; exact EReal.coe_lt_top r
  have hne_bot : s.fold max ⊥ f ≠ ⊥ := by
    refine (?_ : ⊥ < s.fold max ⊥ f).ne'
    rw [Finset.lt_fold_max]
    obtain ⟨i, hi⟩ := hs
    obtain ⟨r, hr⟩ := hf i hi
    exact Or.inr ⟨i, hi, by rw [hr]; exact EReal.bot_lt_coe r⟩
  exact ⟨(s.fold max ⊥ f).toReal, (EReal.coe_toReal hne_top hne_bot).symm⟩

/-- The f32 pattern with the sign set, exponent all ones and fraction zero is -∞. -/
theorem neg_inf_bits : Ideal.ofBits .f32 0xFF800000#32 = ⊥ := by simp [Ideal.ofBits, Ideal.ieee]

/-- The conjunction of bits that are all 1, folded from 1, is 1. -/
theorem fold_andi_one {ι : Type} [DecidableEq ι] (s : Finset ι) (f : ι → BitVec 1) (hf : ∀ i, f i = 1#1) :
    s.fold IntOp.andi 1#1 f = 1#1 := by
  induction s using Finset.induction_on with
  | empty => rfl
  | insert a s ha ih => rw [Finset.fold_insert ha, ih, hf a]; rfl

/-- A sum of exponentials over 32000 columns is positive. -/
theorem sumexp_pos (x : ℕ → ℝ) (a : ℝ) : 0 < ∑ j ∈ Finset.range 32000, Real.exp (x j - a) :=
  Finset.sum_pos (fun j _ => Real.exp_pos _) ⟨0, Finset.mem_range.2 (by decide)⟩

/-! ## The log-softmax entries -/

section LogSoftmax

variable (x0 : (⟨S4x2048x32000, .f32⟩ : BufTy).Contents (Elt Ideal))

/-- The row's shift, the maximum of the row folded from -∞ and once more against -∞, is a real number. -/
theorem shift_real (h0 : Cert.Spec.Finite x0) (b : Fin 4) (s : Fin 2048) :
    ∃ a : ℝ, val_main_call0_v2 (F := Ideal) x0 (ix2 b s) = (a : EReal) := by
  have hred : S4x2048x32000.Reduces [2] S4x2048 := by decide
  obtain ⟨a, ha⟩ := fold_max_real (Finset.univ : Finset (Fin (S4x2048x32000.size 2)))
    ⟨⟨0, by decide⟩, Finset.mem_univ _⟩ (x0 ∘ hred.lift (ix2 b s)) (fun k _ => h0 _)
  refine ⟨a, ?_⟩
  have e : val_main_call0_v0 (F := Ideal) x0 (ix2 b s) = (a : EReal) := by
    rw [← ha]
    unfold val_main_call0_v0
    refine (Host.reduce_eq_fold_single (FloatOps.maximumf (F := Ideal) (φ := .f32)) x0 (val_main_call0_cst (F := Ideal))
      reducesTo_S4x2048x32000_S4x2048_d2 hred h_S_ (ix2 b s)).trans ?_
    rw [val_main_call0_cst_apply, Ideal.ofBits_def, neg_inf_bits]
    rfl
  rw [val_main_call0_v2_apply, val_main_call0_v1_apply, val_main_call0_cst_0_apply, e, Ideal.maximumf_def, Ideal.ofBits_def,
    neg_inf_bits]
  exact max_eq_right bot_le

/-- The shift broadcast along the row is the row's shift at every column. -/
theorem shift_bcast (b : Fin 4) (s : Fin 2048) (k : Fin 32000) :
    val_main_call0_v4 (F := Ideal) x0 (ix3 b s k) = val_main_call0_v2 (F := Ideal) x0 (ix2 b s) := by
  rw [val_main_call0_v4_apply, val_main_call0_v3_apply]
  refine congrArg (val_main_call0_v2 (F := Ideal) x0) ?_
  funext d
  match d with
  | ⟨0, _⟩ => rfl
  | ⟨1, _⟩ => rfl

variable (h0 : Cert.Spec.Finite x0) (b : Fin 4) (s : Fin 2048) (a : ℝ)
  (ha : val_main_call0_v2 (F := Ideal) x0 (ix2 b s) = (a : EReal))
include h0 ha

/-- The entry less the shift. -/
theorem centered (k : Fin 32000) :
    val_main_call0_v5 (F := Ideal) x0 (ix3 b s k)
      = ((Cert.Spec.rowOf x0 (b.val * 2048 + s.val) k.val - a : ℝ) : EReal) := by
  rw [val_main_call0_v5_apply, shift_bcast, ha, Cert.Spec.entry_eq x0 h0 b s k, Ideal.subf_def, ← EReal.coe_sub]

/-- Its exponential. -/
theorem expo (k : Fin 32000) :
    val_main_call0_v6 (F := Ideal) x0 (ix3 b s k)
      = ((Real.exp (Cert.Spec.rowOf x0 (b.val * 2048 + s.val) k.val - a) : ℝ) : EReal) := by
  rw [val_main_call0_v6_apply, centered x0 h0 b s a ha k, Ideal.hostUnary_exp_def, Ideal.exp_coe]

/-- The sum of the row's exponentials, from 0. -/
theorem sumexp :
    val_main_call0_v7 (F := Ideal) x0 (ix2 b s)
      = ((∑ j ∈ Finset.range 32000, Real.exp (Cert.Spec.rowOf x0 (b.val * 2048 + s.val) j - a) : ℝ) : EReal) := by
  have e : ∀ k : Fin 32000, val_main_call0_v6 (F := Ideal) x0 (idx_main_call0_v7 (ix2 b s) k)
      = ((Real.exp (Cert.Spec.rowOf x0 (b.val * 2048 + s.val) k.val - a) : ℝ) : EReal) := by
    intro k
    have hi : idx_main_call0_v7 (ix2 b s) k = ix3 b s k := by
      funext d
      match d with
      | ⟨0, _⟩ => rfl
      | ⟨1, _⟩ => rfl
      | ⟨2, _⟩ => rfl
    rw [hi]
    exact expo x0 h0 b s a ha k
  rw [val_main_call0_v7_apply, val_main_call0_cst_1_apply, Ideal.ofBits_def, Ideal.ofBits_zero_f32, zero_add,
    Finset.sum_congr rfl (fun k _ => e k), Cert.LibSums.sum_coe,
    Fin.sum_univ_eq_sum_range (fun j => Real.exp (Cert.Spec.rowOf x0 (b.val * 2048 + s.val) j - a)) 32000]

/-- The logarithm of that sum, broadcast along the row. -/
theorem logsum (k : Fin 32000) :
    val_main_call0_v10 (F := Ideal) x0 (ix3 b s k)
      = ((Real.log (∑ j ∈ Finset.range 32000, Real.exp (Cert.Spec.rowOf x0 (b.val * 2048 + s.val) j - a)) : ℝ) : EReal) := by
  have hi : idx_main_call0_v8 (idx_main_call0_v10 (ix3 b s k)) = ix2 b s := by
    funext d
    match d with
    | ⟨0, _⟩ => rfl
    | ⟨1, _⟩ => rfl
  rw [val_main_call0_v10_apply, val_main_call0_v9_apply, val_main_call0_v8_apply, hi, sumexp x0 h0 b s a ha,
    Ideal.hostUnary_log_def, Ideal.log_coe, if_neg (not_le.2 (sumexp_pos _ a))]

/-- THE LOG-SOFTMAX ENTRY at column k: the entry less the shift less the logarithm of the sum of the shifted
    exponentials. -/
theorem logsoftmax_entry (k : Fin 32000) :
    val_main_v0 (F := Ideal) x0 (ix3 b s k)
      = (((Cert.Spec.rowOf x0 (b.val * 2048 + s.val) k.val - a)
          - Real.log (∑ j ∈ Finset.range 32000, Real.exp (Cert.Spec.rowOf x0 (b.val * 2048 + s.val) j - a)) : ℝ) : EReal) := by
  rw [val_main_v0_apply, centered x0 h0 b s a ha k, logsum x0 h0 b s a ha k, Ideal.subf_def, ← EReal.coe_sub]

end LogSoftmax

/-! ## The start index and its mask -/

section Label

variable (x1 : (⟨S4x2048, .i32⟩ : BufTy).Contents (Elt Ideal)) (h1 : Cert.Spec.InRange x1)
include h1

/-- A label that is a column number is not negative as a signed word, so the wrapped label is the label. -/
theorem wrapped (i : S4x2048x1.Idx) : val_main_call1_v4 (F := Ideal) x1 i = x1 (idx_main_v1 i) := by
  have hlt : (x1 (idx_main_v1 i)).toNat < 32000 := h1 (idx_main_v1 i)
  have hz : IntOp.cmpi .slt (x1 (idx_main_v1 i)) 0#32 = 0#1 := by
    refine eq_zero_of_ne_one (fun h => ?_)
    have h' := (Predicate.slt_iff_toNat (a := x1 (idx_main_v1 i)) (b := 0#32) (by omega) (by decide)).1 h
    exact absurd h' (Nat.not_lt_zero _)
  rw [val_main_call1_v4_apply, val_main_call1_v1_apply, val_main_v1_apply, val_main_call1_v0_apply, val_main_call1_c_apply, hz]
  exact select_zero _ _

/-- The start index at any index of the reshaped array is one of the labels. -/
theorem start_label (i : S4x2048x1x1.Idx) :
    val_main_call1_v5 (F := Ideal) x1 i = x1 (idx_main_v1 (idx_main_call1_v5 i)) := by
  rw [val_main_call1_v5_apply, wrapped x1 h1]

/-- Every start index passes both range tests. -/
theorem in_range_bit (i : S4x2048x1x1.Idx) : val_main_call1_v11 (F := Ideal) x1 i = 1#1 := by
  have hlt : (x1 (idx_main_v1 (idx_main_call1_v5 i))).toNat < 32000 := h1 _
  have hge : IntOp.cmpi .sge (x1 (idx_main_v1 (idx_main_call1_v5 i))) 0#32 = 1#1 :=
    (Predicate.sge_iff_toNat (by omega) (by decide)).2 (Nat.zero_le _)
  have hle : IntOp.cmpi .sle (x1 (idx_main_v1 (idx_main_call1_v5 i))) 31999#32 = 1#1 :=
    (Predicate.sle_iff_toNat (by omega) (by decide)).2 (by
      show (x1 (idx_main_v1 (idx_main_call1_v5 i))).toNat ≤ 31999
      omega)
  rw [val_main_call1_v11_apply, val_main_call1_v7_apply, val_main_call1_v10_apply, start_label x1 h1,
    val_main_call1_v6_apply, val_main_call1_c_2_apply, val_main_call1_v9_apply, val_main_call1_v8_apply,
    val_main_call1_c_1_apply, hge, hle]
  rfl

/-- So the mask, their conjunction over the last axis from 1, is 1. -/
theorem mask_one (j : S4x2048x1.Idx) : val_main_call1_v12 (F := Ideal) x1 j = 1#1 := by
  have hred : S4x2048x1x1.Reduces [3] S4x2048x1 := by decide
  unfold val_main_call1_v12
  refine (Host.reduce_eq_fold_single IntOp.andi (val_main_call1_v11 (F := Ideal) x1) (val_main_call1_c_3 (F := Ideal))
    reducesTo_S4x2048x1x1_S4x2048x1_d3 hred h_S_ j).trans ?_
  rw [val_main_call1_c_3_apply]
  exact fold_andi_one _ _ (fun k => in_range_bit x1 h1 _)

end Label

/-! ## The gather -/

/-- The gather's dimension numbers, by a short name. -/
abbrev gd : GatherDims S4x2048x32000 S4x2048x1x1 S4x2048x1 := gather_S4x2048x32000_S4x2048x1x1_S4x2048x1_n_2_01_01_2_3_111

/-- The operand index the gather reads at result index (b, s, 0): the batch coordinates b and s, and on the row axis the
    start index at (b, s, 0, 0), read signed and clamped into the row. -/
theorem gather_idx (idx : IVec S4x2048x1x1 32) (b : Fin 4) (s : Fin 2048) :
    gd.operandIdx (ix3 b s (0 : Fin 1)) idx
      = ix3 b s (⟨min (idx (ix4 b s (0 : Fin 1) (0 : Fin 1))).toInt.toNat 31999, by omega⟩ : Fin 32000) := by
  funext a
  match a with
  | ⟨0, _⟩ =>
    refine Fin.ext ?_
    show GatherDims.start gd (ix3 b s (0 : Fin 1)) idx (0 : Fin 3) + GatherDims.batchCoord gd (ix3 b s (0 : Fin 1)) (0 : Fin 3)
      + GatherDims.offCoord gd (ix3 b s (0 : Fin 1)) (0 : Fin 3) = b.val
    rw [GatherDims.start_batching _ _ _ _ (by decide), GatherDims.offCoord_eq_zero _ _ _ (by decide), Nat.zero_add, Nat.add_zero]
    rfl
  | ⟨1, _⟩ =>
    refine Fin.ext ?_
    show GatherDims.start gd (ix3 b s (0 : Fin 1)) idx (1 : Fin 3) + GatherDims.batchCoord gd (ix3 b s (0 : Fin 1)) (1 : Fin 3)
      + GatherDims.offCoord gd (ix3 b s (0 : Fin 1)) (1 : Fin 3) = s.val
    rw [GatherDims.start_batching _ _ _ _ (by decide), GatherDims.offCoord_eq_zero _ _ _ (by decide), Nat.zero_add, Nat.add_zero]
    rfl
  | ⟨2, _⟩ =>
    refine Fin.ext ?_
    show GatherDims.start gd (ix3 b s (0 : Fin 1)) idx (2 : Fin 3) + GatherDims.batchCoord gd (ix3 b s (0 : Fin 1)) (2 : Fin 3)
      + GatherDims.offCoord gd (ix3 b s (0 : Fin 1)) (2 : Fin 3) = min (idx (ix4 b s (0 : Fin 1) (0 : Fin 1))).toInt.toNat 31999
    rw [GatherDims.batchCoord_eq_zero _ _ _ (by decide), GatherDims.offCoord_eq_zero _ _ _ (by decide)]
    simp only [Nat.add_zero]
    unfold GatherDims.start
    rw [dif_pos (by decide)]
    have hsi : GatherDims.siIdx gd (ix3 b s (0 : Fin 1))
        ⟨List.idxOf (2 : Fin 3) gd.startIndexMap,
          List.idxOf_lt_length_iff.2 (by decide)⟩ = ix4 b s (0 : Fin 1) (0 : Fin 1) := by
      funext c
      refine Fin.ext ?_
      match c with
      | ⟨0, _⟩ => rfl
      | ⟨1, _⟩ => rfl
      | ⟨2, _⟩ => rfl
      | ⟨3, _⟩ => rfl
    rw [hsi]
    rfl

/-- THE GATHER READ AT (b, s, 0), when the start index there is a column number L: the operand at (b, s, L). -/
theorem gather_at {α : Type} (x : S4x2048x32000.Idx → α) (idx : IVec S4x2048x1x1 32) (b : Fin 4) (s : Fin 2048) (L : Fin 32000)
    (hL : (idx (ix4 b s (0 : Fin 1) (0 : Fin 1))).toNat = L.val) :
    Host.gather gd x idx (ix3 b s (0 : Fin 1)) = x (ix3 b s L) := by
  unfold Host.gather
  rw [gather_idx]
  refine congrArg (fun c : Fin 32000 => x (ix3 b s c)) (Fin.ext ?_)
  have hl := L.isLt
  show min (idx (ix4 b s (0 : Fin 1) (0 : Fin 1))).toInt.toNat 31999 = L.val
  rw [Predicate.toInt_eq_toNat_of_lt (by omega), Int.toNat_natCast, hL]
  omega

/-! ## The reference's value -/

/-- THE REFERENCE'S VALUE: with every logit a real number and every label a column number, the reference's negated pick is,
    at every token, the loss of the token's row at its label over all 32000 columns. -/
theorem ref_loss (x0 : (⟨S4x2048x32000, .f32⟩ : BufTy).Contents (Elt Ideal)) (x1 : (⟨S4x2048, .i32⟩ : BufTy).Contents (Elt Ideal))
    (h0 : Cert.Spec.Finite x0) (h1 : Cert.Spec.InRange x1) :
    val_main_v4 (F := Ideal) x0 x1 = Cert.Spec.Loss x0 x1 := by
  funext i
  obtain ⟨b, s, rfl⟩ : ∃ (b : Fin 4) (s : Fin 2048), i = ix2 b s := ⟨i 0, i 1, eq_ix2 i⟩
  obtain ⟨a, ha⟩ := shift_real x0 h0 b s
  have hb := b.isLt
  have hs := s.isLt
  have hLlt : Cert.Spec.labelOf x1 (b.val * 2048 + s.val) < 32000 := Cert.Spec.labelOf_lt x1 h1 _
  -- the reshape reads (b, s, 0)
  have hi3 : idx_main_v3 (ix2 b s) = ix3 b s (0 : Fin 1) := by
    funext d
    refine Fin.ext ?_
    match d with
    | ⟨0, _⟩ => show (b.val * 2048 + s.val) / 2048 = b.val; omega
    | ⟨1, _⟩ => show (b.val * 2048 + s.val) / 1 % 2048 = s.val; omega
    | ⟨2, _⟩ => rfl
  -- the start index at (b, s, 0, 0) is the token's label
  have hi4 : idx_main_v1 (idx_main_call1_v5 (ix4 b s (0 : Fin 1) (0 : Fin 1))) = ix2 b s := by
    funext d
    refine Fin.ext ?_
    match d with
    | ⟨0, _⟩ => show (((b.val * 2048 + s.val) * 1 + 0) * 1 + 0) / 2048 = b.val; omega
    | ⟨1, _⟩ => show (((b.val * 2048 + s.val) * 1 + 0) * 1 + 0) / 1 % 2048 = s.val; omega
  have hstart : (val_main_call1_v5 (F := Ideal) x1 (ix4 b s (0 : Fin 1) (0 : Fin 1))).toNat
      = (⟨Cert.Spec.labelOf x1 (b.val * 2048 + s.val), hLlt⟩ : Fin 32000).val := by
    rw [start_label x1 h1, hi4]
    exact Cert.Spec.label_eq x1 b s
  have hpick : val_main_call1_v13 (F := Ideal) x0 x1 (ix3 b s (0 : Fin 1))
      = val_main_v0 (F := Ideal) x0 (ix3 b s ⟨Cert.Spec.labelOf x1 (b.val * 2048 + s.val), hLlt⟩) :=
    gather_at (val_main_v0 (F := Ideal) x0) (val_main_call1_v5 (F := Ideal) x1) b s _ hstart
  rw [val_main_v4_apply, val_main_v3_apply, hi3, val_main_v2_apply, mask_one x1 h1, select_one, hpick,
    logsoftmax_entry x0 h0 b s a ha, Ideal.hostNegf_def, Ideal.negf_def, ← EReal.coe_neg]
  show _ = ((Cert.LseReal.loss (Cert.Spec.rowOf x0 (b.val * 2048 + s.val)) (Cert.Spec.labelOf x1 (b.val * 2048 + s.val)) 32000 : ℝ) : EReal)
  exact congrArg _ (Cert.LseReal.shifted_eq_loss _ _ 32000 (by decide) a)

end Cert.RefValue

end
-- ==== Proof.RefStage1.lean ====
/-
  The reference's first stretch: the log-softmax.

  Operations 1 to 15 of the reference's line take the logits x and compute, in turn: the row maximum folded from -∞,
  once more against a broadcast -∞, broadcast back along the row; the entries less it; their exponentials; the row sums
  from 0; their logarithm, broadcast back along the row; and the difference of the two. From ANY starting contents W
  they leave, in the log-softmax array's buffer, the stage function of W's logits, and they write no argument's buffer.
  Each operation moves its operands' contents from the buffers' own types to the tensor types and its result back; a
  result read by the next operation meets the two moves as a pair, which is the identity.
-/
import proofs.«419041_j51728586113630_3_alg».proof.Proof.RefRead
import Idealize.ShloMosaic.Lib.StableHlo.Run

noncomputable section

namespace Cert.RefStage1

open Cert.ReferenceIdeal Cert.ReferenceIdeal.Gen Cert.ReferenceIdeal.Value Idealize.ShloMosaic Idealize.ShloMosaic.TcCoe Idealize.SL.Sem
  Idealize.ShloMosaic.StableHlo

variable {F : FTy → Type} [FloatOps F]

/-- A value moved to an equal type and back is itself. -/
theorem cast_pair {α β : Type} (h : α = β) (h' : β = α) (v : α) : cast h' (cast h v) = v := by subst h; rfl

/-- Operations 1 to 15: the log-softmax of the logits. -/
abbrev ops1 : List (HloOp τ sig (Elt F)) :=
  [ TRef.nullary (TRef.of (T := ⟨S_, .f32⟩) main_call0_cst) (constant S_ .f32 0xFF800000#32),
    TRef.binary (TRef.of (T := ⟨S4x2048x32000, .f32⟩) main_arg0) (TRef.of (T := ⟨S_, .f32⟩) main_call0_cst) (TRef.of (T := ⟨S4x2048, .f32⟩) main_call0_v0) (fun x v => Host.reduce FloatOps.maximumf x v reducesTo_S4x2048x32000_S4x2048_d2 h_S_),
    TRef.nullary (TRef.of (T := ⟨S_, .f32⟩) main_call0_cst_0) (constant S_ .f32 0xFF800000#32),
    TRef.unary (TRef.of (T := ⟨S_, .f32⟩) main_call0_cst_0) (TRef.of (T := ⟨S4x2048, .f32⟩) main_call0_v1) (broadcastInDim S4x2048 ![] bcast_S_S4x2048),
    TRef.binary (TRef.of (T := ⟨S4x2048, .f32⟩) main_call0_v1) (TRef.of (T := ⟨S4x2048, .f32⟩) main_call0_v0) (TRef.of (T := ⟨S4x2048, .f32⟩) main_call0_v2) maximumf,
    TRef.unary (TRef.of (T := ⟨S4x2048, .f32⟩) main_call0_v2) (TRef.of (T := ⟨S4x2048x1, .f32⟩) main_call0_v3) (broadcastInDim S4x2048x1 ![0, 1] bcast_S4x2048_S4x2048x1_0_1),
    TRef.unary (TRef.of (T := ⟨S4x2048x1, .f32⟩) main_call0_v3) (TRef.of (T := ⟨S4x2048x32000, .f32⟩) main_call0_v4) (broadcastInDim S4x2048x32000 ![0, 1, 2] bcast_S4x2048x1_S4x2048x32000_0_1_2),
    TRef.binary (TRef.of (T := ⟨S4x2048x32000, .f32⟩) main_arg0) (TRef.of (T := ⟨S4x2048x32000, .f32⟩) main_call0_v4) (TRef.of (T := ⟨S4x2048x32000, .f32⟩) main_call0_v5) subf,
    TRef.unary (TRef.of (T := ⟨S4x2048x32000, .f32⟩) main_call0_v5) (TRef.of (T := ⟨S4x2048x32000, .f32⟩) main_call0_v6) Host.exp,
    TRef.nullary (TRef.of (T := ⟨S_, .f32⟩) main_call0_cst_1) (constant S_ .f32 0x00000000#32),
    TRef.binary (TRef.of (T := ⟨S4x2048x32000, .f32⟩) main_call0_v6) (TRef.of (T := ⟨S_, .f32⟩) main_call0_cst_1) (TRef.of (T := ⟨S4x2048, .f32⟩) main_call0_v7) (fun x v => Host.reduceAdd x v reducesTo_S4x2048x32000_S4x2048_d2 h_S_),
    TRef.unary (TRef.of (T := ⟨S4x2048, .f32⟩) main_call0_v7) (TRef.of (T := ⟨S4x2048x1, .f32⟩) main_call0_v8) (broadcastInDim S4x2048x1 ![0, 1] bcast_S4x2048_S4x2048x1_0_1),
    TRef.unary (TRef.of (T := ⟨S4x2048x1, .f32⟩) main_call0_v8) (TRef.of (T := ⟨S4x2048x1, .f32⟩) main_call0_v9) Host.log,
    TRef.unary (TRef.of (T := ⟨S4x2048x1, .f32⟩) main_call0_v9) (TRef.of (T := ⟨S4x2048x32000, .f32⟩) main_call0_v10) (broadcastInDim S4x2048x32000 ![0, 1, 2] bcast_S4x2048x1_S4x2048x32000_0_1_2),
    TRef.binary (TRef.of (T := ⟨S4x2048x32000, .f32⟩) main_call0_v5) (TRef.of (T := ⟨S4x2048x32000, .f32⟩) main_call0_v10) (TRef.of (T := ⟨S4x2048x32000, .f32⟩) main_v0) subf ]

/-- The stretch leaves the log-softmax array: the stage function of the logits' contents. -/
theorem out (W : Valuation τ sig (Elt F)) :
    after ops1 W (Proc.devRef .tc main_v0) = Cert.ReferenceIdeal.Read.val_main_v0 (F := F) (W (Proc.devRef .tc main_arg0)) := by
  simp only [ops1]
  after_results
  simp only [TRef.ofBuf, TRef.toBuf, cast_pair]
  simp only [cast_eq]
  unfold Read.val_main_v0 Read.val_main_call0_v10 Read.val_main_call0_v9 Read.val_main_call0_v8 Read.val_main_call0_v7 Read.val_main_call0_cst_1 Read.val_main_call0_v6 Read.val_main_call0_v5 Read.val_main_call0_v4 Read.val_main_call0_v3 Read.val_main_call0_v2 Read.val_main_call0_v1 Read.val_main_call0_v0 Read.val_main_call0_cst_0 Read.val_main_call0_cst
  with_reducible rfl

/-- It does not write the logits' buffer. -/
theorem keep0 (W : Valuation τ sig (Elt F)) : after ops1 W (Proc.devRef .tc main_arg0) = W (Proc.devRef .tc main_arg0) := by
  simp only [ops1]
  after_results

/-- It does not write the labels' buffer. -/
theorem keep1 (W : Valuation τ sig (Elt F)) : after ops1 W (Proc.devRef .tc main_arg1) = W (Proc.devRef .tc main_arg1) := by
  simp only [ops1]
  after_results

/-- It does not write the mask's buffer. -/
theorem keep2 (W : Valuation τ sig (Elt F)) : after ops1 W (Proc.devRef .tc main_arg2) = W (Proc.devRef .tc main_arg2) := by
  simp only [ops1]
  after_results

/-- It does not write the domains' buffer. -/
theorem keep3 (W : Valuation τ sig (Elt F)) : after ops1 W (Proc.devRef .tc main_arg3) = W (Proc.devRef .tc main_arg3) := by
  simp only [ops1]
  after_results

end Cert.RefStage1

end
-- ==== Proof.RefStage2.lean ====
/-
  The reference's second stretch: from the log-softmax array and the labels to the per-token losses.

  Operations 16 to 40 of the reference. The labels are laid out as a [4, 2048, 1] column; a negative label is moved
  up by 32000 (jnp's wrap-around), the column is reshaped to [4, 2048, 1, 1] start indices; the two range tests
  0 ≤ index and index ≤ 31999 are conjoined into a mask; the log-softmax array is gathered at the start indices
  along its last axis; where the mask fails the gathered entry is replaced by the fill value; the [4, 2048, 1]
  result is reshaped to [4, 2048] and negated. The stretch is taken in five pieces, cut at the two reshapes, each
  from arbitrary starting contents: the index column; its reshape; the masked pick `pickOf` as a function of the
  log-softmax array's contents and of the start indices; the second reshape; the negation. Chained, they say the
  stretch leaves `takeNeg` of the log-softmax array's contents and the labels' contents, which is the read module's
  per-token loss stage with its log-softmax stage abstracted.
-/
import proofs.«419041_j51728586113630_3_alg».proof.Proof.RefRead
import Idealize.ShloMosaic.Lib.Pipeline.Frame
import Idealize.ShloMosaic.Lib.StableHlo.Run

noncomputable section

namespace Cert.RefStage2

open Cert.ReferenceIdeal Cert.ReferenceIdeal.Gen Cert.ReferenceIdeal.Value Idealize.ShloMosaic Idealize.ShloMosaic.TcCoe Idealize.SL.Sem
  Idealize.ShloMosaic.StableHlo

variable {F : FTy → Type} [FloatOps F]

/-- A value moved along an equality of types and back is the value. -/
theorem cast_pair {α β : Type} (h : α = β) (h' : β = α) (v : α) : cast h' (cast h v) = v := by subst h; rfl

/-- Operations 16 to 40. -/
abbrev ops2 : List (HloOp τ sig (Elt F)) :=
  [ unary main_arg1 main_v1 (broadcastInDim S4x2048x1 ![0, 1] bcast_S4x2048_S4x2048x1_0_1 : (⟨S4x2048, .i32⟩ : BufTy).Contents (Elt F) → (⟨S4x2048x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S4x2048x1, .i32⟩) main_call1_v0) (broadcastInDim S4x2048x1 ![] bcast_S_S4x2048x1),
    TRef.binary (TRef.of (T := ⟨S4x2048x1, .i32⟩) main_v1) (TRef.of (T := ⟨S4x2048x1, .i32⟩) main_call1_v0) (TRef.of (T := ⟨S4x2048x1, .i1⟩) main_call1_v1) (cmpi .slt),
    TRef.nullary (TRef.of (T := ⟨S_, .i32⟩) main_call1_c_0) (constantI S_ 32 32000#32),
    TRef.unary (TRef.of (T := ⟨S_, .i32⟩) main_call1_c_0) (TRef.of (T := ⟨S4x2048x1, .i32⟩) main_call1_v2) (broadcastInDim S4x2048x1 ![] bcast_S_S4x2048x1),
    TRef.binary (TRef.of (T := ⟨S4x2048x1, .i32⟩) main_v1) (TRef.of (T := ⟨S4x2048x1, .i32⟩) main_call1_v2) (TRef.of (T := ⟨S4x2048x1, .i32⟩) main_call1_v3) addi,
    TRef.ternary (TRef.of (T := ⟨S4x2048x1, .i1⟩) main_call1_v1) (TRef.of (T := ⟨S4x2048x1, .i32⟩) main_call1_v3) (TRef.of (T := ⟨S4x2048x1, .i32⟩) main_v1) (TRef.of (T := ⟨S4x2048x1, .i32⟩) main_call1_v4) select,
    TRef.reshape (TRef.of (T := ⟨S4x2048x1, .i32⟩) main_call1_v4) (TRef.of (T := ⟨S4x2048x1x1, .i32⟩) main_call1_v5) rfl shapeCasts_S4x2048x1_S4x2048x1x1,
    TRef.nullary (TRef.of (T := ⟨S1, .i32⟩) main_call1_c_1) (constantI S1 32 31999#32),
    TRef.nullary (TRef.of (T := ⟨S_, .i32⟩) main_call1_c_2) (constantI S_ 32 0#32),
    TRef.unary (TRef.of (T := ⟨S_, .i32⟩) main_call1_c_2) (TRef.of (T := ⟨S4x2048x1x1, .i32⟩) main_call1_v6) (broadcastInDim S4x2048x1x1 ![] bcast_S_S4x2048x1x1),
    TRef.binary (TRef.of (T := ⟨S4x2048x1x1, .i32⟩) main_call1_v5) (TRef.of (T := ⟨S4x2048x1x1, .i32⟩) main_call1_v6) (TRef.of (T := ⟨S4x2048x1x1, .i1⟩) main_call1_v7) (cmpi .sge),
    TRef.unary (TRef.of (T := ⟨S1, .i32⟩) main_call1_c_1) (TRef.of (T := ⟨S1x1x1x1, .i32⟩) main_call1_v8) (broadcastInDim S1x1x1x1 ![3] bcast_S1_S1x1x1x1_3),
    TRef.unary (TRef.of (T := ⟨S1x1x1x1, .i32⟩) main_call1_v8) (TRef.of (T := ⟨S4x2048x1x1, .i32⟩) main_call1_v9) (broadcastInDim S4x2048x1x1 ![0, 1, 2, 3] bcast_S1x1x1x1_S4x2048x1x1_0_1_2_3),
    TRef.binary (TRef.of (T := ⟨S4x2048x1x1, .i32⟩) main_call1_v5) (TRef.of (T := ⟨S4x2048x1x1, .i32⟩) main_call1_v9) (TRef.of (T := ⟨S4x2048x1x1, .i1⟩) main_call1_v10) (cmpi .sle),
    TRef.binary (TRef.of (T := ⟨S4x2048x1x1, .i1⟩) main_call1_v7) (TRef.of (T := ⟨S4x2048x1x1, .i1⟩) main_call1_v10) (TRef.of (T := ⟨S4x2048x1x1, .i1⟩) main_call1_v11) andi,
    TRef.nullary (TRef.of (T := ⟨S_, .i1⟩) main_call1_c_3) (constantI S_ 1 1#1),
    TRef.binary (TRef.of (T := ⟨S4x2048x1x1, .i1⟩) main_call1_v11) (TRef.of (T := ⟨S_, .i1⟩) main_call1_c_3) (TRef.of (T := ⟨S4x2048x1, .i1⟩) main_call1_v12) (fun x v => Host.reduce IntOp.andi x v reducesTo_S4x2048x1x1_S4x2048x1_d3 h_S_),
    TRef.binary (TRef.of (T := ⟨S4x2048x32000, .f32⟩) main_v0) (TRef.of (T := ⟨S4x2048x1x1, .i32⟩) main_call1_v5) (TRef.of (T := ⟨S4x2048x1, .f32⟩) main_call1_v13) (fun x i => Host.gather gather_S4x2048x32000_S4x2048x1x1_S4x2048x1_n_2_01_01_2_3_111 x i),
    TRef.nullary (TRef.of (T := ⟨S_, .f32⟩) main_call1_cst) (constant S_ .f32 0x7FC00000#32),
    TRef.unary (TRef.of (T := ⟨S_, .f32⟩) main_call1_cst) (TRef.of (T := ⟨S4x2048x1, .f32⟩) main_call1_v14) (broadcastInDim S4x2048x1 ![] bcast_S_S4x2048x1),
    TRef.ternary (TRef.of (T := ⟨S4x2048x1, .i1⟩) main_call1_v12) (TRef.of (T := ⟨S4x2048x1, .f32⟩) main_call1_v13) (TRef.of (T := ⟨S4x2048x1, .f32⟩) main_call1_v14) (TRef.of (T := ⟨S4x2048x1, .f32⟩) main_v2) select,
    reshape main_v2 main_v3 rfl shapeCasts_S4x2048x1_S4x2048,
    unary main_v3 main_v4 (Host.negf : (⟨S4x2048, .f32⟩ : BufTy).Contents (Elt F) → (⟨S4x2048, .f32⟩ : BufTy).Contents (Elt F)) ]

/-- Operations 16 to 23: the label column, moved into range. -/
abbrev ops2a : List (HloOp τ sig (Elt F)) :=
  [ unary main_arg1 main_v1 (broadcastInDim S4x2048x1 ![0, 1] bcast_S4x2048_S4x2048x1_0_1 : (⟨S4x2048, .i32⟩ : BufTy).Contents (Elt F) → (⟨S4x2048x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S4x2048x1, .i32⟩) main_call1_v0) (broadcastInDim S4x2048x1 ![] bcast_S_S4x2048x1),
    TRef.binary (TRef.of (T := ⟨S4x2048x1, .i32⟩) main_v1) (TRef.of (T := ⟨S4x2048x1, .i32⟩) main_call1_v0) (TRef.of (T := ⟨S4x2048x1, .i1⟩) main_call1_v1) (cmpi .slt),
    TRef.nullary (TRef.of (T := ⟨S_, .i32⟩) main_call1_c_0) (constantI S_ 32 32000#32),
    TRef.unary (TRef.of (T := ⟨S_, .i32⟩) main_call1_c_0) (TRef.of (T := ⟨S4x2048x1, .i32⟩) main_call1_v2) (broadcastInDim S4x2048x1 ![] bcast_S_S4x2048x1),
    TRef.binary (TRef.of (T := ⟨S4x2048x1, .i32⟩) main_v1) (TRef.of (T := ⟨S4x2048x1, .i32⟩) main_call1_v2) (TRef.of (T := ⟨S4x2048x1, .i32⟩) main_call1_v3) addi,
    TRef.ternary (TRef.of (T := ⟨S4x2048x1, .i1⟩) main_call1_v1) (TRef.of (T := ⟨S4x2048x1, .i32⟩) main_call1_v3) (TRef.of (T := ⟨S4x2048x1, .i32⟩) main_v1) (TRef.of (T := ⟨S4x2048x1, .i32⟩) main_call1_v4) select ]
/-- Operation 24: the column reshaped to start indices. -/
abbrev ops2b : List (HloOp τ sig (Elt F)) :=
  [ TRef.reshape (TRef.of (T := ⟨S4x2048x1, .i32⟩) main_call1_v4) (TRef.of (T := ⟨S4x2048x1x1, .i32⟩) main_call1_v5) rfl shapeCasts_S4x2048x1_S4x2048x1x1 ]
/-- Operations 25 to 38: the range mask, the gather, the fill, the select. -/
abbrev ops2c : List (HloOp τ sig (Elt F)) :=
  [ TRef.nullary (TRef.of (T := ⟨S1, .i32⟩) main_call1_c_1) (constantI S1 32 31999#32),
    TRef.nullary (TRef.of (T := ⟨S_, .i32⟩) main_call1_c_2) (constantI S_ 32 0#32),
    TRef.unary (TRef.of (T := ⟨S_, .i32⟩) main_call1_c_2) (TRef.of (T := ⟨S4x2048x1x1, .i32⟩) main_call1_v6) (broadcastInDim S4x2048x1x1 ![] bcast_S_S4x2048x1x1),
    TRef.binary (TRef.of (T := ⟨S4x2048x1x1, .i32⟩) main_call1_v5) (TRef.of (T := ⟨S4x2048x1x1, .i32⟩) main_call1_v6) (TRef.of (T := ⟨S4x2048x1x1, .i1⟩) main_call1_v7) (cmpi .sge),
    TRef.unary (TRef.of (T := ⟨S1, .i32⟩) main_call1_c_1) (TRef.of (T := ⟨S1x1x1x1, .i32⟩) main_call1_v8) (broadcastInDim S1x1x1x1 ![3] bcast_S1_S1x1x1x1_3),
    TRef.unary (TRef.of (T := ⟨S1x1x1x1, .i32⟩) main_call1_v8) (TRef.of (T := ⟨S4x2048x1x1, .i32⟩) main_call1_v9) (broadcastInDim S4x2048x1x1 ![0, 1, 2, 3] bcast_S1x1x1x1_S4x2048x1x1_0_1_2_3),
    TRef.binary (TRef.of (T := ⟨S4x2048x1x1, .i32⟩) main_call1_v5) (TRef.of (T := ⟨S4x2048x1x1, .i32⟩) main_call1_v9) (TRef.of (T := ⟨S4x2048x1x1, .i1⟩) main_call1_v10) (cmpi .sle),
    TRef.binary (TRef.of (T := ⟨S4x2048x1x1, .i1⟩) main_call1_v7) (TRef.of (T := ⟨S4x2048x1x1, .i1⟩) main_call1_v10) (TRef.of (T := ⟨S4x2048x1x1, .i1⟩) main_call1_v11) andi,
    TRef.nullary (TRef.of (T := ⟨S_, .i1⟩) main_call1_c_3) (constantI S_ 1 1#1),
    TRef.binary (TRef.of (T := ⟨S4x2048x1x1, .i1⟩) main_call1_v11) (TRef.of (T := ⟨S_, .i1⟩) main_call1_c_3) (TRef.of (T := ⟨S4x2048x1, .i1⟩) main_call1_v12) (fun x v => Host.reduce IntOp.andi x v reducesTo_S4x2048x1x1_S4x2048x1_d3 h_S_),
    TRef.binary (TRef.of (T := ⟨S4x2048x32000, .f32⟩) main_v0) (TRef.of (T := ⟨S4x2048x1x1, .i32⟩) main_call1_v5) (TRef.of (T := ⟨S4x2048x1, .f32⟩) main_call1_v13) (fun x i => Host.gather gather_S4x2048x32000_S4x2048x1x1_S4x2048x1_n_2_01_01_2_3_111 x i),
    TRef.nullary (TRef.of (T := ⟨S_, .f32⟩) main_call1_cst) (constant S_ .f32 0x7FC00000#32),
    TRef.unary (TRef.of (T := ⟨S_, .f32⟩) main_call1_cst) (TRef.of (T := ⟨S4x2048x1, .f32⟩) main_call1_v14) (broadcastInDim S4x2048x1 ![] bcast_S_S4x2048x1),
    TRef.ternary (TRef.of (T := ⟨S4x2048x1, .i1⟩) main_call1_v12) (TRef.of (T := ⟨S4x2048x1, .f32⟩) main_call1_v13) (TRef.of (T := ⟨S4x2048x1, .f32⟩) main_call1_v14) (TRef.of (T := ⟨S4x2048x1, .f32⟩) main_v2) select ]
/-- Operation 39: the picked column reshaped to [4, 2048]. -/
abbrev ops2d : List (HloOp τ sig (Elt F)) :=
  [ reshape main_v2 main_v3 rfl shapeCasts_S4x2048x1_S4x2048 ]
/-- Operation 40: the negation. -/
abbrev ops2e : List (HloOp τ sig (Elt F)) :=
  [ unary main_v3 main_v4 (Host.negf : (⟨S4x2048, .f32⟩ : BufTy).Contents (Elt F) → (⟨S4x2048, .f32⟩ : BufTy).Contents (Elt F)) ]

/-- The stretch is its five pieces in a row. -/
theorem ops2_cut : (ops2 : List (HloOp τ sig (Elt F))) = ops2a ++ (ops2b ++ (ops2c ++ (ops2d ++ ops2e))) := rfl

/-- The per-token loss from the log-softmax array and the labels: gather at the label, masked, reshaped, negated. -/
def takeNeg (y0 : (⟨S4x2048x32000, .f32⟩ : BufTy).Contents (Elt F)) (x1 : (⟨S4x2048, .i32⟩ : BufTy).Contents (Elt F)) :
    (⟨S4x2048, .f32⟩ : BufTy).Contents (Elt F) :=
  Host.negf (shapeCast _ (select (Read.val_main_call1_v12 (F := F) x1)
    (Host.gather gather_S4x2048x32000_S4x2048x1x1_S4x2048x1_n_2_01_01_2_3_111 y0 (Read.val_main_call1_v5 (F := F) x1))
    (Read.val_main_call1_v14 (F := F))) shapeCasts_S4x2048x1_S4x2048)

/-- The masked pick as a function of the log-softmax array y0 and the start indices v5. -/
def pickOf (y0 : (⟨S4x2048x32000, .f32⟩ : BufTy).Contents (Elt F)) (v5 : (⟨S4x2048x1x1, .i32⟩ : BufTy).Contents (Elt F)) :
    (⟨S4x2048x1, .f32⟩ : BufTy).Contents (Elt F) :=
  select (Host.reduce IntOp.andi (andi (cmpi .sge v5 (Read.val_main_call1_v6 (F := F))) (cmpi .sle v5 (Read.val_main_call1_v9 (F := F))))
      (Read.val_main_call1_c_3 (F := F)) reducesTo_S4x2048x1x1_S4x2048x1_d3 h_S_)
    (Host.gather gather_S4x2048x32000_S4x2048x1x1_S4x2048x1_n_2_01_01_2_3_111 y0 v5) (Read.val_main_call1_v14 (F := F))

set_option maxHeartbeats 400000 in
/-- The first piece leaves the index column, the read module's stage of the labels' contents. -/
theorem a_out (W : Valuation τ sig (Elt F)) :
    after ops2a W (Proc.devRef .tc main_call1_v4) = Read.val_main_call1_v4 (F := F) (W (Proc.devRef .tc main_arg1)) := by
  simp only [ops2a]
  after_results
  simp only [TRef.ofBuf, TRef.toBuf, cast_pair]
  simp only [cast_eq]
  unfold Read.val_main_call1_v4 Read.val_main_call1_v3 Read.val_main_call1_v2 Read.val_main_call1_c_0 Read.val_main_call1_v1 Read.val_main_call1_v0 Read.val_main_call1_c Read.val_main_v1
  with_reducible rfl

/-- The first piece does not write the log-softmax array. -/
theorem a_keep (W : Valuation τ sig (Elt F)) : after ops2a W (Proc.devRef .tc main_v0) = W (Proc.devRef .tc main_v0) := by
  simp only [ops2a]
  after_results

/-- The second piece leaves the index column reshaped. -/
theorem b_out (W : Valuation τ sig (Elt F)) :
    after ops2b W (Proc.devRef .tc main_call1_v5)
      = (shapeCast _ (W (Proc.devRef .tc main_call1_v4)) shapeCasts_S4x2048x1_S4x2048x1x1 : (⟨S4x2048x1x1, .i32⟩ : BufTy).Contents (Elt F)) := by
  simp only [ops2b]
  after_results
  rfl

/-- The second piece does not write the log-softmax array. -/
theorem b_keep (W : Valuation τ sig (Elt F)) : after ops2b W (Proc.devRef .tc main_v0) = W (Proc.devRef .tc main_v0) := by
  simp only [ops2b]
  after_results

set_option maxHeartbeats 400000 in
/-- The third piece leaves the masked pick of the log-softmax array's contents at the start indices' contents. -/
theorem c_out (W : Valuation τ sig (Elt F)) :
    after ops2c W (Proc.devRef .tc main_v2) = pickOf (W (Proc.devRef .tc main_v0)) (W (Proc.devRef .tc main_call1_v5)) := by
  simp only [ops2c]
  after_results
  simp only [TRef.ofBuf, TRef.toBuf, cast_pair]
  simp only [cast_eq]
  unfold pickOf Read.val_main_call1_v14 Read.val_main_call1_cst Read.val_main_call1_c_3 Read.val_main_call1_v9 Read.val_main_call1_v8 Read.val_main_call1_c_1 Read.val_main_call1_v6 Read.val_main_call1_c_2
  with_reducible rfl

/-- The fourth piece leaves the picked column reshaped. -/
theorem d_out (W : Valuation τ sig (Elt F)) :
    after ops2d W (Proc.devRef .tc main_v3)
      = (shapeCast _ (W (Proc.devRef .tc main_v2)) shapeCasts_S4x2048x1_S4x2048 : (⟨S4x2048, .f32⟩ : BufTy).Contents (Elt F)) := by
  simp only [ops2d]
  after_results
  rfl

/-- The fifth piece leaves the negation. -/
theorem e_out (W : Valuation τ sig (Elt F)) :
    after ops2e W (Proc.devRef .tc main_v4) = (Host.negf (W (Proc.devRef .tc main_v3)) : (⟨S4x2048, .f32⟩ : BufTy).Contents (Elt F)) := by
  simp only [ops2e]
  after_results

/-- So the fold over the stretch is the fold over the pieces in turn. -/
theorem after_ops2 (W : Valuation τ sig (Elt F)) :
    after ops2 W = after ops2e (after ops2d (after ops2c (after ops2b (after ops2a W)))) := by
  rw [ops2_cut, after_append, after_append, after_append, after_append]

/-- The per-token loss is the negated, reshaped masked pick at the reshaped index column. -/
theorem takeNeg_eq (y0 : (⟨S4x2048x32000, .f32⟩ : BufTy).Contents (Elt F)) (x1 : (⟨S4x2048, .i32⟩ : BufTy).Contents (Elt F)) :
    takeNeg y0 x1 = Host.negf (shapeCast _ (pickOf y0 (shapeCast _ (Read.val_main_call1_v4 (F := F) x1) shapeCasts_S4x2048x1_S4x2048x1x1))
      shapeCasts_S4x2048x1_S4x2048) := by
  unfold takeNeg pickOf Read.val_main_call1_v12 Read.val_main_call1_v11 Read.val_main_call1_v7 Read.val_main_call1_v10 Read.val_main_call1_v5
  with_reducible rfl

/-- The stretch leaves the per-token losses of the log-softmax array's contents and the labels' contents. -/
theorem out (W : Valuation τ sig (Elt F)) :
    after ops2 W (Proc.devRef .tc main_v4) = takeNeg (W (Proc.devRef .tc main_v0)) (W (Proc.devRef .tc main_arg1)) := by
  rw [after_ops2, e_out, d_out, c_out, b_keep, a_keep, b_out, a_out, takeNeg_eq]

/-- The read module's per-token loss stage is `takeNeg` of its log-softmax stage. -/
theorem v4_eq (x0 : (⟨S4x2048x32000, .f32⟩ : BufTy).Contents (Elt F)) (x1 : (⟨S4x2048, .i32⟩ : BufTy).Contents (Elt F)) :
    Read.val_main_v4 (F := F) x0 x1 = takeNeg (Read.val_main_v0 (F := F) x0) x1 := by
  unfold takeNeg Read.val_main_v4 Read.val_main_v3 Read.val_main_v2 Read.val_main_call1_v13
  with_reducible rfl

set_option maxHeartbeats 4000000 in
/-- The stretch does not write argument 0. -/
theorem keep0 (W : Valuation τ sig (Elt F)) : after ops2 W (Proc.devRef .tc main_arg0) = W (Proc.devRef .tc main_arg0) := by
  simp only [ops2]
  after_results

set_option maxHeartbeats 4000000 in
/-- The stretch does not write argument 1. -/
theorem keep1 (W : Valuation τ sig (Elt F)) : after ops2 W (Proc.devRef .tc main_arg1) = W (Proc.devRef .tc main_arg1) := by
  simp only [ops2]
  after_results

set_option maxHeartbeats 4000000 in
/-- The stretch does not write argument 2. -/
theorem keep2 (W : Valuation τ sig (Elt F)) : after ops2 W (Proc.devRef .tc main_arg2) = W (Proc.devRef .tc main_arg2) := by
  simp only [ops2]
  after_results

set_option maxHeartbeats 4000000 in
/-- The stretch does not write argument 3. -/
theorem keep3 (W : Valuation τ sig (Elt F)) : after ops2 W (Proc.devRef .tc main_arg3) = W (Proc.devRef .tc main_arg3) := by
  simp only [ops2]
  after_results

end Cert.RefStage2

end
-- ==== Proof.RefStage3.lean ====
/-
  The last stretch of the reference program's host operations: the 45 operations that follow the per-token losses.

  From the per-token losses v = -(picked log-probability), held in main_v4, and the mask and domain arguments, they compute
  the three results: the masked mean (∑ v · mask) / (∑ mask) in main_v9 (operations 1–7 of the stretch: the mask as
  floats, the product, the two sums, the quotient); the per-domain sums of the per-sample losses ∑ₛ v[b, s], scattered
  by domain and divided by the domain's token count where it is positive, else 0, in main_v32 (the row sums, the scatter,
  the clamped and wrapped domain index, the counts times 2048 as floats, the comparison, the maximum with 1, the quotient,
  the select); and the per-domain sample counts in main_v23. Each result of the stretch, run from any contents W whose
  main_v4 holds the per-token losses, is the read module's stage of that name; the four arguments keep their contents.
-/
import proofs.«419041_j51728586113630_3_alg».proof.Proof.RefRead
import Idealize.ShloMosaic.Lib.StableHlo.Run

noncomputable section

namespace Cert.RefStage3

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-- Operations 41–85 of the reference's @main, in order. -/
abbrev ops3 : List (HloOp τ sig (Elt F)) :=
  [ unary main_arg2 main_v5 (uitofp (F := F) .f32 : (⟨S4x2048, .i1⟩ : BufTy).Contents (Elt F) → (⟨S4x2048, .f32⟩ : BufTy).Contents (Elt F)),
    binary main_v4 main_v5 main_v6 (mulf : (⟨S4x2048, .f32⟩ : BufTy).Contents (Elt F) → (⟨S4x2048, .f32⟩ : BufTy).Contents (Elt F) → (⟨S4x2048, .f32⟩ : BufTy).Contents (Elt F)),
    nullary main_cst (constant S_ .f32 0x00000000#32),
    binary main_v6 main_cst main_v7 ((fun x v => Host.reduceAdd x v reducesTo_S4x2048_S_d0_1 h_S_) : (⟨S4x2048, .f32⟩ : BufTy).Contents (Elt F) → (⟨S_, .f32⟩ : BufTy).Contents (Elt F) → (⟨S_, .f32⟩ : BufTy).Contents (Elt F)),
    nullary main_cst_0 (constant S_ .f32 0x00000000#32),
    binary main_v5 main_cst_0 main_v8 ((fun x v => Host.reduceAdd x v reducesTo_S4x2048_S_d0_1 h_S_) : (⟨S4x2048, .f32⟩ : BufTy).Contents (Elt F) → (⟨S_, .f32⟩ : BufTy).Contents (Elt F) → (⟨S_, .f32⟩ : BufTy).Contents (Elt F)),
    binary main_v7 main_v8 main_v9 (Host.divf : (⟨S_, .f32⟩ : BufTy).Contents (Elt F) → (⟨S_, .f32⟩ : BufTy).Contents (Elt F) → (⟨S_, .f32⟩ : BufTy).Contents (Elt F)),
    nullary main_cst_1 (constant S_ .f32 0x00000000#32),
    binary main_v4 main_cst_1 main_v10 ((fun x v => Host.reduceAdd x v reducesTo_S4x2048_S4_d1 h_S_) : (⟨S4x2048, .f32⟩ : BufTy).Contents (Elt F) → (⟨S_, .f32⟩ : BufTy).Contents (Elt F) → (⟨S4, .f32⟩ : BufTy).Contents (Elt F)),
    nullary main_cst_2 (constant S_ .f32 0x00000000#32),
    unary main_cst_2 main_v11 (broadcastInDim S8 ![] bcast_S_S8 : (⟨S_, .f32⟩ : BufTy).Contents (Elt F) → (⟨S8, .f32⟩ : BufTy).Contents (Elt F)),
    unary main_arg3 main_v12 (broadcastInDim S4x1 ![0] bcast_S4_S4x1_0 : (⟨S4, .i32⟩ : BufTy).Contents (Elt F) → (⟨S4x1, .i32⟩ : BufTy).Contents (Elt F)),
    ternary main_v11 main_v12 main_v10 main_v13 ((fun x i u => Host.scatterAdd scatter_S8_S4x1_S4_n_0_0_1 x i u) : (⟨S8, .f32⟩ : BufTy).Contents (Elt F) → (⟨S4x1, .i32⟩ : BufTy).Contents (Elt F) → (⟨S4, .f32⟩ : BufTy).Contents (Elt F) → (⟨S8, .f32⟩ : BufTy).Contents (Elt F)),
    nullary main_c (constantI S_ 32 0#32),
    unary main_c main_v14 (broadcastInDim S8 ![] bcast_S_S8 : (⟨S_, .i32⟩ : BufTy).Contents (Elt F) → (⟨S8, .i32⟩ : BufTy).Contents (Elt F)),
    nullary main_c_3 (constantI S_ 32 0#32),
    TRef.unary (TRef.of (T := ⟨S_, .i32⟩) main_c_3) (TRef.of (T := ⟨S_, .i32⟩) main_call2_v0) id,
    TRef.unary (TRef.of (T := ⟨S_, .i32⟩) main_call2_v0) (TRef.of (T := ⟨S4, .i32⟩) main_call2_v1) (broadcastInDim S4 ![] bcast_S_S4),
    TRef.binary (TRef.of (T := ⟨S4, .i32⟩) main_call2_v1) (TRef.of (T := ⟨S4, .i32⟩) main_arg3) (TRef.of (T := ⟨S4, .i32⟩) main_v15) maxsi,
    nullary main_c_4 (constantI S_ 32 0#32),
    unary main_c_4 main_v16 (broadcastInDim S4 ![] bcast_S_S4 : (⟨S_, .i32⟩ : BufTy).Contents (Elt F) → (⟨S4, .i32⟩ : BufTy).Contents (Elt F)),
    binary main_v15 main_v16 main_v17 (cmpi .slt : (⟨S4, .i32⟩ : BufTy).Contents (Elt F) → (⟨S4, .i32⟩ : BufTy).Contents (Elt F) → (⟨S4, .i1⟩ : BufTy).Contents (Elt F)),
    nullary main_c_5 (constantI S_ 32 8#32),
    unary main_c_5 main_v18 (broadcastInDim S4 ![] bcast_S_S4 : (⟨S_, .i32⟩ : BufTy).Contents (Elt F) → (⟨S4, .i32⟩ : BufTy).Contents (Elt F)),
    binary main_v15 main_v18 main_v19 (addi : (⟨S4, .i32⟩ : BufTy).Contents (Elt F) → (⟨S4, .i32⟩ : BufTy).Contents (Elt F) → (⟨S4, .i32⟩ : BufTy).Contents (Elt F)),
    ternary main_v17 main_v19 main_v15 main_v20 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    unary main_v20 main_v21 (broadcastInDim S4x1 ![0] bcast_S4_S4x1_0 : (⟨S4, .i32⟩ : BufTy).Contents (Elt F) → (⟨S4x1, .i32⟩ : BufTy).Contents (Elt F)),
    nullary main_c_6 (constantI S_ 32 1#32),
    unary main_c_6 main_v22 (broadcastInDim S4 ![] bcast_S_S4 : (⟨S_, .i32⟩ : BufTy).Contents (Elt F) → (⟨S4, .i32⟩ : BufTy).Contents (Elt F)),
    ternary main_v14 main_v21 main_v22 main_v23 ((fun x i u => Host.scatter scatter_S8_S4x1_S4_n_0_0_1 IntOp.addi x i u) : (⟨S8, .i32⟩ : BufTy).Contents (Elt F) → (⟨S4x1, .i32⟩ : BufTy).Contents (Elt F) → (⟨S4, .i32⟩ : BufTy).Contents (Elt F) → (⟨S8, .i32⟩ : BufTy).Contents (Elt F)),
    nullary main_c_7 (constantI S_ 32 2048#32),
    unary main_c_7 main_v24 (broadcastInDim S8 ![] bcast_S_S8 : (⟨S_, .i32⟩ : BufTy).Contents (Elt F) → (⟨S8, .i32⟩ : BufTy).Contents (Elt F)),
    binary main_v23 main_v24 main_v25 (muli : (⟨S8, .i32⟩ : BufTy).Contents (Elt F) → (⟨S8, .i32⟩ : BufTy).Contents (Elt F) → (⟨S8, .i32⟩ : BufTy).Contents (Elt F)),
    unary main_v25 main_v26 (sitofp (F := F) .f32 : (⟨S8, .i32⟩ : BufTy).Contents (Elt F) → (⟨S8, .f32⟩ : BufTy).Contents (Elt F)),
    nullary main_cst_8 (constant S_ .f32 0x00000000#32),
    unary main_cst_8 main_v27 (broadcastInDim S8 ![] bcast_S_S8 : (⟨S_, .f32⟩ : BufTy).Contents (Elt F) → (⟨S8, .f32⟩ : BufTy).Contents (Elt F)),
    binary main_v26 main_v27 main_v28 (cmpf (F := F) .ogt : (⟨S8, .f32⟩ : BufTy).Contents (Elt F) → (⟨S8, .f32⟩ : BufTy).Contents (Elt F) → (⟨S8, .i1⟩ : BufTy).Contents (Elt F)),
    nullary main_cst_9 (constant S_ .f32 0x3F800000#32),
    unary main_cst_9 main_v29 (broadcastInDim S8 ![] bcast_S_S8 : (⟨S_, .f32⟩ : BufTy).Contents (Elt F) → (⟨S8, .f32⟩ : BufTy).Contents (Elt F)),
    binary main_v26 main_v29 main_v30 (maximumf : (⟨S8, .f32⟩ : BufTy).Contents (Elt F) → (⟨S8, .f32⟩ : BufTy).Contents (Elt F) → (⟨S8, .f32⟩ : BufTy).Contents (Elt F)),
    binary main_v13 main_v30 main_v31 (Host.divf : (⟨S8, .f32⟩ : BufTy).Contents (Elt F) → (⟨S8, .f32⟩ : BufTy).Contents (Elt F) → (⟨S8, .f32⟩ : BufTy).Contents (Elt F)),
    nullary main_cst_10 (constant S_ .f32 0x00000000#32),
    TRef.unary (TRef.of (T := ⟨S_, .f32⟩) main_cst_10) (TRef.of (T := ⟨S_, .f32⟩) main_call3_v0) id,
    TRef.unary (TRef.of (T := ⟨S_, .f32⟩) main_call3_v0) (TRef.of (T := ⟨S8, .f32⟩) main_call3_v1) (broadcastInDim S8 ![] bcast_S_S8),
    TRef.ternary (TRef.of (T := ⟨S8, .i1⟩) main_v28) (TRef.of (T := ⟨S8, .f32⟩) main_v31) (TRef.of (T := ⟨S8, .f32⟩) main_call3_v1) (TRef.of (T := ⟨S8, .f32⟩) main_v32) select ]

set_option maxHeartbeats 4000000 in
/-- The masked mean: run from contents whose main_v4 holds the per-token losses, main_v9 ends at its stage of the mask. -/
theorem out9 (W : Valuation τ sig (Elt F)) (x0 : (⟨S4x2048x32000, .f32⟩ : BufTy).Contents (Elt F)) (x1 : (⟨S4x2048, .i32⟩ : BufTy).Contents (Elt F))
    (h4 : W (Proc.devRef .tc main_v4) = Read.val_main_v4 (F := F) x0 x1) :
    after ops3 W (Proc.devRef .tc main_v9) = Read.val_main_v9 (F := F) x0 x1 (W (Proc.devRef .tc main_arg2)) := by
  simp only [ops3]
  after_results_simp
  try simp only [TRef.ofBuf, TRef.toBuf, cast_eq]
  rw [h4]
  unfold Read.val_main_v9 Read.val_main_v7 Read.val_main_v8 Read.val_main_v6 Read.val_main_v5 Read.val_main_cst Read.val_main_cst_0
  with_reducible rfl

set_option maxHeartbeats 4000000 in
/-- The per-domain normalized losses: run from contents whose main_v4 holds the per-token losses, main_v32 ends at its
    stage of the domain argument. -/
theorem out32 (W : Valuation τ sig (Elt F)) (x0 : (⟨S4x2048x32000, .f32⟩ : BufTy).Contents (Elt F)) (x1 : (⟨S4x2048, .i32⟩ : BufTy).Contents (Elt F))
    (h4 : W (Proc.devRef .tc main_v4) = Read.val_main_v4 (F := F) x0 x1) :
    after ops3 W (Proc.devRef .tc main_v32) = Read.val_main_v32 (F := F) x0 x1 (W (Proc.devRef .tc main_arg3)) := by
  simp only [ops3]
  after_results_simp
  try simp only [TRef.ofBuf, TRef.toBuf, cast_eq]
  rw [h4]
  unfold Read.val_main_v32 Read.val_main_v28 Read.val_main_v31 Read.val_main_call3_v1 Read.val_main_call3_v0 Read.val_main_cst_10
    Read.val_main_v13 Read.val_main_v30 Read.val_main_v29 Read.val_main_cst_9 Read.val_main_v27 Read.val_main_cst_8
    Read.val_main_v26 Read.val_main_v25 Read.val_main_v23 Read.val_main_v24 Read.val_main_c_7 Read.val_main_v14 Read.val_main_c
    Read.val_main_v21 Read.val_main_v22 Read.val_main_c_6 Read.val_main_v20 Read.val_main_v17 Read.val_main_v19 Read.val_main_v15
    Read.val_main_v16 Read.val_main_c_4 Read.val_main_v18 Read.val_main_c_5 Read.val_main_call2_v1 Read.val_main_call2_v0
    Read.val_main_c_3 Read.val_main_v11 Read.val_main_cst_2 Read.val_main_v12 Read.val_main_v10 Read.val_main_cst_1
  with_reducible rfl

set_option maxHeartbeats 4000000 in
/-- The per-domain sample counts: main_v23 ends at its stage of the domain argument, whatever main_v4 holds. -/
theorem out23 (W : Valuation τ sig (Elt F)) :
    after ops3 W (Proc.devRef .tc main_v23) = Read.val_main_v23 (F := F) (W (Proc.devRef .tc main_arg3)) := by
  simp only [ops3]
  after_results_simp
  try simp only [TRef.ofBuf, TRef.toBuf, cast_eq]
  unfold Read.val_main_v23 Read.val_main_v14 Read.val_main_c Read.val_main_v21 Read.val_main_v22 Read.val_main_c_6
    Read.val_main_v20 Read.val_main_v17 Read.val_main_v19 Read.val_main_v15 Read.val_main_v16 Read.val_main_c_4
    Read.val_main_v18 Read.val_main_c_5 Read.val_main_call2_v1 Read.val_main_call2_v0 Read.val_main_c_3
  with_reducible rfl

set_option maxHeartbeats 4000000 in
/-- No operation of the stretch writes an argument: each keeps its contents. -/
theorem keep0 (W : Valuation τ sig (Elt F)) : after ops3 W (Proc.devRef .tc main_arg0) = W (Proc.devRef .tc main_arg0) := by
  simp only [ops3]
  after_results_simp
set_option maxHeartbeats 4000000 in
theorem keep1 (W : Valuation τ sig (Elt F)) : after ops3 W (Proc.devRef .tc main_arg1) = W (Proc.devRef .tc main_arg1) := by
  simp only [ops3]
  after_results_simp
set_option maxHeartbeats 4000000 in
theorem keep2 (W : Valuation τ sig (Elt F)) : after ops3 W (Proc.devRef .tc main_arg2) = W (Proc.devRef .tc main_arg2) := by
  simp only [ops3]
  after_results_simp
set_option maxHeartbeats 4000000 in
theorem keep3 (W : Valuation τ sig (Elt F)) : after ops3 W (Proc.devRef .tc main_arg3) = W (Proc.devRef .tc main_arg3) := by
  simp only [ops3]
  after_results_simp

end Cert.RefStage3

end
-- ==== Proof.RefStages.lean ====
/-
  The reference program, run.

  The reference is a straight line of 85 host operations. They are taken in three stretches: the log-softmax of the
  logits (operations 1–15), the per-token loss from it and the labels — gather at the label, mask, reshape, negate —
  (16–40), and the masked mean, the per-domain sums and the sample counts (41–85). Each stretch is evaluated from
  arbitrary starting contents, so what a later stretch reads of an earlier one is a name, never a term; chained, they
  say that the three results are the read module's stages of the arguments, and no operation writes an argument.
-/
import proofs.«419041_j51728586113630_3_alg».proof.Proof.RefStage1
import proofs.«419041_j51728586113630_3_alg».proof.Proof.RefStage2
import proofs.«419041_j51728586113630_3_alg».proof.Proof.RefStage3

noncomputable section

namespace Cert.RefStages

open Cert.ReferenceIdeal Cert.ReferenceIdeal.Gen Cert.ReferenceIdeal.Value Idealize.ShloMosaic Idealize.ShloMosaic.TcCoe
  Idealize.SL.Sem Idealize.ShloMosaic.StableHlo

variable {F : FTy → Type} [FloatOps F]

/-- Operations run one list after the other: the contents after the concatenation are those after the second list
    from the contents after the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The 85 operations are the three stretches in order. -/
theorem ops_cut : (ops : List (HloOp τ sig (Elt F))) = Cert.RefStage1.ops1 ++ (Cert.RefStage2.ops2 ++ Cert.RefStage3.ops3) := rfl

section Results

variable (W : Valuation τ sig (Elt F))

/-- After the first two stretches the per-token loss buffer holds the read module's stage of the two arguments. -/
theorem loss_after : after Cert.RefStage2.ops2 (after Cert.RefStage1.ops1 W) (Proc.devRef .tc main_v4)
    = Cert.ReferenceIdeal.Read.val_main_v4 (F := F) (W (Proc.devRef .tc main_arg0)) (W (Proc.devRef .tc main_arg1)) := by
  rw [Cert.RefStage2.out, Cert.RefStage1.out, Cert.RefStage1.keep1, ← Cert.RefStage2.v4_eq]

theorem res_v9 : after ops W (Proc.devRef .tc main_v9)
    = Cert.ReferenceIdeal.Read.val_main_v9 (F := F) (W (Proc.devRef .tc main_arg0)) (W (Proc.devRef .tc main_arg1)) (W (Proc.devRef .tc main_arg2)) := by
  rw [ops_cut, after_append, after_append, Cert.RefStage3.out9 _ _ _ (loss_after W), Cert.RefStage2.keep2, Cert.RefStage1.keep2]

theorem res_v32 : after ops W (Proc.devRef .tc main_v32)
    = Cert.ReferenceIdeal.Read.val_main_v32 (F := F) (W (Proc.devRef .tc main_arg0)) (W (Proc.devRef .tc main_arg1)) (W (Proc.devRef .tc main_arg3)) := by
  rw [ops_cut, after_append, after_append, Cert.RefStage3.out32 _ _ _ (loss_after W), Cert.RefStage2.keep3, Cert.RefStage1.keep3]

theorem res_v23 : after ops W (Proc.devRef .tc main_v23)
    = Cert.ReferenceIdeal.Read.val_main_v23 (F := F) (W (Proc.devRef .tc main_arg3)) := by
  rw [ops_cut, after_append, after_append, Cert.RefStage3.out23, Cert.RefStage2.keep3, Cert.RefStage1.keep3]

theorem res_arg0 : after ops W (Proc.devRef .tc main_arg0) = W (Proc.devRef .tc main_arg0) := by
  rw [ops_cut, after_append, after_append, Cert.RefStage3.keep0, Cert.RefStage2.keep0, Cert.RefStage1.keep0]

theorem res_arg1 : after ops W (Proc.devRef .tc main_arg1) = W (Proc.devRef .tc main_arg1) := by
  rw [ops_cut, after_append, after_append, Cert.RefStage3.keep1, Cert.RefStage2.keep1, Cert.RefStage1.keep1]

theorem res_arg2 : after ops W (Proc.devRef .tc main_arg2) = W (Proc.devRef .tc main_arg2) := by
  rw [ops_cut, after_append, after_append, Cert.RefStage3.keep2, Cert.RefStage2.keep2, Cert.RefStage1.keep2]

theorem res_arg3 : after ops W (Proc.devRef .tc main_arg3) = W (Proc.devRef .tc main_arg3) := by
  rw [ops_cut, after_append, after_append, Cert.RefStage3.keep3, Cert.RefStage2.keep3, Cert.RefStage1.keep3]

end Results

/-- On every device, from any memory with zero counters: every weakly fair execution of the reference terminates with
    its three results at the read module's stages of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v9) = Cert.ReferenceIdeal.Read.val_main_v9 (F := F) (m ((c.tc : Thread nD τ).loc main_arg0)) (m ((c.tc : Thread nD τ).loc main_arg1)) (m ((c.tc : Thread nD τ).loc main_arg2))
      ∧ r.2.mem ((c.tc : Thread nD τ).loc main_v32) = Cert.ReferenceIdeal.Read.val_main_v32 (F := F) (m ((c.tc : Thread nD τ).loc main_arg0)) (m ((c.tc : Thread nD τ).loc main_arg1)) (m ((c.tc : Thread nD τ).loc main_arg3))
      ∧ r.2.mem ((c.tc : Thread nD τ).loc main_v23) = Cert.ReferenceIdeal.Read.val_main_v23 (F := F) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(h c main_v9).trans (res_v9 _), (h c main_v32).trans (res_v32 _), (h c main_v23).trans (res_v23 _),
      (h c main_arg0).trans (res_arg0 _), (h c main_arg1).trans (res_arg1 _), (h c main_arg2).trans (res_arg2 _),
      (h c main_arg3).trans (res_arg3 _)⟩)
    (run_seq scopedRefs_eq scopedSems_eq defs main (fun _ => ops) main_eq (fun _ => ops_sub) m ρ)

end Cert.RefStages

end
-- ==== Proof.lean ====
/-
  The kernel computes, in one pass over the logits, the per-token cross-entropy loss log (∑ₖ exp x[t, k]) - x[t, label t]
  by an online log-sum-exp: the 32000 columns are read in five tiles of 6400, a running shift (the running maximum,
  started from a finite stand-in for minus infinity), a running sum of exponentials relative to the shift and the
  entry at the label's column are carried from tile to tile, and after the last tile the loss is shift + log sum - entry.
  The reference computes log_softmax (subtract the row maximum, subtract the log of the sum of exponentials), takes the
  entry at the label and negates it. Over the extended reals, for finite logits and labels that are columns of the matrix
  (the precondition), both are the real number log (∑ₖ exp x[t, k]) - x[t, label t]: log-sum-exp does not depend on the
  shift. After the per-token losses the two programs apply the same operations (masked mean, per-domain sums and
  counts), so their three results agree.

  The parts: the precondition read as "every logit is a real number, every label a column" (PreDecode); the body's
  arithmetic on one row (KernelPayload) and what one grid point leaves in the carried vectors (KernelPieces), the
  blocks a point reads (KernelBlocks), the induction over the grid (KernelInv), the output array and its reshapes
  (KernelArray), the operations after the launch (KernelTail); the reference's run over its stages (RefStages) and its
  per-token loss (RefValue); log-sum-exp over the reals (LseReal) and the common specification (Spec).
-/
import proofs.«419041_j51728586113630_3_alg».proof.Defs
import proofs.«419041_j51728586113630_3_alg».proof.Proof.Gen.Kernel
import proofs.«419041_j51728586113630_3_alg».proof.Proof.Gen.Kernel.Frame
import proofs.«419041_j51728586113630_3_alg».proof.Proof.Gen.KernelIdeal
import proofs.«419041_j51728586113630_3_alg».proof.Proof.Gen.KernelIdeal.Frame
import proofs.«419041_j51728586113630_3_alg».proof.Proof.Gen.ReferenceIdeal
import proofs.«419041_j51728586113630_3_alg».proof.Proof.Gen.Pre_finite_inputs
import proofs.«419041_j51728586113630_3_alg».proof.Proof.PreDecode
import proofs.«419041_j51728586113630_3_alg».proof.Proof.KernelArray
import proofs.«419041_j51728586113630_3_alg».proof.Proof.KernelTail
import proofs.«419041_j51728586113630_3_alg».proof.Proof.RefValue
import proofs.«419041_j51728586113630_3_alg».proof.Proof.RefStages
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The idealized reference runs and keeps its arguments: its run with the results dropped. -/
theorem frame_ri : Cert.frame_ReferenceIdeal := fun m ρ _ =>
  (θ_run Cert.ReferenceIdeal.defs _ _).mono (fun _ h c => (h c).2.2.2) (Cert.RefStages.run (F := Ideal) m ρ)

/-- Both programs end with the masked mean, the normalized per-domain losses and the sample counts of the SAME
    per-token losses, `Spec.Loss` of the logits and the labels: the kernel's output array, reshaped, is that array
    (the induction over the grid), and so is the reference's negated gathered log-softmax. -/
theorem algebraic : Cert.algebraic_KernelIdeal_ReferenceIdeal := by
  intro m ρ m' ρ' hpre hagree
  have hdec : ∀ c : Dev Cert.KernelIdeal.nD,
      Cert.Spec.Finite (m ((c.tc : Thread Cert.KernelIdeal.nD Cert.KernelIdeal.τ).loc Cert.KernelIdeal.main_arg0))
        ∧ Cert.Spec.InRange (m ((c.tc : Thread Cert.KernelIdeal.nD Cert.KernelIdeal.τ).loc Cert.KernelIdeal.main_arg1)) :=
    fun c => Cert.PreDecode.of_pre _ _ _ _ (hpre c)
  refine ⟨fun c => Cert.Tail.ce (F := Ideal)
        (Cert.Spec.Loss (m ((c.tc : Thread Cert.KernelIdeal.nD Cert.KernelIdeal.τ).loc Cert.KernelIdeal.main_arg0))
          (m ((c.tc : Thread Cert.KernelIdeal.nD Cert.KernelIdeal.τ).loc Cert.KernelIdeal.main_arg1)))
        (m ((c.tc : Thread Cert.KernelIdeal.nD Cert.KernelIdeal.τ).loc Cert.KernelIdeal.main_arg2)),
      fun c => Cert.Tail.norm (F := Ideal)
        (Cert.Spec.Loss (m ((c.tc : Thread Cert.KernelIdeal.nD Cert.KernelIdeal.τ).loc Cert.KernelIdeal.main_arg0))
          (m ((c.tc : Thread Cert.KernelIdeal.nD Cert.KernelIdeal.τ).loc Cert.KernelIdeal.main_arg1)))
        (m ((c.tc : Thread Cert.KernelIdeal.nD Cert.KernelIdeal.τ).loc Cert.KernelIdeal.main_arg3)),
      fun c => Cert.ReferenceIdeal.Read.val_main_v23 (F := Ideal)
        (m ((c.tc : Thread Cert.KernelIdeal.nD Cert.KernelIdeal.τ).loc Cert.KernelIdeal.main_arg3)), ?_, ?_⟩
  · refine (θ_run Cert.KernelIdeal.defs _ _).mono (fun _ h c => ?_) (Cert.Tail.run (F := Ideal) m ρ)
    have hk : Cert.Tail.kv (F := Ideal) m c
        = Cert.Spec.Loss (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
      unfold Cert.Tail.kv
      rw [Cert.KernelIdeal.Arr.final_out m c (hdec c).1 (hdec c).2]
      exact Cert.KernelIdeal.Arr.reshaped_eq _ _
    obtain ⟨h9, h32, h23, ha0, ha1, ha2, ha3⟩ := h c
    exact ⟨h9.trans (by rw [hk]), h32.trans (by rw [hk]), h23, ha0, ha1, ha2, ha3⟩
  · refine (θ_run Cert.ReferenceIdeal.defs _ _).mono (fun _ h c => ?_) (Cert.RefStages.run (F := Ideal) m' ρ')
    obtain ⟨h9, h32, h23, ha0, ha1, ha2, ha3⟩ := h c
    obtain ⟨e0, e1, e2, e3⟩ := hagree c
    have hl : Cert.ReferenceIdeal.Read.val_main_v4 (F := Ideal)
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
        = Cert.Spec.Loss (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
      rw [e0, e1]
      exact Cert.RefValue.ref_loss _ _ (hdec c).1 (hdec c).2
    refine ⟨h9.trans ?_, h32.trans ?_, h23.trans ?_, ha0, ha1, ha2, ha3⟩
    · rw [Cert.Tail.ref_ce, hl, e2]
    · rw [Cert.Tail.ref_norm, hl, e3]
    · rw [e3]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
